-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x3200000 : Shape := ⟨2, ![2, 3200000]⟩
abbrev S100000 : Shape := ⟨1, ![100000]⟩
abbrev S3x16 : Shape := ⟨2, ![3, 16]⟩
abbrev S16 : Shape := ⟨1, ![16]⟩
abbrev S16x16 : Shape := ⟨2, ![16, 16]⟩
abbrev S16x2 : Shape := ⟨2, ![16, 2]⟩
abbrev S2 : Shape := ⟨1, ![2]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3x16 : S_.BroadcastsInDim S3x16 (![] : Fin 0 → Fin S3x16.rank)
  reducesTo_S3x16_S_d0_1 : S3x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg9 : FVec F S16x16 .f32) (main_arg10 : FVec F S16 .f32) (main_arg11 : FVec F S16x2 .f32) (main_arg12 : FVec F S2 .f32) (main_v33 : IVec S_ 1) : IVec S_ 1 :=
  let main_v34 : FVec F S16x16 .f32 := Host.absf main_arg9
  let main_cst_12 : FVec F S_ .f32 := constant S_ .f32 0x7F800000#32
  let main_v35 : FVec F S16x16 .f32 := broadcastInDim S16x16 ![] bcast_S_S16x16 main_cst_12
  let main_v36 : IVec S16x16 1 := cmpf .olt main_v34 main_v35
  let main_c_13 : IVec S_ 1 := constantI S_ 1 1#1
  let main_v37 : IVec S_ 1 := (fun x v => Host.reduce IntOp.andi x v reducesTo_S16x16_S_d0_1 h_S_) main_v36 main_c_13
  let main_v38 : IVec S_ 1 := andi main_v33 main_v37
  let main_v39 : FVec F S16 .f32 := Host.absf main_arg10
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S16x2 .f32 := Host.absf main_arg11
  let main_cst_16 : FVec F S_ .f32 := constant S_ .f32 0x7F800000#32
  let main_v45 : FVec F S16x2 .f32 := broadcastInDim S16x2 ![] bcast_S_S16x2 main_cst_16
  let main_v46 : IVec S16x2 1 := cmpf .olt main_v44 main_v45
  let main_c_17 : IVec S_ 1 := constantI S_ 1 1#1
  let main_v47 : IVec S_ 1 := (fun x v => Host.reduce IntOp.andi x v reducesTo_S16x2_S_d0_1 h_S_) main_v46 main_c_17
  let main_v48 : IVec S_ 1 := andi main_v43 main_v47
  let main_v49 : FVec F S2 .f32 := Host.absf main_arg12
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg6 : FVec F S16x16 .f32) (main_arg7 : FVec F S16 .f32) (main_arg8 : FVec F S16x16 .f32) (main_arg9 : FVec F S16x16 .f32) (main_arg10 : FVec F S16 .f32) (main_arg11 : FVec F S16x2 .f32) (main_arg12 : FVec F S2 .f32) (main_v13 : IVec S_ 1) (main_v16 : IVec S3x16 1) : IVec S_ 1 :=
  let main_c_5 : IVec S_ 1 := constantI S_ 1 1#1
  let main_v17 : IVec S_ 1 := (fun x v => Host.reduce IntOp.andi x v reducesTo_S3x16_S_d0_1 h_S_) main_v16 main_c_5
  let main_v18 : IVec S_ 1 := andi main_v13 main_v17
  let main_v19 : FVec F S16x16 .f32 := Host.absf main_arg6
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16 .f32 := Host.absf main_arg7
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x16 .f32 := Host.absf main_arg8
  let main_cst_10 : FVec F S_ .f32 := constant S_ .f32 0x7F800000#32
  let main_v30 : FVec F S16x16 .f32 := broadcastInDim S16x16 ![] bcast_S_S16x16 main_cst_10
  let main_v31 : IVec S16x16 1 := cmpf .olt main_v29 main_v30
  let main_c_11 : IVec S_ 1 := constantI S_ 1 1#1
  let main_v32 : IVec S_ 1 := (fun x v => Host.reduce IntOp.andi x v reducesTo_S16x16_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x3 .f32) (main_arg1 : IVec S2x3200000 32) (main_arg2 : IVec S100000 32) (main_arg3 : FVec F S3x16 .f32) (main_arg4 : FVec F S16 .f32) (main_arg5 : FVec F S3x16 .f32) (main_arg6 : FVec F S16x16 .f32) (main_arg7 : FVec F S16 .f32) (main_arg8 : FVec F S16x16 .f32) (main_arg9 : FVec F S16x16 .f32) (main_arg10 : FVec F S16 .f32) (main_arg11 : FVec F S16x2 .f32) (main_arg12 : FVec F S2 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3x16 .f32 := Host.absf main_arg3
  let main_cst_0 : FVec F S_ .f32 := constant S_ .f32 0x7F800000#32
  let main_v5 : FVec F S3x16 .f32 := broadcastInDim S3x16 ![] bcast_S_S3x16 main_cst_0
  let main_v6 : IVec S3x16 1 := cmpf .olt main_v4 main_v5
  let main_c_1 : IVec S_ 1 := constantI S_ 1 1#1
  let main_v7 : IVec S_ 1 := (fun x v => Host.reduce IntOp.andi x v reducesTo_S3x16_S_d0_1 h_S_) main_v6 main_c_1
  let main_v8 : IVec S_ 1 := andi main_v3 main_v7
  let main_v9 : FVec F S16 .f32 := Host.absf main_arg4
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S3x16 .f32 := Host.absf main_arg5
  let main_cst_4 : FVec F S_ .f32 := constant S_ .f32 0x7F800000#32
  let main_v15 : FVec F S3x16 .f32 := broadcastInDim S3x16 ![] bcast_S_S3x16 main_cst_4
  let main_v16 : IVec S3x16 1 := cmpf .olt main_v14 main_v15
  fn_part1 (F := F) main_arg6 main_arg7 main_arg8 main_arg9 main_arg10 main_arg11 main_arg12 main_v13 main_v16
-- ==== Kernel.lean ====
abbrev S100000x3 : Shape := ⟨2, ![100000, 3]⟩
abbrev S2x3200000 : Shape := ⟨2, ![2, 3200000]⟩
abbrev S100000 : Shape := ⟨1, ![100000]⟩
abbrev S3x16 : Shape := ⟨2, ![3, 16]⟩
abbrev S16 : Shape := ⟨1, ![16]⟩
abbrev S16x16 : Shape := ⟨2, ![16, 16]⟩
abbrev S16x2 : Shape := ⟨2, ![16, 2]⟩
abbrev S2 : Shape := ⟨1, ![2]⟩
abbrev S1x3200000 : Shape := ⟨2, ![1, 3200000]⟩
abbrev S3200000 : Shape := ⟨1, ![3200000]⟩
abbrev S100000x1 : Shape := ⟨2, ![100000, 1]⟩
abbrev S_ : Shape := ⟨0, ![]⟩
abbrev S3200000x1 : Shape := ⟨2, ![3200000, 1]⟩
abbrev S100000x16 : Shape := ⟨2, ![100000, 16]⟩
abbrev S2000x3 : Shape := ⟨2, ![2000, 3]⟩
abbrev S2000x16 : Shape := ⟨2, ![2000, 16]⟩
abbrev S1x16 : Shape := ⟨2, ![1, 16]⟩
abbrev S3200000x16 : Shape := ⟨2, ![3200000, 16]⟩
abbrev S64x2 : Shape := ⟨2, ![64, 2]⟩
abbrev S2000x1 : Shape := ⟨2, ![2000, 1]⟩
abbrev S64x16 : Shape := ⟨2, ![64, 16]⟩
abbrev S64x1 : Shape := ⟨2, ![64, 1]⟩
abbrev S1x64 : Shape := ⟨2, ![1, 64]⟩
abbrev S2000x64 : Shape := ⟨2, ![2000, 64]⟩
abbrev S1x2 : Shape := ⟨2, ![1, 2]⟩

abbrev nBuf : Space → Nat
  | .hbm => 112
  | .vmem => 41
  | .smem => 0
  | _ => 0

abbrev bufTy : (tb : Table) → Fin (tcTables nBuf tb) → BufTy
  | .hbm, ⟨0, _⟩ => ⟨S100000x3, .f32⟩
  | .hbm, ⟨1, _⟩ => ⟨S2x3200000, .i32⟩
  | .hbm, ⟨2, _⟩ => ⟨S100000, .i32⟩
  | .hbm, ⟨3, _⟩ => ⟨S3x16, .f32⟩
  | .hbm, ⟨4, _⟩ => ⟨S16, .f32⟩
  | .hbm, ⟨5, _⟩ => ⟨S3x16, .f32⟩
  | .hbm, ⟨6, _⟩ => ⟨S16x16, .f32⟩
  | .hbm, ⟨7, _⟩ => ⟨S16, .f32⟩
  | .hbm, ⟨8, _⟩ => ⟨S16x16, .f32⟩
  | .hbm, ⟨9, _⟩ => ⟨S16x16, .f32⟩
  | .hbm, ⟨10, _⟩ => ⟨S16, .f32⟩
  | .hbm, ⟨11, _⟩ => ⟨S16x2, .f32⟩
  | .hbm, ⟨12, _⟩ => ⟨S2, .f32⟩
  | .hbm, ⟨13, _⟩ => ⟨S1x3200000, .i32⟩
  | .hbm, ⟨14, _⟩ => ⟨S3200000, .i32⟩
  | .hbm, ⟨15, _⟩ => ⟨S1x3200000, .i32⟩
  | .hbm, ⟨16, _⟩ => ⟨S3200000, .i32⟩
  | .hbm, ⟨17, _⟩ => ⟨S100000x1, .i32⟩
  | .hbm, ⟨18, _⟩ => ⟨S_, .f32⟩
  | .hbm, ⟨19, _⟩ => ⟨S3200000, .f32⟩
  | .hbm, ⟨20, _⟩ => ⟨S_, .f32⟩
  | .hbm, ⟨21, _⟩ => ⟨S100000, .f32⟩
  | .hbm, ⟨22, _⟩ => ⟨S3200000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S3200000, .i32⟩
  | .hbm, ⟨36, _⟩ => ⟨S3200000, .i1⟩
  | .hbm, ⟨37, _⟩ => ⟨S_, .i32⟩
  | .hbm, ⟨38, _⟩ => ⟨S3200000, .i32⟩
  | .hbm, ⟨39, _⟩ => ⟨S3200000, .i32⟩
  | .hbm, ⟨40, _⟩ => ⟨S3200000, .i32⟩
  | .hbm, ⟨41, _⟩ => ⟨S3200000x1, .i32⟩
  | .hbm, ⟨42, _⟩ => ⟨S3200000, .f32⟩
  | .hbm, ⟨43, _⟩ => ⟨S_, .i32⟩
  | .hbm, ⟨44, _⟩ => ⟨S3200000, .i32⟩
  | .hbm, ⟨45, _⟩ => ⟨S3200000, .i1⟩
  | .hbm, ⟨46, _⟩ => ⟨S_, .i32⟩
  | .hbm, ⟨47, _⟩ => ⟨S3200000, .i32⟩
  | .hbm, ⟨48, _⟩ => ⟨S3200000, .i32⟩
  | .hbm, ⟨49, _⟩ => ⟨S3200000, .i32⟩
  | .hbm, ⟨50, _⟩ => ⟨S3200000x1, .i32⟩
  | .hbm, ⟨51, _⟩ => ⟨S3200000, .f32⟩
  | .hbm, ⟨52, _⟩ => ⟨S3200000, .f32⟩
  | .hbm, ⟨53, _⟩ => ⟨S100000x16, .f32⟩
  | .hbm, ⟨54, _⟩ => ⟨S100000x16, .f32⟩
  | .hbm, ⟨55, _⟩ => ⟨S3200000x1, .f32⟩
  | .hbm, ⟨56, _⟩ => ⟨S_, .i32⟩
  | .hbm, ⟨57, _⟩ => ⟨S3200000, .i32⟩
  | .hbm, ⟨58, _⟩ => ⟨S3200000, .i1⟩
  | .hbm, ⟨59, _⟩ => ⟨S_, .i32⟩
  | .hbm, ⟨60, _⟩ => ⟨S3200000, .i32⟩
  | .hbm, ⟨61, _⟩ => ⟨S3200000, .i32⟩
  | .hbm, ⟨62, _⟩ => ⟨S3200000, .i32⟩
  | .hbm, ⟨63, _⟩ => ⟨S3200000x1, .i32⟩
  | .hbm, ⟨64, _⟩ => ⟨S3200000x16, .f32⟩
  | .hbm, ⟨65, _⟩ => ⟨S3200000x16, .f32⟩
  | .hbm, ⟨66, _⟩ => ⟨S3200000x16, .f32⟩
  | .hbm, ⟨67, _⟩ => ⟨S_, .f32⟩
  | .hbm, ⟨68, _⟩ => ⟨S100000x16, .f32⟩
  | .hbm, ⟨69, _⟩ => ⟨S3200000x1, .i32⟩
  | .hbm, ⟨70, _⟩ => ⟨S100000x16, .f32⟩
  | .hbm, ⟨71, _⟩ => ⟨S_, .f32⟩
  | .hbm, ⟨72, _⟩ => ⟨S100000, .f32⟩
  | .hbm, ⟨73, _⟩ => ⟨S3200000x1, .i32⟩
  | .hbm, ⟨74, _⟩ => ⟨S100000, .f32⟩
  | .hbm, ⟨75, _⟩ => ⟨S_, .f32⟩
  | .hbm, ⟨76, _⟩ => ⟨S100000, .f32⟩
  | .hbm, ⟨77, _⟩ => ⟨S100000, .f32⟩
  | .hbm, ⟨78, _⟩ => ⟨S100000x1, .f32⟩
  | .hbm, ⟨79, _⟩ => ⟨S100000x16, .f32⟩
  | .hbm, ⟨80, _⟩ => ⟨S100000x16, .f32⟩
  | .hbm, ⟨81, _⟩ => ⟨S100000x16, .f32⟩
  | .hbm, ⟨82, _⟩ => ⟨S100000x16, .f32⟩
  | .hbm, ⟨83, _⟩ => ⟨S100000x16, .f32⟩
  | .hbm, ⟨84, _⟩ => ⟨S3200000x1, .f32⟩
  | .hbm, ⟨85, _⟩ => ⟨S_, .i32⟩
  | .hbm, ⟨86, _⟩ => ⟨S3200000, .i32⟩
  | .hbm, ⟨87, _⟩ => ⟨S3200000, .i1⟩
  | .hbm, ⟨88, _⟩ => ⟨S_, .i32⟩
  | .hbm, ⟨89, _⟩ => ⟨S3200000, .i32⟩
  | .hbm, ⟨90, _⟩ => ⟨S3200000, .i32⟩
  | .hbm, ⟨91, _⟩ => ⟨S3200000, .i32⟩
  | .hbm, ⟨92, _⟩ => ⟨S3200000x1, .i32⟩
  | .hbm, ⟨93, _⟩ => ⟨S3200000x16, .f32⟩
  | .hbm, ⟨94, _⟩ => ⟨S3200000x16, .f32⟩
  | .hbm, ⟨95, _⟩ => ⟨S3200000x16, .f32⟩
  | .hbm, ⟨96, _⟩ => ⟨S_, .f32⟩
  | .hbm, ⟨97, _⟩ => ⟨S100000x16, .f32⟩
  | .hbm, ⟨98, _⟩ => ⟨S3200000x1, .i32⟩
  | .hbm, ⟨99, _⟩ => ⟨S100000x16, .f32⟩
  | .hbm, ⟨100, _⟩ => ⟨S_, .f32⟩
  | .hbm, ⟨101, _⟩ => ⟨S100000, .f32⟩
  | .hbm, ⟨102, _⟩ => ⟨S3200000x1, .i32⟩
  | .hbm, ⟨103, _⟩ => ⟨S100000, .f32⟩
  | .hbm, ⟨104, _⟩ => ⟨S_, .f32⟩
  | .hbm, ⟨105, _⟩ => ⟨S100000, .f32⟩
  | .hbm, ⟨106, _⟩ => ⟨S100000, .f32⟩
  | .hbm, ⟨107, _⟩ => ⟨S100000x1, .f32⟩
  | .hbm, ⟨108, _⟩ => ⟨S100000x16, .f32⟩
  | .hbm, ⟨109, _⟩ => ⟨S100000x16, .f32⟩
  | .hbm, ⟨110, _⟩ => ⟨S100000x16, .f32⟩
  | .hbm, ⟨111, _⟩ => ⟨S64x2, .f32⟩
  | .local _ .vmem, ⟨0, _⟩ => ⟨S2000x3, .f32⟩
  | .local _ .vmem, ⟨1, _⟩ => ⟨S2000x3, .f32⟩
  | .local _ .vmem, ⟨2, _⟩ => ⟨S3x16, .f32⟩
  | .local _ .vmem, ⟨3, _⟩ => ⟨S16, .f32⟩
  | .local _ .vmem, ⟨4, _⟩ => ⟨S3x16, .f32⟩
  | .local _ .vmem, ⟨5, _⟩ => ⟨S2000x16, .f32⟩
  | .local _ .vmem, ⟨6, _⟩ => ⟨S2000x16, .f32⟩
  | .local _ .vmem, ⟨7, _⟩ => ⟨S2000x16, .f32⟩
  | .local _ .vmem, ⟨8, _⟩ => ⟨S2000x16, .f32⟩
  | .local _ .vmem, ⟨9, _⟩ => ⟨S2000x16, .f32⟩
  | .local _ .vmem, ⟨10, _⟩ => ⟨S2000x16, .f32⟩
  | .local _ .vmem, ⟨11, _⟩ => ⟨S2000x16, .f32⟩
  | .local _ .vmem, ⟨12, _⟩ => ⟨S2000x16, .f32⟩
  | .local _ .vmem, ⟨13, _⟩ => ⟨S2000x16, .f32⟩
  | .local _ .vmem, ⟨14, _⟩ => ⟨S2000x16, .f32⟩
  | .local _ .vmem, ⟨15, _⟩ => ⟨S2000x16, .f32⟩
  | .local _ .vmem, ⟨16, _⟩ => ⟨S2000x16, .f32⟩
  | .local _ .vmem, ⟨17, _⟩ => ⟨S16x16, .f32⟩
  | .local _ .vmem, ⟨18, _⟩ => ⟨S16, .f32⟩
  | .local _ .vmem, ⟨19, _⟩ => ⟨S16x16, .f32⟩
  | .local _ .vmem, ⟨20, _⟩ => ⟨S2000x16, .f32⟩
  | .local _ .vmem, ⟨21, _⟩ => ⟨S2000x16, .f32⟩
  | .local _ .vmem, ⟨22, _⟩ => ⟨S2000x16, .f32⟩
  | .local _ .vmem, ⟨23, _⟩ => ⟨S2000x16, .f32⟩
  | .local _ .vmem, ⟨24, _⟩ => ⟨S2000x16, .f32⟩
  | .local _ .vmem, ⟨25, _⟩ => ⟨S2000x16, .f32⟩
  | .local _ .vmem, ⟨26, _⟩ => ⟨S2000x16, .f32⟩
  | .local _ .vmem, ⟨27, _⟩ => ⟨S2000x16, .f32⟩
  | .local _ .vmem, ⟨28, _⟩ => ⟨S2000x16, .f32⟩
  | .local _ .vmem, ⟨29, _⟩ => ⟨S2000x16, .f32⟩
  | .local _ .vmem, ⟨30, _⟩ => ⟨S2000x16, .f32⟩
  | .local _ .vmem, ⟨31, _⟩ => ⟨S2000x16, .f32⟩
  | .local _ .vmem, ⟨32, _⟩ => ⟨S2000x1, .i32⟩
  | .local _ .vmem, ⟨33, _⟩ => ⟨S2000x1, .i32⟩
  | .local _ .vmem, ⟨34, _⟩ => ⟨S16x16, .f32⟩
  | .local _ .vmem, ⟨35, _⟩ => ⟨S16, .f32⟩
  | .local _ .vmem, ⟨36, _⟩ => ⟨S16x2, .f32⟩
  | .local _ .vmem, ⟨37, _⟩ => ⟨S2, .f32⟩
  | .local _ .vmem, ⟨38, _⟩ => ⟨S64x2, .f32⟩
  | .local _ .vmem, ⟨39, _⟩ => ⟨S64x16, .f32⟩
  | .local _ .vmem, ⟨40, _⟩ => ⟨S64x1, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v13 : Ref sig .tc := ⟨.hbm, 33, rfl⟩
abbrev main_c : Ref sig .tc := ⟨.hbm, 34, rfl⟩
abbrev main_v14 : Ref sig .tc := ⟨.hbm, 35, rfl⟩
abbrev main_v15 : Ref sig .tc := ⟨.hbm, 36, rfl⟩
abbrev main_c_4 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c_5 : Ref sig .tc := ⟨.hbm, 43, rfl⟩
abbrev main_v21 : Ref sig .tc := ⟨.hbm, 44, rfl⟩
abbrev main_v22 : Ref sig .tc := ⟨.hbm, 45, rfl⟩
abbrev main_c_6 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29_0 : Ref sig .tc := ⟨.hbm, 53, rfl⟩
abbrev main_v29_1 : Ref sig .tc := ⟨.hbm, 54, rfl⟩
abbrev main_v30 : Ref sig .tc := ⟨.hbm, 55, rfl⟩
abbrev main_c_7 : Ref sig .tc := ⟨.hbm, 56, rfl⟩
abbrev main_v31 : Ref sig .tc := ⟨.hbm, 57, rfl⟩
abbrev main_v32 : Ref sig .tc := ⟨.hbm, 58, rfl⟩
abbrev main_c_8 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_9 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_10 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_11 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52_0 : Ref sig .tc := ⟨.hbm, 82, rfl⟩
abbrev main_v52_1 : Ref sig .tc := ⟨.hbm, 83, rfl⟩
abbrev main_v53 : Ref sig .tc := ⟨.hbm, 84, rfl⟩
abbrev main_c_12 : Ref sig .tc := ⟨.hbm, 85, rfl⟩
abbrev main_v54 : Ref sig .tc := ⟨.hbm, 86, rfl⟩
abbrev main_v55 : Ref sig .tc := ⟨.hbm, 87, rfl⟩
abbrev main_c_13 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_14 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_15 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_16 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg5_0 : Ref sig .tc := ⟨.vmem, 37, rfl⟩
abbrev cc4_stg6_0 : Ref sig .tc := ⟨.vmem, 38, rfl⟩
abbrev cc4_scratch0 : Ref sig .tc := ⟨.vmem, 39, rfl⟩
abbrev cc4_scratch1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem4_1 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem3_0 : DmaSem sig := 35
abbrev cc4_sem4_0 : DmaSem sig := 36
abbrev cc4_sem5_0 : DmaSem sig := 37
abbrev cc4_sem6_0 : DmaSem sig := 38

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S16x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x16 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2000x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def k4_cond2 (i : grid4.Coords) : BitVec 1 :=
  let arg0 : BitVec 32 := BitVec.ofNat 32 (i 0).val
  let c49_i32 : BitVec 32 := 49#32
  let v28 : BitVec 1 := Scalar.cmpi .eq arg0 c49_i32
  let v29 : BitVec 32 := Scalar.extui v28
  let c0_i32_14 : BitVec 32 := 0#32
  let v30 : BitVec 1 := Scalar.cmpi .ne v29 c0_i32_14
  v30

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S16x16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S16 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S16x2 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S2 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S64x2 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  shapeCasts_S100000_S100000x1 : S100000.ShapeCasts S100000x1
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  inb_S2000x3_S2000x3_0_0 : ∀ a, (![0, 0] : Fin 2 → Nat) a + S2000x3.size a ≤ S2000x3.size a
  h_S2000x3 : 0 < S2000x3.numel
  bitsLt_bf16_f32 : FTy.bits .bf16 < FTy.bits .f32
  inb_S3x16_S3x16_0_0 : ∀ a, (![0, 0] : Fin 2 → Nat) a + S3x16.size a ≤ S3x16.size a
  h_S3x16 : 0 < S3x16.numel
  inb_S16_S16_0 : ∀ a, (![0] : Fin 1 → Nat) a + S16.size a ≤ S16.size a
  h_S16 : 0 < S16.numel
  shapeCasts_S16_S1x16 : S16.ShapeCasts S1x16
  broadcasts_S1x16_S2000x16 : S1x16.Broadcasts S2000x16
  inb_S2000x16_S2000x16_0_0 : ∀ a, (![0, 0] : Fin 2 → Nat) a + S2000x16.size a ≤ S2000x16.size a
  h_S2000x16 : 0 < S2000x16.numel
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  shapeCasts_S2000x16_S2000x16 : S2000x16.ShapeCasts S2000x16
  inb_S16x16_S16x16_0_0 : ∀ a, (![0, 0] : Fin 2 → Nat) a + S16x16.size a ≤ S16x16.size a
  h_S16x16 : 0 < S16x16.numel
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S1x64_d1_w32 : S1x64.Iotas .tc 32 [1]
  broadcasts_S2000x1_S2000x64 : S2000x1.Broadcasts S2000x64
  broadcasts_S1x64_S2000x64 : S1x64.Broadcasts S2000x64
  natLt_1_32 : 1 < 32
  broadcasts_S64x1_S64x16 : S64x1.Broadcasts S64x16
  broadcasts_S1x16_S64x16 : S1x16.Broadcasts S64x16
  inb_S16x2_S16x2_0_0 : ∀ a, (![0, 0] : Fin 2 → Nat) a + S16x2.size a ≤ S16x2.size a
  h_S16x2 : 0 < S16x2.numel
  inb_S2_S2_0 : ∀ a, (![0] : Fin 1 → Nat) a + S2.size a ≤ S2.size a
  h_S2 : 0 < S2.numel
  shapeCasts_S2_S1x2 : S2.ShapeCasts S1x2
  broadcasts_S1x2_S64x2 : S1x2.Broadcasts S64x2
  inb_S64x2_S64x2_0_0 : ∀ a, (![0, 0] : Fin 2 → Nat) a + S64x2.size a ≤ S64x2.size a
  h_S64x2 : 0 < S64x2.numel
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S2000x3_S3x16_S2000x16_1_0_0_1_n_n_wf : DotDims.WF S2000x3 S3x16 S2000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S2000x16_S16x16_S2000x16_1_0_0_1_n_n_wf : DotDims.WF S2000x16 S16x16 S2000x16 [1] [0] [0] [1] [] []
  dot_S2000x64_S2000x16_S64x16_0_0_1_1_n_n_wf : DotDims.WF S2000x64 S2000x16 S64x16 [0] [0] [1] [1] [] []
  dot_S2000x64_S2000x1_S64x1_0_0_1_1_n_n_wf : DotDims.WF S2000x64 S2000x1 S64x1 [0] [0] [1] [1] [] []
  dot_S64x16_S16x16_S64x16_1_0_0_1_n_n_wf : DotDims.WF S64x16 S16x16 S64x16 [1] [0] [0] [1] [] []
  dot_S64x16_S16x2_S64x2_1_0_0_1_n_n_wf : DotDims.WF S64x16 S16x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x3.size a ≤ S100000x3.size a
  hwx0_0 : ∀ i : grid0.Coords, EltTy.bits .f32 = 32 ∨ (Rect.block (s := S100000x3) S2000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x16.size a ≤ S3x16.size a
  hwx0_1 : ∀ i : grid0.Coords, EltTy.bits .f32 = 32 ∨ (Rect.block (s := S3x16) S3x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16.size a ≤ S16.size a
  hwx0_2 : ∀ i : grid0.Coords, EltTy.bits .f32 = 32 ∨ (Rect.block (s := S16) S16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x16.size a ≤ S3x16.size a
  hwx0_3 : ∀ i : grid0.Coords, EltTy.bits .f32 = 32 ∨ (Rect.block (s := S3x16) S3x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x16.size a ≤ S100000x16.size a
  hwx0_4 : ∀ i : grid0.Coords, EltTy.bits .f32 = 32 ∨ (Rect.block (s := S100000x16) S2000x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x16.size a ≤ S100000x16.size a
  hwx0_5 : ∀ i : grid0.Coords, EltTy.bits .f32 = 32 ∨ (Rect.block (s := S100000x16) S2000x16.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S100000x16.size a
  hwx1_0 : ∀ i : grid1.Coords, EltTy.bits .f32 = 32 ∨ (Rect.block (s := S100000x16) S2000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x16.size a ≤ S100000x16.size a
  hwx1_1 : ∀ i : grid1.Coords, EltTy.bits .f32 = 32 ∨ (Rect.block (s := S100000x16) S2000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x16.size a ≤ S100000x16.size a
  hwx1_2 : ∀ i : grid1.Coords, EltTy.bits .f32 = 32 ∨ (Rect.block (s := S100000x16) S2000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x16.size a ≤ S100000x16.size a
  hwx2_0 : ∀ i : grid2.Coords, EltTy.bits .f32 = 32 ∨ (Rect.block (s := S100000x16) S2000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x16.size a ≤ S16x16.size a
  hwx2_1 : ∀ i : grid2.Coords, EltTy.bits .f32 = 32 ∨ (Rect.block (s := S16x16) S16x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16.size a ≤ S16.size a
  hwx2_2 : ∀ i : grid2.Coords, EltTy.bits .f32 = 32 ∨ (Rect.block (s := S16) S16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S16x16.size a ≤ S16x16.size a
  hwx2_3 : ∀ i : grid2.Coords, EltTy.bits .f32 = 32 ∨ (Rect.block (s := S16x16) S16x16.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x16.size a ≤ S100000x16.size a
  hwx2_4 : ∀ i : grid2.Coords, EltTy.bits .f32 = 32 ∨ (Rect.block (s := S100000x16) S2000x16.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x16.size a ≤ S100000x16.size a
  hwx2_5 : ∀ i : grid2.Coords, EltTy.bits .f32 = 32 ∨ (Rect.block (s := S100000x16) S2000x16.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x16.size a ≤ S100000x16.size a
  hwx3_0 : ∀ i : grid3.Coords, EltTy.bits .f32 = 32 ∨ (Rect.block (s := S100000x16) S2000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x16.size a ≤ S100000x16.size a
  hwx3_1 : ∀ i : grid3.Coords, EltTy.bits .f32 = 32 ∨ (Rect.block (s := S100000x16) S2000x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x16.size a ≤ S100000x16.size a
  hwx3_2 : ∀ i : grid3.Coords, EltTy.bits .f32 = 32 ∨ (Rect.block (s := S100000x16) S2000x16.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x16.size a ≤ S100000x16.size a
  hwx4_0 : ∀ i : grid4.Coords, EltTy.bits .f32 = 32 ∨ (Rect.block (s := S100000x16) S2000x16.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S100000x1.size a
  hwx4_1 : ∀ i : grid4.Coords, EltTy.bits .i32 = 32 ∨ (Rect.block (s := S100000x1) S2000x1.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S16x16.size a ≤ S16x16.size a
  hwx4_2 : ∀ i : grid4.Coords, EltTy.bits .f32 = 32 ∨ (Rect.block (s := S16x16) S16x16.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S16.size a ≤ S16.size a
  hwx4_3 : ∀ i : grid4.Coords, EltTy.bits .f32 = 32 ∨ (Rect.block (s := S16) S16.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S16x2.size a ≤ S16x2.size a
  hwx4_4 : ∀ i : grid4.Coords, EltTy.bits .f32 = 32 ∨ (Rect.block (s := S16x2) S16x2.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S2.size a ≤ S2.size a
  hwx4_5 : ∀ i : grid4.Coords, EltTy.bits .f32 = 32 ∨ (Rect.block (s := S2) S2.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S64x2.size a ≤ S64x2.size a
  hwx4_6 : ∀ i : grid4.Coords, EltTy.bits .f32 = 32 ∨ (Rect.block (s := S64x2) S64x2.size (cc4_transform_6 i) (hinb4_6 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S2000x3_S3x16_S2000x16_1_0_0_1_n_n : DotDims S2000x3 S3x16 S2000x16 where
  lhsContracting := [1]
  rhsContracting := [0]
  lhsNonContracting := [0]
  rhsNonContracting := [1]
  lhsBatch := []
  rhsBatch := []
  wf := dot_S2000x3_S3x16_S2000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S2000x16_S16x16_S2000x16_1_0_0_1_n_n : DotDims S2000x16 S16x16 S2000x16 where
  lhsContracting := [1]
  rhsContracting := [0]
  lhsNonContracting := [0]
  rhsNonContracting := [1]
  lhsBatch := []
  rhsBatch := []
  wf := dot_S2000x16_S16x16_S2000x16_1_0_0_1_n_n_wf
def dot_S2000x64_S2000x16_S64x16_0_0_1_1_n_n : DotDims S2000x64 S2000x16 S64x16 where
  lhsContracting := [0]
  rhsContracting := [0]
  lhsNonContracting := [1]
  rhsNonContracting := [1]
  lhsBatch := []
  rhsBatch := []
  wf := dot_S2000x64_S2000x16_S64x16_0_0_1_1_n_n_wf
def dot_S2000x64_S2000x1_S64x1_0_0_1_1_n_n : DotDims S2000x64 S2000x1 S64x1 where
  lhsContracting := [0]
  rhsContracting := [0]
  lhsNonContracting := [1]
  rhsNonContracting := [1]
  lhsBatch := []
  rhsBatch := []
  wf := dot_S2000x64_S2000x1_S64x1_0_0_1_1_n_n_wf
def dot_S64x16_S16x16_S64x16_1_0_0_1_n_n : DotDims S64x16 S16x16 S64x16 where
  lhsContracting := [1]
  rhsContracting := [0]
  lhsNonContracting := [0]
  rhsNonContracting := [1]
  lhsBatch := []
  rhsBatch := []
  wf := dot_S64x16_S16x16_S64x16_1_0_0_1_n_n_wf
def dot_S64x16_S16x2_S64x2_1_0_0_1_n_n : DotDims S64x16 S16x2 S64x2 where
  lhsContracting := [1]
  rhsContracting := [0]
  lhsNonContracting := [0]
  rhsNonContracting := [1]
  lhsBatch := []
  rhsBatch := []
  wf := dot_S64x16_S16x2_S64x2_1_0_0_1_n_n_wf

abbrev win0_0 : Pipeline.Window sig grid0 :=
  Pipeline.Window.ofSpec (Memref.whole main_arg0) S2000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S3x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S3x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29_0) S2000x16.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v29_1) S2000x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v29_0) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S2000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v51) S2000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v51) S2000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S16x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S16x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v52_0) S2000x16.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v52_1) S2000x16.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v52_0) S2000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v73) S2000x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v74) S2000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v74) S2000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v4) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg9) S16x16.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg10) S16.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg11) S16x2.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg12) S2.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v75) S64x2.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev idle4 : Fin 7 → grid4.Coords → Bool := fun | 0 => fun _ => false | 1 => fun _ => false | 2 => fun _ => false | 3 => fun _ => false | 4 => fun _ => false | 5 => fun _ => false | 6 => fun i => !(k4_cond2 i == 1#1) | ⟨_ + 7, h⟩ => absurd h (Nat.not_lt.2 (Nat.le_add_left _ _))

class Facts : Prop extends Facts₀ where

variable [Facts]
-- ==== ReferenceIdeal.lean ====
abbrev S100000x3 : Shape := ⟨2, ![100000, 3]⟩
abbrev S2x3200000 : Shape := ⟨2, ![2, 3200000]⟩
abbrev S100000 : Shape := ⟨1, ![100000]⟩
abbrev S3x16 : Shape := ⟨2, ![3, 16]⟩
abbrev S16 : Shape := ⟨1, ![16]⟩
abbrev S16x16 : Shape := ⟨2, ![16, 16]⟩
abbrev S16x2 : Shape := ⟨2, ![16, 2]⟩
abbrev S2 : Shape := ⟨1, ![2]⟩
abbrev S100000x16 : Shape := ⟨2, ![100000, 16]⟩
abbrev S1x16 : Shape := ⟨2, ![1, 16]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x16 : Shape := ⟨2, ![3200000, 16]⟩
abbrev S100000x1 : Shape := ⟨2, ![100000, 1]⟩
abbrev S64x16 : Shape := ⟨2, ![64, 16]⟩
abbrev S64 : Shape := ⟨1, ![64]⟩
abbrev S64x1 : Shape := ⟨2, ![64, 1]⟩
abbrev S64x2 : Shape := ⟨2, ![64, 2]⟩
abbrev S1x2 : Shape := ⟨2, ![1, 2]⟩

abbrev nBuf : Space → Nat
  | .hbm => 188
  | .vmem => 0
  | .smem => 0
  | _ => 0

abbrev hbmTy0_0 (i : Nat) : BufTy := match i % 128 with
  | 0 => ⟨S100000x3, .f32⟩
  | 1 => ⟨S2x3200000, .i32⟩
  | 2 => ⟨S100000, .i32⟩
  | 3 => ⟨S3x16, .f32⟩
  | 4 => ⟨S16, .f32⟩
  | 5 => ⟨S3x16, .f32⟩
  | 6 => ⟨S16x16, .f32⟩
  | 7 => ⟨S16, .f32⟩
  | 8 => ⟨S16x16, .f32⟩
  | 9 => ⟨S16x16, .f32⟩
  | 10 => ⟨S16, .f32⟩
  | 11 => ⟨S16x2, .f32⟩
  | 12 => ⟨S2, .f32⟩
  | 13 => ⟨S100000x16, .f32⟩
  | 14 => ⟨S1x16, .f32⟩
  | 15 => ⟨S100000x16, .f32⟩
  | 16 => ⟨S100000x16, .f32⟩
  | 17 => ⟨S100000x16, .f32⟩
  | 18 => ⟨S1x3200000, .i32⟩
  | 19 => ⟨S3200000, .i32⟩
  | 20 => ⟨S1x3200000, .i32⟩
  | 21 => ⟨S3200000, .i32⟩
  | 22 => ⟨S_, .f32⟩
  | 23 => ⟨S3200000, .f32⟩
  | 24 => ⟨S_, .f32⟩
  | 25 => ⟨S100000, .f32⟩
  | 26 => ⟨S3200000x1, .i32⟩
  | 27 => ⟨S100000, .f32⟩
  | 28 => ⟨S_, .f32⟩
  | 29 => ⟨S100000, .f32⟩
  | 30 => ⟨S100000, .i1⟩
  | 31 => ⟨S_, .f32⟩
  | 32 => ⟨S100000, .f32⟩
  | 33 => ⟨S100000, .f32⟩
  | 34 => ⟨S_, .f32⟩
  | 35 => ⟨S_, .f32⟩
  | 36 => ⟨S100000, .f32⟩
  | 37 => ⟨S100000, .f32⟩
  | 38 => ⟨S_, .i32⟩
  | 39 => ⟨S3200000, .i32⟩
  | 40 => ⟨S3200000, .i1⟩
  | 41 => ⟨S_, .i32⟩
  | 42 => ⟨S3200000, .i32⟩
  | 43 => ⟨S3200000, .i32⟩
  | 44 => ⟨S3200000, .i32⟩
  | 45 => ⟨S3200000x1, .i32⟩
  | 46 => ⟨S3200000, .f32⟩
  | 47 => ⟨S_, .i32⟩
  | 48 => ⟨S3200000, .i32⟩
  | 49 => ⟨S3200000, .i1⟩
  | 50 => ⟨S_, .i32⟩
  | 51 => ⟨S3200000, .i32⟩
  | 52 => ⟨S3200000, .i32⟩
  | 53 => ⟨S3200000, .i32⟩
  | 54 => ⟨S3200000x1, .i32⟩
  | 55 => ⟨S3200000, .f32⟩
  | 56 => ⟨S3200000, .f32⟩
  | 57 => ⟨S3200000x1, .f32⟩
  | 58 => ⟨S_, .i32⟩
  | 59 => ⟨S3200000, .i32⟩
  | 60 => ⟨S3200000, .i1⟩
  | 61 => ⟨S_, .i32⟩
  | 62 => ⟨S3200000, .i32⟩
  | 63 => ⟨S3200000, .i32⟩
  | 64 => ⟨S3200000, .i32⟩
  | 65 => ⟨S3200000x1, .i32⟩
  | 66 => ⟨S3200000x16, .f32⟩
  | 67 => ⟨S3200000x16, .f32⟩
  | 68 => ⟨S3200000x16, .f32⟩
  | 69 => ⟨S_, .f32⟩
  | 70 => ⟨S100000x16, .f32⟩
  | 71 => ⟨S3200000x1, .i32⟩
  | 72 => ⟨S100000x16, .f32⟩
  | 73 => ⟨S_, .f32⟩
  | 74 => ⟨S100000, .f32⟩
  | 75 => ⟨S3200000x1, .i32⟩
  | 76 => ⟨S100000, .f32⟩
  | 77 => ⟨S_, .f32⟩
  | 78 => ⟨S100000, .f32⟩
  | 79 => ⟨S100000, .f32⟩
  | 80 => ⟨S100000x1, .f32⟩
  | 81 => ⟨S100000x16, .f32⟩
  | 82 => ⟨S100000x16, .f32⟩
  | 83 => ⟨S100000x16, .f32⟩
  | 84 => ⟨S_, .f32⟩
  | 85 => ⟨S100000x16, .f32⟩
  | 86 => ⟨S100000x16, .f32⟩
  | 87 => ⟨S100000x16, .f32⟩
  | 88 => ⟨S1x16, .f32⟩
  | 89 => ⟨S100000x16, .f32⟩
  | 90 => ⟨S100000x16, .f32⟩
  | 91 => ⟨S100000x16, .f32⟩
  | 92 => ⟨S1x3200000, .i32⟩
  | 93 => ⟨S3200000, .i32⟩
  | 94 => ⟨S1x3200000, .i32⟩
  | 95 => ⟨S3200000, .i32⟩
  | 96 => ⟨S_, .f32⟩
  | 97 => ⟨S3200000, .f32⟩
  | 98 => ⟨S_, .f32⟩
  | 99 => ⟨S100000, .f32⟩
  | 100 => ⟨S3200000x1, .i32⟩
  | 101 => ⟨S100000, .f32⟩
  | 102 => ⟨S_, .f32⟩
  | 103 => ⟨S100000, .f32⟩
  | 104 => ⟨S100000, .i1⟩
  | 105 => ⟨S_, .f32⟩
  | 106 => ⟨S100000, .f32⟩
  | 107 => ⟨S100000, .f32⟩
  | 108 => ⟨S_, .f32⟩
  | 109 => ⟨S_, .f32⟩
  | 110 => ⟨S100000, .f32⟩
  | 111 => ⟨S100000, .f32⟩
  | 112 => ⟨S_, .i32⟩
  | 113 => ⟨S3200000, .i32⟩
  | 114 => ⟨S3200000, .i1⟩
  | 115 => ⟨S_, .i32⟩
  | 116 => ⟨S3200000, .i32⟩
  | 117 => ⟨S3200000, .i32⟩
  | 118 => ⟨S3200000, .i32⟩
  | 119 => ⟨S3200000x1, .i32⟩
  | 120 => ⟨S3200000, .f32⟩
  | 121 => ⟨S_, .i32⟩
  | 122 => ⟨S3200000, .i32⟩
  | 123 => ⟨S3200000, .i1⟩
  | 124 => ⟨S_, .i32⟩
  | 125 => ⟨S3200000, .i32⟩
  | 126 => ⟨S3200000, .i32⟩
  | 127 => ⟨S3200000, .i32⟩
  | _ => ⟨S100000x3, .f32⟩

abbrev hbmTy0_1 (i : Nat) : BufTy := match i % 128 with
  | 0 => ⟨S3200000x1, .i32⟩
  | 1 => ⟨S3200000, .f32⟩
  | 2 => ⟨S3200000, .f32⟩
  | 3 => ⟨S3200000x1, .f32⟩
  | 4 => ⟨S_, .i32⟩
  | 5 => ⟨S3200000, .i32⟩
  | 6 => ⟨S3200000, .i1⟩
  | 7 => ⟨S_, .i32⟩
  | 8 => ⟨S3200000, .i32⟩
  | 9 => ⟨S3200000, .i32⟩
  | 10 => ⟨S3200000, .i32⟩
  | 11 => ⟨S3200000x1, .i32⟩
  | 12 => ⟨S3200000x16, .f32⟩
  | 13 => ⟨S3200000x16, .f32⟩
  | 14 => ⟨S3200000x16, .f32⟩
  | 15 => ⟨S_, .f32⟩
  | 16 => ⟨S100000x16, .f32⟩
  | 17 => ⟨S3200000x1, .i32⟩
  | 18 => ⟨S100000x16, .f32⟩
  | 19 => ⟨S_, .f32⟩
  | 20 => ⟨S100000, .f32⟩
  | 21 => ⟨S3200000x1, .i32⟩
  | 22 => ⟨S100000, .f32⟩
  | 23 => ⟨S_, .f32⟩
  | 24 => ⟨S100000, .f32⟩
  | 25 => ⟨S100000, .f32⟩
  | 26 => ⟨S100000x1, .f32⟩
  | 27 => ⟨S100000x16, .f32⟩
  | 28 => ⟨S100000x16, .f32⟩
  | 29 => ⟨S100000x16, .f32⟩
  | 30 => ⟨S_, .f32⟩
  | 31 => ⟨S100000x16, .f32⟩
  | 32 => ⟨S100000x16, .f32⟩
  | 33 => ⟨S_, .f32⟩
  | 34 => ⟨S64x16, .f32⟩
  | 35 => ⟨S100000x1, .i32⟩
  | 36 => ⟨S64x16, .f32⟩
  | 37 => ⟨S_, .f32⟩
  | 38 => ⟨S100000, .f32⟩
  | 39 => ⟨S_, .f32⟩
  | 40 => ⟨S64, .f32⟩
  | 41 => ⟨S100000x1, .i32⟩
  | 42 => ⟨S64, .f32⟩
  | 43 => ⟨S_, .f32⟩
  | 44 => ⟨S64, .f32⟩
  | 45 => ⟨S64, .f32⟩
  | 46 => ⟨S64x1, .f32⟩
  | 47 => ⟨S64x16, .f32⟩
  | 48 => ⟨S64x16, .f32⟩
  | 49 => ⟨S64x16, .f32⟩
  | 50 => ⟨S1x16, .f32⟩
  | 51 => ⟨S64x16, .f32⟩
  | 52 => ⟨S64x16, .f32⟩
  | 53 => ⟨S_, .f32⟩
  | 54 => ⟨S64x16, .f32⟩
  | 55 => ⟨S64x16, .f32⟩
  | 56 => ⟨S64x2, .f32⟩
  | 57 => ⟨S1x2, .f32⟩
  | 58 => ⟨S64x2, .f32⟩
  | 59 => ⟨S64x2, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v17 : Ref sig .tc := ⟨.hbm, 37, rfl⟩
abbrev main_c : Ref sig .tc := ⟨.hbm, 38, rfl⟩
abbrev main_v18 : Ref sig .tc := ⟨.hbm, 39, rfl⟩
abbrev main_v19 : Ref sig .tc := ⟨.hbm, 40, rfl⟩
abbrev main_c_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_5 : Ref sig .tc := ⟨.hbm, 47, rfl⟩
abbrev main_v25 : Ref sig .tc := ⟨.hbm, 48, rfl⟩
abbrev main_v26 : Ref sig .tc := ⟨.hbm, 49, rfl⟩
abbrev main_c_6 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c_7 : Ref sig .tc := ⟨.hbm, 58, rfl⟩
abbrev main_v34 : Ref sig .tc := ⟨.hbm, 59, rfl⟩
abbrev main_v35 : Ref sig .tc := ⟨.hbm, 60, rfl⟩
abbrev main_c_8 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_10 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_11 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_call1_cst : Ref sig .tc := ⟨.hbm, 84, rfl⟩
abbrev main_call1_v0 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_12 : Ref sig .tc := ⟨.hbm, 96, rfl⟩
abbrev main_v65 : Ref sig .tc := ⟨.hbm, 97, rfl⟩
abbrev main_cst_13 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_14 : Ref sig .tc := ⟨.hbm, 102, rfl⟩
abbrev main_v69 : Ref sig .tc := ⟨.hbm, 103, rfl⟩
abbrev main_v70 : Ref sig .tc := ⟨.hbm, 104, rfl⟩
abbrev main_cst_15 : Ref sig .tc := ⟨.hbm, 105, rfl⟩
abbrev main_v71 : Ref sig .tc := ⟨.hbm, 106, rfl⟩
abbrev main_v72 : Ref sig .tc := ⟨.hbm, 107, rfl⟩
abbrev main_cst_16 : Ref sig .tc := ⟨.hbm, 108, rfl⟩
abbrev main_call2_v0 : Ref sig .tc := ⟨.hbm, 109, rfl⟩
abbrev main_call2_v1 : Ref sig .tc := ⟨.hbm, 110, rfl⟩
abbrev main_v73 : Ref sig .tc := ⟨.hbm, 111, rfl⟩
abbrev main_c_17 : Ref sig .tc := ⟨.hbm, 112, rfl⟩
abbrev main_v74 : Ref sig .tc := ⟨.hbm, 113, rfl⟩
abbrev main_v75 : Ref sig .tc := ⟨.hbm, 114, rfl⟩
abbrev main_c_18 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_c_19 : Ref sig .tc := ⟨.hbm, 121, rfl⟩
abbrev main_v81 : Ref sig .tc := ⟨.hbm, 122, rfl⟩
abbrev main_v82 : Ref sig .tc := ⟨.hbm, 123, rfl⟩
abbrev main_c_20 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_c_21 : Ref sig .tc := ⟨.hbm, 132, rfl⟩
abbrev main_v90 : Ref sig .tc := ⟨.hbm, 133, rfl⟩
abbrev main_v91 : Ref sig .tc := ⟨.hbm, 134, rfl⟩
abbrev main_c_22 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_cst_23 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_cst_24 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_cst_25 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_call3_cst : Ref sig .tc := ⟨.hbm, 158, rfl⟩
abbrev main_call3_v0 : Ref sig .tc := ⟨.hbm, 159, rfl⟩
abbrev main_v111 : Ref sig .tc := ⟨.hbm, 160, rfl⟩
abbrev main_cst_26 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_cst_27 : Ref sig .tc := ⟨.hbm, 165, rfl⟩
abbrev main_v115 : Ref sig .tc := ⟨.hbm, 166, rfl⟩
abbrev main_cst_28 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_cst_29 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_call4_cst : Ref sig .tc := ⟨.hbm, 181, rfl⟩
abbrev main_call4_v0 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  bcast_S_S64x16 : S_.BroadcastsInDim S64x16 (![] : Fin 0 → Fin S64x16.rank)
  bcast_S_S64 : S_.BroadcastsInDim S64 (![] : Fin 0 → Fin S64.rank)
  bcast_S64_S64x1_0 : S64.BroadcastsInDim S64x1 (![0] : Fin 1 → Fin S64x1.rank)
  bcast_S64x1_S64x16_0_1 : S64x1.BroadcastsInDim S64x16 (![0, 1] : Fin 2 → Fin S64x16.rank)
  bcast_S1x16_S64x16_0_1 : S1x16.BroadcastsInDim S64x16 (![0, 1] : Fin 2 → Fin S64x16.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  dot_S100000x3_S3x16_S100000x16_1_0_0_1_n_n_wf : DotDims.WF S100000x3 S3x16 S100000x16 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x16_S100000x16_1_0_0_1_n_n_wf : DotDims.WF S100000x16 S16x16 S100000x16 [1] [0] [0] [1] [] []
  scatter_S64x16_S100000x1_S100000x16_1_0_0_1_wf : ScatterDims.WF S64x16 S100000x1 S100000x16 [1] [0] [0] 1
  scatter_S64_S100000x1_S100000_n_0_0_1_wf : ScatterDims.WF S64 S100000x1 S100000 [] [0] [0] 1
  dot_S64x16_S16x16_S64x16_1_0_0_1_n_n_wf : DotDims.WF S64x16 S16x16 S64x16 [1] [0] [0] [1] [] []
  dot_S64x16_S16x2_S64x2_1_0_0_1_n_n_wf : DotDims.WF S64x16 S16x2 S64x2 [1] [0] [0] [1] [] []

variable [Facts₀]

def dot_S100000x3_S3x16_S100000x16_1_0_0_1_n_n : DotDims S100000x3 S3x16 S100000x16 where
  lhsContracting := [1]
  rhsContracting := [0]
  lhsNonContracting := [0]
  rhsNonContracting := [1]
  lhsBatch := []
  rhsBatch := []
  wf := dot_S100000x3_S3x16_S100000x16_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def scatter_S64x16_S100000x1_S100000x16_1_0_0_1 : ScatterDims S64x16 S100000x1 S100000x16 where
  updateWindowDims := [1]
  insertedWindowDims := [0]
  scatterDimsToOperandDims := [0]
  indexVectorDim := 1
  wf := scatter_S64x16_S100000x1_S100000x16_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x16_S16x16_S64x16_1_0_0_1_n_n : DotDims S64x16 S16x16 S64x16 where
  lhsContracting := [1]
  rhsContracting := [0]
  lhsNonContracting := [0]
  rhsNonContracting := [1]
  lhsBatch := []
  rhsBatch := []
  wf := dot_S64x16_S16x16_S64x16_1_0_0_1_n_n_wf
def dot_S64x16_S16x2_S64x2_1_0_0_1_n_n : DotDims S64x16 S16x2 S64x2 where
  lhsContracting := [1]
  rhsContracting := [0]
  lhsNonContracting := [0]
  rhsNonContracting := [1]
  lhsBatch := []
  rhsBatch := []
  wf := dot_S64x16_S16x2_S64x2_1_0_0_1_n_n_wf

class Facts : Prop extends Facts₀ where

variable [Facts]
-- ==== Proof.K.R0.lean ====
/-
  Region 0 of the kernel program (the first pallas_call: center = x·W1 + b1 and x_j = x·W2 on blocks of 2000 rows,
  the weights and the bias staged whole): what one grid point's body leaves in the two output blocks as a function
  of the input blocks, the body's triple, and the pipeline's proof data at a parameter `V` (the buffer contents
  when the region is entered).
-/
import proofs.«401038_j80255758893589_2_alg».proof.Proof.Gen.Kernel.Launch
import proofs.«401038_j80255758893589_2_alg».proof.Proof.Gen.Kernel.Skeleton
import proofs.«401038_j80255758893589_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not: the rows of x are
    fetched at every point; the weights and the bias are fetched at the first point only and their block index
    never moves, so the buffer still holds the one block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The whole blocks as single rectangles: the 2000×3 rows of x, a 3×16 weight, the bias, a 2000×16 output. -/
abbrev r0x : Rect S2000x3 := Rect.unit (s := S2000x3) ![0, 0] S2000x3.size inb_S2000x3_S2000x3_0_0
abbrev r0w : Rect S3x16 := Rect.unit (s := S3x16) ![0, 0] S3x16.size inb_S3x16_S3x16_0_0
abbrev r0b : Rect S16 := Rect.unit (s := S16) ![0] S16.size inb_S16_S16_0
abbrev r0o : Rect S2000x16 := Rect.unit (s := S2000x16) ![0, 0] S2000x16.size inb_S2000x16_S2000x16_0_0

/-- Output window 4 (center) after the body: the one store x·W1 + b1 over the whole block. -/
def out0_4 (x0 : Vec F S2000x3 .f32) (x1 : Vec F S3x16 .f32) (x2 : Vec F S16 .f32) : Vec F S2000x16 .f32 :=
  View.canon [⟨r0o, k0_pay2 (View.ld x0 r0x) (View.ld x1 r0w) (View.ld x2 r0b)⟩]
/-- Output window 5 (x_j) after the body: the one store x·W2 over the whole block. -/
def out0_5 (x0 : Vec F S2000x3 .f32) (x3 : Vec F S3x16 .f32) : Vec F S2000x16 .f32 :=
  View.canon [⟨r0o, k0_pay3 (View.ld x0 r0x) (View.ld x3 r0w)⟩]

/-- One store over the whole 2000×16 block covers it. -/
theorem cover0_o (p0 : Vec F S2000x16 .f32) (y : S2000x16.Idx) :
    ∃ pc ∈ ([⟨r0o, p0⟩] : List (View.Piece (Elt F) S2000x16 .f32)), y ∈ pc.1.set :=
  View.cover_of_tiled [⟨r0o, p0⟩] S2000x16.size (by rfl) y

set_option maxHeartbeats 1000000 in
/-- The body on whole staging buffers: the four inputs kept, the outputs at `out0_4` / `out0_5` of the inputs
    (what the output buffers held before is read and dropped). -/
theorem sound_kernel0 (c : Dev nD) (E : Set ℕ) (i : grid0.Coords) (arg1 : Memref sig .tc .vmem S2000x3 .f32) (harg1 : arg1.IsWhole)
    (arg2 : Memref sig .tc .vmem S3x16 .f32) (harg2 : arg2.IsWhole) (arg3 : Memref sig .tc .vmem S16 .f32) (harg3 : arg3.IsWhole)
    (arg4 : Memref sig .tc .vmem S3x16 .f32) (harg4 : arg4.IsWhole) (arg5 : Memref sig .tc .vmem S2000x16 .f32) (harg5 : arg5.IsWhole)
    (arg6 : Memref sig .tc .vmem S2000x16 .f32) (harg6 : arg6.IsWhole)
    (x0 : Vec F S2000x3 .f32) (x1 : Vec F S3x16 .f32) (x2 : Vec F S16 .f32) (x3 : Vec F S3x16 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2)
            ∗ owns (c : Thread nD τ) arg6 fullShare (out0_5 x0 x3)) -∗ K ⟨⟩))
      ⊢ wp frame (wpE (defs₀ (F := F)) Variants.none c none) E (cc0_kernel i arg1 harg1 arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_o _)
  iexists _; isplitr
  swap; · iexact H5
  ipureintro
  exact View.read_writes_eq_canon _ _ _ (cover0_o _)

/-- The proof data of pipeline 0 on core `c`: arrays as the region finds them; after the body each input's buffer
    at its block, the outputs' at `out0_4` / `out0_5` of the input blocks; the invariant is the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t)
    | ⟨5, _⟩ => out0_5 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the input buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Reg

end
-- ==== Proof.K.R1.lean ====
/-
  Region 1 of the kernel program (the second pallas_call: h = max(center + aggr, 0) on blocks of 2000 rows):
  what one grid point's body leaves in the output block as a function of the two input blocks, the body's
  triple, and the pipeline's proof data at a parameter `V` (the buffer contents when the region is entered).
-/
import proofs.«401038_j80255758893589_2_alg».proof.Proof.Gen.Kernel.Launch
import proofs.«401038_j80255758893589_2_alg».proof.Proof.Gen.Kernel.Skeleton
import proofs.«401038_j80255758893589_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point (both inputs are fetched at every point). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole 2000×16 block as one rectangle. -/
abbrev rW1 : Rect S2000x16 := Rect.unit (s := S2000x16) ![0, 0] S2000x16.size inb_S2000x16_S2000x16_0_0

/-- The output block after the body: the one store, max(x0 + x1, 0), over the whole block. -/
def out1_2 (x0 x1 : Vec F S2000x16 .f32) : Vec F S2000x16 .f32 :=
  View.canon [⟨rW1, k1_pay1 (View.ld x0 rW1) (View.ld x1 rW1)⟩]

theorem cover1_2 (p0 : Vec F S2000x16 .f32) (y : S2000x16.Idx) :
    ∃ pc ∈ ([⟨rW1, p0⟩] : List (View.Piece (Elt F) S2000x16 .f32)), y ∈ pc.1.set :=
  View.cover_of_tiled [⟨rW1, p0⟩] S2000x16.size (by rfl) y

set_option maxHeartbeats 1000000 in
/-- The body on whole staging buffers: inputs kept, the output at `out1_2` of the inputs. -/
theorem sound_kernel1 (c : Dev nD) (E : Set ℕ) (i : grid1.Coords) (arg1 : Memref sig .tc .vmem S2000x16 .f32) (harg1 : arg1.IsWhole)
    (arg2 : Memref sig .tc .vmem S2000x16 .f32) (harg2 : arg2.IsWhole) (arg3 : Memref sig .tc .vmem S2000x16 .f32) (harg3 : arg3.IsWhole)
    (x0 x1 : Vec F S2000x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1_kernel i arg1 harg1 arg2 harg2 arg3 harg3) K := by
  simp only [cc1_kernel_eq_skeleton]; unfold cc1_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of pipeline 1 on core `c`: arrays as the region finds them; after the body each input's buffer
    at its block, the output's at `out1_2` of the two input blocks; the invariant is the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Reg

end
-- ==== Proof.K.R2.lean ====
/-
  Region 2 of the kernel program (the third pallas_call: center = x·W1 + b1 and x_j = x·W2 on blocks of 2000 rows,
  the weights and the bias staged whole): what one grid point's body leaves in the two output blocks as a function
  of the input blocks, the body's triple, and the pipeline's proof data at a parameter `V` (the buffer contents
  when the region is entered).
-/
import proofs.«401038_j80255758893589_2_alg».proof.Proof.Gen.Kernel.Launch
import proofs.«401038_j80255758893589_2_alg».proof.Proof.Gen.Kernel.Skeleton
import proofs.«401038_j80255758893589_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not: the rows of x are
    fetched at every point; the weights and the bias are fetched at the first point only and their block index
    never moves, so the buffer still holds the one block. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The whole blocks as single rectangles: the 2000×16 rows of x, a 16×16 weight, the bias, a 2000×16 output. -/
abbrev r2x : Rect S2000x16 := Rect.unit (s := S2000x16) ![0, 0] S2000x16.size inb_S2000x16_S2000x16_0_0
abbrev r2w : Rect S16x16 := Rect.unit (s := S16x16) ![0, 0] S16x16.size inb_S16x16_S16x16_0_0
abbrev r2b : Rect S16 := Rect.unit (s := S16) ![0] S16.size inb_S16_S16_0
abbrev r2o : Rect S2000x16 := Rect.unit (s := S2000x16) ![0, 0] S2000x16.size inb_S2000x16_S2000x16_0_0

/-- Output window 4 (center) after the body: the one store x·W1 + b1 over the whole block. -/
def out2_4 (x0 : Vec F S2000x16 .f32) (x1 : Vec F S16x16 .f32) (x2 : Vec F S16 .f32) : Vec F S2000x16 .f32 :=
  View.canon [⟨r2o, k2_pay2 (View.ld x0 r2x) (View.ld x1 r2w) (View.ld x2 r2b)⟩]
/-- Output window 5 (x_j) after the body: the one store x·W2 over the whole block. -/
def out2_5 (x0 : Vec F S2000x16 .f32) (x3 : Vec F S16x16 .f32) : Vec F S2000x16 .f32 :=
  View.canon [⟨r2o, k2_pay3 (View.ld x0 r2x) (View.ld x3 r2w)⟩]

/-- One store over the whole 2000×16 block covers it. -/
theorem cover2_o (p0 : Vec F S2000x16 .f32) (y : S2000x16.Idx) :
    ∃ pc ∈ ([⟨r2o, p0⟩] : List (View.Piece (Elt F) S2000x16 .f32)), y ∈ pc.1.set :=
  View.cover_of_tiled [⟨r2o, p0⟩] S2000x16.size (by rfl) y

set_option maxHeartbeats 1000000 in
/-- The body on whole staging buffers: the four inputs kept, the outputs at `out2_4` / `out2_5` of the inputs
    (what the output buffers held before is read and dropped). -/
theorem sound_kernel2 (c : Dev nD) (E : Set ℕ) (i : grid2.Coords) (arg1 : Memref sig .tc .vmem S2000x16 .f32) (harg1 : arg1.IsWhole)
    (arg2 : Memref sig .tc .vmem S16x16 .f32) (harg2 : arg2.IsWhole) (arg3 : Memref sig .tc .vmem S16 .f32) (harg3 : arg3.IsWhole)
    (arg4 : Memref sig .tc .vmem S16x16 .f32) (harg4 : arg4.IsWhole) (arg5 : Memref sig .tc .vmem S2000x16 .f32) (harg5 : arg5.IsWhole)
    (arg6 : Memref sig .tc .vmem S2000x16 .f32) (harg6 : arg6.IsWhole)
    (x0 : Vec F S2000x16 .f32) (x1 : Vec F S16x16 .f32) (x2 : Vec F S16 .f32) (x3 : Vec F S16x16 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2)
            ∗ owns (c : Thread nD τ) arg6 fullShare (out2_5 x0 x3)) -∗ K ⟨⟩))
      ⊢ wp frame (wpE (defs₀ (F := F)) Variants.none c none) E (cc2_kernel i arg1 harg1 arg2 harg2 arg3 harg3 arg4 harg4 arg5 harg5 arg6 harg6) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover2_o _)
  iexists _; isplitr
  swap; · iexact H5
  ipureintro
  exact View.read_writes_eq_canon _ _ _ (cover2_o _)

/-- The proof data of pipeline 2 on core `c`: arrays as the region finds them; after the body each input's buffer
    at its block, the outputs' at `out2_4` / `out2_5` of the input blocks; the invariant is the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t)
    | ⟨5, _⟩ => out2_5 (iblk2 V c 0 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) := by dsimp only [dat2]
theorem after2_5 (c : Dev nD) (t : Fin cfg2.N) : (dat2 V c).after 5 t = out2_5 (iblk2 V c 0 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the input buffers hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Reg

end
-- ==== Proof.K.R3.lean ====
/-
  Region 3 of the kernel program (the fourth pallas_call: h = max(center + aggr, 0) on blocks of 2000 rows):
  what one grid point's body leaves in the output block as a function of the two input blocks, the body's
  triple, and the pipeline's proof data at a parameter `V` (the buffer contents when the region is entered).
-/
import proofs.«401038_j80255758893589_2_alg».proof.Proof.Gen.Kernel.Launch
import proofs.«401038_j80255758893589_2_alg».proof.Proof.Gen.Kernel.Skeleton
import proofs.«401038_j80255758893589_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point (both inputs are fetched at every point). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole 2000×16 block as one rectangle. -/
abbrev rW3 : Rect S2000x16 := Rect.unit (s := S2000x16) ![0, 0] S2000x16.size inb_S2000x16_S2000x16_0_0

/-- The output block after the body: the one store, max(x0 + x1, 0), over the whole block. -/
def out3_2 (x0 x1 : Vec F S2000x16 .f32) : Vec F S2000x16 .f32 :=
  View.canon [⟨rW3, k3_pay1 (View.ld x0 rW3) (View.ld x1 rW3)⟩]

theorem cover3_2 (p0 : Vec F S2000x16 .f32) (y : S2000x16.Idx) :
    ∃ pc ∈ ([⟨rW3, p0⟩] : List (View.Piece (Elt F) S2000x16 .f32)), y ∈ pc.1.set :=
  View.cover_of_tiled [⟨rW3, p0⟩] S2000x16.size (by rfl) y

set_option maxHeartbeats 1000000 in
/-- The body on whole staging buffers: inputs kept, the output at `out3_2` of the inputs. -/
theorem sound_kernel3 (c : Dev nD) (E : Set ℕ) (i : grid3.Coords) (arg1 : Memref sig .tc .vmem S2000x16 .f32) (harg1 : arg1.IsWhole)
    (arg2 : Memref sig .tc .vmem S2000x16 .f32) (harg2 : arg2.IsWhole) (arg3 : Memref sig .tc .vmem S2000x16 .f32) (harg3 : arg3.IsWhole)
    (x0 x1 : Vec F S2000x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3_kernel i arg1 harg1 arg2 harg2 arg3 harg3) K := by
  simp only [cc3_kernel_eq_skeleton]; unfold cc3_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of pipeline 3 on core `c`: arrays as the region finds them; after the body each input's buffer
    at its block, the output's at `out3_2` of the two input blocks; the invariant is the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Reg

end
-- ==== Proof.K.R4.lean ====
/-
  Region 4 of the kernel program (the last pallas_call: mean-pooling over 64 graph ids by a one-hot matrix product,
  accumulated over the 50 blocks of 2000 nodes in two scratch buffers — the per-graph feature sums and the per-graph
  node counts — and, at the last block, the two-layer head on the pooled means): the scratch contents after each
  grid point, what the last point stores into the output block, the body's triple per case of the two conditionals,
  and the pipeline's proof data at a parameter `V` (the buffer contents when the region is entered).
-/
import proofs.«401038_j80255758893589_2_alg».proof.Proof.Gen.Kernel.Launch
import proofs.«401038_j80255758893589_2_alg».proof.Proof.Gen.Kernel.Skeleton
import proofs.«401038_j80255758893589_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The two scratch operands as whole memrefs. -/
abbrev scM4_0 : Memref sig .tc .vmem S64x16 .f32 := Memref.whole cc4_scratch0
abbrev scM4_1 : Memref sig .tc .vmem S64x1 .f32 := Memref.whole cc4_scratch1

/-- THE ACCUMULATION. What the two scratch buffers (per-graph sums, per-graph counts) hold after the body at position
    `n`: at the first point the body resets both to zero and adds the first block's contribution; at every later
    point it adds the point's contribution to what the point before left. -/
def acc4 (c : Dev nD) : (n : ℕ) → n < cfg4.N → Vec F S64x16 .f32 × Vec F S64x1 .f32
  | 0, h => (k4_pay4 (iblk4 V c 0 ⟨0, h⟩) (iblk4 V c 1 ⟨0, h⟩) (k4_pay1 (F := F)), k4_pay5 (iblk4 V c 1 ⟨0, h⟩) (k4_pay2 (F := F)))
  | n + 1, h => (k4_pay4 (iblk4 V c 0 ⟨n + 1, h⟩) (iblk4 V c 1 ⟨n + 1, h⟩) (acc4 c n (Nat.lt_of_succ_lt h)).1,
      k4_pay5 (iblk4 V c 1 ⟨n + 1, h⟩) (acc4 c n (Nat.lt_of_succ_lt h)).2)

theorem acc4_zero (c : Dev nD) (h : 0 < cfg4.N) :
    acc4 V c 0 h = (k4_pay4 (iblk4 V c 0 ⟨0, h⟩) (iblk4 V c 1 ⟨0, h⟩) (k4_pay1 (F := F)), k4_pay5 (iblk4 V c 1 ⟨0, h⟩) (k4_pay2 (F := F))) := rfl
theorem acc4_succ (c : Dev nD) (n : ℕ) (h : n + 1 < cfg4.N) :
    acc4 V c (n + 1) h = (k4_pay4 (iblk4 V c 0 ⟨n + 1, h⟩) (iblk4 V c 1 ⟨n + 1, h⟩) (acc4 V c n (Nat.lt_of_succ_lt h)).1,
      k4_pay5 (iblk4 V c 1 ⟨n + 1, h⟩) (acc4 V c n (Nat.lt_of_succ_lt h)).2) := rfl

/-- What the body stores into the output block at point `t` when it stores at all (it does at the last point only):
    the head applied to the scratch contents the point has just written. At the other points the output window is idle
    and this value is a placeholder nothing reads. -/
def out4_6 (c : Dev nD) (t : Fin cfg4.N) : Vec F S64x2 .f32 :=
  k4_pay6 (acc4 V c t.val t.isLt).1 (acc4 V c t.val t.isLt).2 (iblk4 V c 2 t) (iblk4 V c 3 t) (iblk4 V c 4 t) (iblk4 V c 5 t)

/-- The region invariant before position `n`: before the first point the scoped rest at anything and the generator
    register; afterwards the two scratch buffers at what the point before left, the other scoped buffers unopened,
    and the generator register at some state. -/
def PhiS4 (c : Dev nD) : (n : ℕ) → n ≤ cfg4.N → sProp 𝕄
  | 0, _ => Pipeline.ΦA spec4 c
  | n + 1, hn => iprop(owns (c : Thread nD τ) scM4_0 fullShare (acc4 V c n hn).1 ∗ owns (c : Thread nD τ) scM4_1 fullShare (acc4 V c n hn).2
      ∗ Pipeline.scopedRestBut (Ix := Unit) (Name := ℕ) (U := UR sig nD τ) (Lvl := ℕ) (Val := Elt F) spec4 c [cc4_scratch0, cc4_scratch1] ∗ (∃ r, prngReg c r))

/-- The proof data of pipeline 4 on core `c`. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 V c t
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = out4_6 V c t := by dsimp only [dat4]

/-- The zero offsets of a whole-block rectangle, of rank two and of rank one. -/
theorem hz4_2 : (![0, 0] : Fin 2 → Nat) = fun _ => 0 := funext fun a => by fin_cases a <;> rfl
theorem hz4_1 : (![0] : Fin 1 → Nat) = fun _ => 0 := funext fun a => by fin_cases a <;> rfl

/-- A whole-shape store, made last, is what the buffer then reads, whatever was stored before it. -/
theorem read_writes_unit_cons4 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- The first conditional's test (the point is the first), from the grid coordinate. -/
abbrev cond4_0 (i : grid4.Coords) : Prop :=
  (Scalar.cmpi .ne (Scalar.extui (Scalar.cmpi .eq (BitVec.ofNat 32 (i 0).val) 0#32)) 0#32) = 1#1
/-- The second conditional's test (the point is the last). -/
abbrev cond4_1 (i : grid4.Coords) : Prop := k4_cond2 i = 1#1

/-- The first test holds at the first point only, the second at the last point only: decided over the grid. -/
theorem hcond4_0 : ∀ t : Fin cfg4.N, cond4_0 (grid4.coords t) ↔ t.val = 0 :=
  (by decide +kernel : ∀ t : Fin grid4.N, cond4_0 (grid4.coords t) ↔ t.val = 0)
theorem hcond4_1 : ∀ t : Fin cfg4.N, cond4_1 (grid4.coords t) ↔ t.val = 49 :=
  (by decide +kernel : ∀ t : Fin grid4.N, cond4_1 (grid4.coords t) ↔ t.val = 49)

/-- The output window is idle, and not written back, exactly where the second test fails. -/
theorem idleAt4_6 : ∀ t : Fin cfg4.N, ¬cond4_1 (grid4.coords t) → cfg4.idle 6 (grid4.coords t) = true := by decide +kernel
theorem liveAt4_6 : ∀ t : Fin cfg4.N, cond4_1 (grid4.coords t) → cfg4.idle 6 (grid4.coords t) = false := by decide +kernel
theorem noFlush4_6 : ∀ t : Fin cfg4.N, ¬cond4_1 (grid4.coords t) → (cfg4.win 6).flush t = false := by decide +kernel

set_option maxHeartbeats 4000000 in
/-- The body at the first point: both scratch buffers, at anything, are zeroed and take the first block's
    contribution; the two streamed inputs are kept; the weights and the output block are not touched. -/
theorem sound_kernel4_first (c : Dev nD) (E : Set ℕ) (i : grid4.Coords)
    (arg1 : Memref sig .tc .vmem S2000x16 .f32) (harg1 : arg1.IsWhole) (arg2 : Memref sig .tc .vmem S2000x1 .i32) (harg2 : arg2.IsWhole)
    (arg3 : Memref sig .tc .vmem S16x16 .f32) (harg3 : arg3.IsWhole) (arg4 : Memref sig .tc .vmem S16 .f32) (harg4 : arg4.IsWhole)
    (arg5 : Memref sig .tc .vmem S16x2 .f32) (harg5 : arg5.IsWhole) (arg6 : Memref sig .tc .vmem S2 .f32) (harg6 : arg6.IsWhole)
    (arg7 : Memref sig .tc .vmem S64x2 .f32) (harg7 : arg7.IsWhole) (arg8 : Memref sig .tc .vmem S64x16 .f32) (harg8 : arg8.IsWhole)
    (arg9 : Memref sig .tc .vmem S64x1 .f32) (harg9 : arg9.IsWhole) (hc0 : cond4_0 i) (hc1 : ¬cond4_1 i)
    (x0 : Vec F S2000x16 .f32) (x1 : Vec F S2000x1 .i32) (K : PUnit → sProp 𝕄) :
    iprop(owns (c : Thread nD τ) arg1 fullShare x0 ∗ owns (c : Thread nD τ) arg2 fullShare x1
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1
            ∗ owns (c : Thread nD τ) arg8 fullShare (k4_pay4 x0 x1 (k4_pay1 (F := F)))
            ∗ owns (c : Thread nD τ) arg9 fullShare (k4_pay5 x1 (k4_pay2 (F := F)))) -∗ K ⟨⟩))
      ⊢ wp frame (wpE (defs₀ (F := F)) Variants.none c none) E (cc4_kernel i arg1 harg1 arg2 harg2 arg3 harg3 arg4 harg4 arg5 harg5 arg6 harg6 arg7 harg7 arg8 harg8 arg9 harg9) K := by
  simp only [cc4_kernel_eq_skeleton]; unfold cc4_kernel_skel
  unfold owns
  iintro ⟨⟨%f0, %hf0, H0⟩, ⟨%f1, %hf1, H1⟩, ⟨%d8, %f8, -, H8⟩, ⟨%d9, %f9, -, H9⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H8]
  · iexists _; isplitr
    swap; · iexact H8
    ipureintro
    sl_unfold_words
    rw [read_writes_unit_cons4 _ _ hz4_2]
    simp only [View.readAt_eq_ld, View.ld_unit_zero (S := S2000x16) hz4_2, View.ld_unit_zero (S := S2000x1) hz4_2,
      View.readCov_unit_zero (S := S64x16) _ hz4_2]
  iexists _; isplitr
  swap; · iexact H9
  ipureintro
  sl_unfold_words
  rw [read_writes_unit_cons4 _ _ hz4_2]
  simp only [View.readAt_eq_ld, View.ld_unit_zero (S := S2000x1) hz4_2, View.readCov_unit_zero (S := S64x1) _ hz4_2]

set_option maxHeartbeats 4000000 in
/-- The body at a point that is neither first nor last: each scratch buffer takes the block's contribution on top of
    what it held; the two streamed inputs are kept; the weights and the output block are not touched. -/
theorem sound_kernel4_mid (c : Dev nD) (E : Set ℕ) (i : grid4.Coords)
    (arg1 : Memref sig .tc .vmem S2000x16 .f32) (harg1 : arg1.IsWhole) (arg2 : Memref sig .tc .vmem S2000x1 .i32) (harg2 : arg2.IsWhole)
    (arg3 : Memref sig .tc .vmem S16x16 .f32) (harg3 : arg3.IsWhole) (arg4 : Memref sig .tc .vmem S16 .f32) (harg4 : arg4.IsWhole)
    (arg5 : Memref sig .tc .vmem S16x2 .f32) (harg5 : arg5.IsWhole) (arg6 : Memref sig .tc .vmem S2 .f32) (harg6 : arg6.IsWhole)
    (arg7 : Memref sig .tc .vmem S64x2 .f32) (harg7 : arg7.IsWhole) (arg8 : Memref sig .tc .vmem S64x16 .f32) (harg8 : arg8.IsWhole)
    (arg9 : Memref sig .tc .vmem S64x1 .f32) (harg9 : arg9.IsWhole) (hc0 : ¬cond4_0 i) (hc1 : ¬cond4_1 i)
    (x0 : Vec F S2000x16 .f32) (x1 : Vec F S2000x1 .i32) (s0 : Vec F S64x16 .f32) (s1 : Vec F S64x1 .f32) (K : PUnit → sProp 𝕄) :
    iprop(owns (c : Thread nD τ) arg1 fullShare x0 ∗ owns (c : Thread nD τ) arg2 fullShare x1
        ∗ owns (c : Thread nD τ) arg8 fullShare s0 ∗ owns (c : Thread nD τ) arg9 fullShare s1
        ∗ (iprop(owns (c : Thread nD τ) arg1 fullShare x0 ∗ owns (c : Thread nD τ) arg2 fullShare x1
            ∗ owns (c : Thread nD τ) arg8 fullShare (k4_pay4 x0 x1 s0)
            ∗ owns (c : Thread nD τ) arg9 fullShare (k4_pay5 x1 s1)) -∗ K ⟨⟩))
      ⊢ wp frame (wpE (defs₀ (F := F)) Variants.none c none) E (cc4_kernel i arg1 harg1 arg2 harg2 arg3 harg3 arg4 harg4 arg5 harg5 arg6 harg6 arg7 harg7 arg8 harg8 arg9 harg9) K := by
  simp only [cc4_kernel_eq_skeleton]; unfold cc4_kernel_skel
  unfold owns
  iintro ⟨⟨%f0, %hf0, H0⟩, ⟨%f1, %hf1, H1⟩, ⟨%f8, %hf8, H8⟩, ⟨%f9, %hf9, H9⟩, Hk⟩
  subst hf0; subst hf1; subst hf8; subst hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H8]
  · iexists _; isplitr
    swap; · iexact H8
    ipureintro
    sl_unfold_words
    rw [read_writes_unit_cons4 _ _ hz4_2]
    simp only [View.readAt_eq_ld, View.ld_unit_zero (S := S2000x16) hz4_2, View.ld_unit_zero (S := S2000x1) hz4_2,
      View.ld_unit_zero (S := S64x16) hz4_2]
  iexists _; isplitr
  swap; · iexact H9
  ipureintro
  sl_unfold_words
  rw [read_writes_unit_cons4 _ _ hz4_2]
  simp only [View.readAt_eq_ld, View.ld_unit_zero (S := S2000x1) hz4_2, View.ld_unit_zero (S := S64x1) hz4_2]

set_option maxHeartbeats 8000000 in
/-- The body at the last point: each scratch buffer takes the block's contribution on top of what it held, and the
    output block is stored with the head applied to the two scratch buffers as just written and the four weight
    blocks; every input is kept. -/
theorem sound_kernel4_last (c : Dev nD) (E : Set ℕ) (i : grid4.Coords)
    (arg1 : Memref sig .tc .vmem S2000x16 .f32) (harg1 : arg1.IsWhole) (arg2 : Memref sig .tc .vmem S2000x1 .i32) (harg2 : arg2.IsWhole)
    (arg3 : Memref sig .tc .vmem S16x16 .f32) (harg3 : arg3.IsWhole) (arg4 : Memref sig .tc .vmem S16 .f32) (harg4 : arg4.IsWhole)
    (arg5 : Memref sig .tc .vmem S16x2 .f32) (harg5 : arg5.IsWhole) (arg6 : Memref sig .tc .vmem S2 .f32) (harg6 : arg6.IsWhole)
    (arg7 : Memref sig .tc .vmem S64x2 .f32) (harg7 : arg7.IsWhole) (arg8 : Memref sig .tc .vmem S64x16 .f32) (harg8 : arg8.IsWhole)
    (arg9 : Memref sig .tc .vmem S64x1 .f32) (harg9 : arg9.IsWhole) (hc0 : ¬cond4_0 i) (hc1 : cond4_1 i)
    (x0 : Vec F S2000x16 .f32) (x1 : Vec F S2000x1 .i32) (x2 : Vec F S16x16 .f32) (x3 : Vec F S16 .f32)
    (x4 : Vec F S16x2 .f32) (x5 : Vec F S2 .f32) (s0 : Vec F S64x16 .f32) (s1 : Vec F S64x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ owns (c : Thread nD τ) arg8 fullShare s0 ∗ owns (c : Thread nD τ) arg9 fullShare s1
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (k4_pay6 (k4_pay4 x0 x1 s0) (k4_pay5 x1 s1) x2 x3 x4 x5)
            ∗ owns (c : Thread nD τ) arg8 fullShare (k4_pay4 x0 x1 s0)
            ∗ owns (c : Thread nD τ) arg9 fullShare (k4_pay5 x1 s1)) -∗ K ⟨⟩))
      ⊢ wp frame (wpE (defs₀ (F := F)) Variants.none c none) E (cc4_kernel i arg1 harg1 arg2 harg2 arg3 harg3 arg4 harg4 arg5 harg5 arg6 harg6 arg7 harg7 arg8 harg8 arg9 harg9) K := by
  simp only [cc4_kernel_eq_skeleton]; unfold cc4_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, ⟨%f8, %hf8, H8⟩, ⟨%f9, %hf9, H9⟩, Hk⟩
  subst hf0; subst hf1; subst hf2; subst hf3; subst hf4; subst hf5; subst hf8; subst hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H7]
  · iexists _; isplitr
    swap; · iexact H7
    ipureintro
    sl_unfold_words
    rw [read_writes_unit_cons4 _ _ hz4_2]
    simp only [View.readAt_eq_ld, View.ld_unit_zero (S := S2000x16) hz4_2, View.ld_unit_zero (S := S2000x1) hz4_2,
      View.ld_unit_zero (S := S64x16) hz4_2, View.ld_unit_zero (S := S64x1) hz4_2, View.ld_unit_zero (S := S16x16) hz4_2,
      View.ld_unit_zero (S := S16) hz4_1, View.ld_unit_zero (S := S16x2) hz4_2, View.ld_unit_zero (S := S2) hz4_1,
      View.readCov_unit_zero (S := S64x16) _ hz4_2, View.readCov_unit_zero (S := S64x1) _ hz4_2]
  isplitl [H8]
  · iexists _; isplitr
    swap; · iexact H8
    ipureintro
    sl_unfold_words
    rw [read_writes_unit_cons4 _ _ hz4_2]
    simp only [View.readAt_eq_ld, View.ld_unit_zero (S := S2000x16) hz4_2, View.ld_unit_zero (S := S2000x1) hz4_2,
      View.ld_unit_zero (S := S64x16) hz4_2]
  iexists _; isplitr
  swap; · iexact H9
  ipureintro
  sl_unfold_words
  rw [read_writes_unit_cons4 _ _ hz4_2]
  simp only [View.readAt_eq_ld, View.ld_unit_zero (S := S2000x1) hz4_2, View.ld_unit_zero (S := S64x1) hz4_2]

/-- An input window's staging buffer holds its block at every point, fetched there or not: the node features and the
    graph ids are fetched at every point; the four weight blocks are fetched at the first point only and their block
    index never moves, so the buffer still holds the one block. -/
theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl) (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V c).before 3 t d = iblk4 V c 3 t :=
  ((dat4 V c).before_in_eq_fetched 3 rfl (fun _ => rfl) (fun _ _ _ => rfl) (fun t => by rw [after4_3]; unfold Dat.blockOf iblk4; rw [A_eq4]; try rfl) t d).trans
    (by unfold Dat.fetched Dat.blockOf iblk4; rw [A_eq4]; try rfl)
theorem before4_4 (c : Dev nD) (t : Fin cfg4.N) (d) : (dat4 V c).before 4 t d = iblk4 V c 4 t :=
  ((dat4 V c).before_in_eq_fetched 4 rfl (fun _ => rfl) (fun _ _ _ => rfl) (fun t => by rw [after4_4]; unfold Dat.blockOf iblk4; rw [A_eq4]; try rfl) t d).trans
    (by unfold Dat.fetched Dat.blockOf iblk4; rw [A_eq4]; try rfl)
theorem before4_5 (c : Dev nD) (t : Fin cfg4.N) (d) : (dat4 V c).before 5 t d = iblk4 V c 5 t :=
  ((dat4 V c).before_in_eq_fetched 5 rfl (fun _ => rfl) (fun _ _ _ => rfl) (fun t => by rw [after4_5]; unfold Dat.blockOf iblk4; rw [A_eq4]; try rfl) t d).trans
    (by unfold Dat.fetched Dat.blockOf iblk4; rw [A_eq4]; try rfl)

/-- The accumulation at the first point, and at a later point over what the point before left. -/
theorem acc4_first (c : Dev nD) (t : Fin cfg4.N) (h0 : t.val = 0) :
    acc4 V c t.val t.isLt = (k4_pay4 (iblk4 V c 0 t) (iblk4 V c 1 t) (k4_pay1 (F := F)), k4_pay5 (iblk4 V c 1 t) (k4_pay2 (F := F))) := by
  obtain ⟨n, hn⟩ := t
  cases n with
  | zero => rfl
  | succ n => exact absurd h0 (Nat.succ_ne_zero n)
theorem acc4_later (c : Dev nD) (t : Fin cfg4.N) (h0 : t.val ≠ 0) :
    acc4 V c t.val t.isLt = (k4_pay4 (iblk4 V c 0 t) (iblk4 V c 1 t) (acc4 V c (t.val - 1) (Nat.lt_of_le_of_lt (Nat.sub_le _ _) t.isLt)).1,
      k4_pay5 (iblk4 V c 1 t) (acc4 V c (t.val - 1) (Nat.lt_of_le_of_lt (Nat.sub_le _ _) t.isLt)).2) := by
  obtain ⟨n, hn⟩ := t
  cases n with
  | zero => exact absurd rfl h0
  | succ n => rfl

/-- The class invariant with the two scratch operands split out as memrefs owned at some contents. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop(owns (c : Thread nD τ) scM4_0 fullShare (acc4 V c n hn).1 ∗ owns (c : Thread nD τ) scM4_1 fullShare (acc4 V c n hn).2
      ∗ Pipeline.scopedRestBut (Ix := Unit) (Name := ℕ) (U := UR sig nD τ) (Lvl := ℕ) (Val := Elt F) spec4 c [cc4_scratch0, cc4_scratch1] ∗ (∃ r, prngReg c r)) := rfl
theorem PhiS4_pos (c : Dev nD) (n : ℕ) (h : n ≤ cfg4.N) (hz : n ≠ 0) :
    PhiS4 V c n h = iprop(owns (c : Thread nD τ) scM4_0 fullShare (acc4 V c (n - 1) (by omega)).1 ∗ owns (c : Thread nD τ) scM4_1 fullShare (acc4 V c (n - 1) (by omega)).2
      ∗ Pipeline.scopedRestBut (Ix := Unit) (Name := ℕ) (U := UR sig nD τ) (Lvl := ℕ) (Val := Elt F) spec4 c [cc4_scratch0, cc4_scratch1] ∗ (∃ r, prngReg c r)) := by
  cases n with
  | zero => exact absurd rfl hz
  | succ n => rfl
theorem PhiS4_castSucc (c : Dev nD) (t : Fin cfg4.N) :
    (dat4 V c).Φ t.castSucc = PhiS4 V c t.val (Nat.le_of_lt t.isLt) := by
  dsimp only [dat4]; simp only [Fin.coe_castSucc]

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

set_option maxHeartbeats 4000000 in
/-- The body at any point. The inputs' buffers hold their blocks; the point is the first, a middle one or the last.
    At the first point the invariant is the class's, which hands over both scratch buffers at anything; later it hands
    them over at what the point before left. Either way it takes them back at this point's accumulation. The output
    window is idle and handed back as found except at the last point, where it is left at the head of the accumulation. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (st4_0 t) fullShare ((dat4 V c).after 0 t) from rfl, after4_0]
  rw [show (dat4 V c).leavesExact 1 t = owns (c : Thread nD τ) (st4_1 t) fullShare ((dat4 V c).after 1 t) from rfl, after4_1]
  rw [show (dat4 V c).leavesExact 2 t = owns (c : Thread nD τ) (st4_2 t) fullShare ((dat4 V c).after 2 t) from rfl, after4_2]
  rw [show (dat4 V c).leavesExact 3 t = owns (c : Thread nD τ) (st4_3 t) fullShare ((dat4 V c).after 3 t) from rfl, after4_3]
  rw [show (dat4 V c).leavesExact 4 t = owns (c : Thread nD τ) (st4_4 t) fullShare ((dat4 V c).after 4 t) from rfl, after4_4]
  rw [show (dat4 V c).leavesExact 5 t = owns (c : Thread nD τ) (st4_5 t) fullShare ((dat4 V c).after 5 t) from rfl, after4_5]
  have hN : t.val < 50 := lt_of_lt_of_eq t.isLt (show cfg4.N = 50 from N_4)
  by_cases h0 : t.val = 0
  · have hc0 : cond4_0 (grid4.coords t) := (hcond4_0 t).mpr h0
    have hc1 : ¬cond4_1 (grid4.coords t) := fun h => by have := (hcond4_1 t).mp h; omega
    rw [Dat.leavesExact_idle (dat4 V c) 6 t (idleAt4_6 t hc1) (noFlush4_6 t hc1)]
    rw [acc4_first V c t h0]; dsimp only
    rw [PhiS4_castSucc V c t, PhiS4_zero V c _ _ h0, PhiA4_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel4_first c Set.univ _ _ _ _ _ _ _ _ _ _ _ _ _ _ _ _ _ _ _ hc0 hc1 (iblk4 V c 0 t) (iblk4 V c 1 t) _)
    isplitl [H0]; · iexact H0
    isplitl [H1]; · iexact H1
    isplitl [HS0]; · iexact HS0
    isplitl [HS1]; · iexact HS1
    iintro ⟨H0, H1, HS0, HS1⟩
    isplitl [HS0 HS1 Hrest Hg]
    · isplitl [HS0]; · iexact HS0
      isplitl [HS1]; · iexact HS1
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hc0 : ¬cond4_0 (grid4.coords t) := fun h => h0 ((hcond4_0 t).mp h)
    rw [acc4_later V c t h0]; dsimp only
    rw [PhiS4_castSucc V c t, PhiS4_pos V c _ _ h0]
    by_cases h1 : t.val = 49
    · have hc1 : cond4_1 (grid4.coords t) := (hcond4_1 t).mpr h1
      rw [show (dat4 V c).leavesExact 6 t = owns (c : Thread nD τ) (st4_6 t) fullShare ((dat4 V c).after 6 t) from by
        unfold Dat.leavesExact; rw [liveAt4_6 t hc1], after4_6]
      unfold out4_6
      rw [acc4_later V c t h0]; dsimp only
      iintro ⟨⟨HS0, HS1, Hrest, Hg⟩, Ho, ⟨%d0, H0⟩, ⟨%d1, H1⟩, ⟨%d2, H2⟩, ⟨%d3, H3⟩, ⟨%d4, H4⟩, ⟨%d5, H5⟩, ⟨%d6, H6⟩⟩
      iapply (sound_kernel4_last c Set.univ _ _ _ _ _ _ _ _ _ _ _ _ _ _ _ _ _ _ _ hc0 hc1 (iblk4 V c 0 t) (iblk4 V c 1 t)
        (iblk4 V c 2 t) (iblk4 V c 3 t) (iblk4 V c 4 t) (iblk4 V c 5 t) (acc4 V c (t.val - 1) (Nat.lt_of_le_of_lt (Nat.sub_le _ _) t.isLt)).1 (acc4 V c (t.val - 1) (Nat.lt_of_le_of_lt (Nat.sub_le _ _) t.isLt)).2 _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, H6, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc1 : ¬cond4_1 (grid4.coords t) := fun h => h1 ((hcond4_1 t).mp h)
      rw [Dat.leavesExact_idle (dat4 V c) 6 t (idleAt4_6 t hc1) (noFlush4_6 t hc1)]
      iintro ⟨⟨HS0, HS1, Hrest, Hg⟩, Ho, ⟨%d0, H0⟩, ⟨%d1, H1⟩, ⟨%d2, H2⟩, ⟨%d3, H3⟩, ⟨%d4, H4⟩, ⟨%d5, H5⟩, ⟨%d6, H6⟩⟩
      iapply (sound_kernel4_mid c Set.univ _ _ _ _ _ _ _ _ _ _ _ _ _ _ _ _ _ _ _ hc0 hc1 (iblk4 V c 0 t) (iblk4 V c 1 t) (acc4 V c (t.val - 1) (Nat.lt_of_le_of_lt (Nat.sub_le _ _) t.isLt)).1 (acc4 V c (t.val - 1) (Nat.lt_of_le_of_lt (Nat.sub_le _ _) t.isLt)).2 _)
      isplitl [H0]; · iexact H0
      isplitl [H1]; · iexact H1
      isplitl [HS0]; · iexact HS0
      isplitl [HS1]; · iexact HS1
      iintro ⟨H0, H1, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives the scoped rest and the generator register back: the scratch buffers'
    named contents are forgotten. -/
theorem hout4 (c : Dev nD) : (dat4 V c).Φ (Fin.last cfg4.N) ⊢ Pipeline.ΦA spec4 c := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 50 := N_4; omega), PhiA4_eq]
  iintro ⟨HS0, HS1, Hrest, Hg⟩
  isplitl [HS0 HS1 Hrest]
  · isplitl [HS0 HS1]
    · isplitl [HS0]
      · iexists _; iexact HS0
      iexists _; iexact HS1
    iexact Hrest
  iexact Hg

end Cert.Kernel.Reg

end
-- ==== Proof.K.Main.lean ====
/-
  The launch of the kernel program: @main is ten items — three stretches of host operations, region 0, a stretch,
  regions 1 and 2, a stretch, regions 3 and 4. Between two items every unscoped buffer is held at a known valuation:
  the launch contents, then each host stretch applied, then after each region its output arrays at what the region's
  write-backs leave (the proof data's `arrAt` at the last point) and every other buffer as before. Each region is a
  segment record entered from the valuation before it and left at the one after it; the generated conditional frame
  then gives the frame claim.
-/
import proofs.«401038_j80255758893589_2_alg».proof.Proof.Gen.Kernel.Regions
import proofs.«401038_j80255758893589_2_alg».proof.Proof.K.R0
import proofs.«401038_j80255758893589_2_alg».proof.Proof.K.R1
import proofs.«401038_j80255758893589_2_alg».proof.Proof.K.R2
import proofs.«401038_j80255758893589_2_alg».proof.Proof.K.R3
import proofs.«401038_j80255758893589_2_alg».proof.Proof.K.R4

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- A valuation read at the TensorCore's references: what a region's proof data take. -/
abbrev atTc (W : Dev nD → Valuation τ sig (Elt F)) : (c : Dev nD) → (b : Ref sig .tc) → Buf (Elt F) ((c : Thread nD τ).loc b) :=
  fun c b => W c b

/-! ## What the regions leave: the unknowns of the generated valuations, stage by stage

  Each stage names the arrays one more region writes, from the valuation that region is entered from; a later stage
  changes nothing an earlier one named. -/

/-- After region 0: `main_v29_0` (center) and `main_v29_1` (x_j). -/
def outs1 : Outs (F := F) := fun _ =>
  Function.update (Function.update (fun r c => m ((c : Thread nD τ).loc r))
    main_v29_0 (fun c => (dat0 (atTc (V3 m)) c).arrAt 4 cfg0.N))
    main_v29_1 (fun c => (dat0 (atTc (V3 m)) c).arrAt 5 cfg0.N)
/-- After region 1: `main_v51`. -/
def outs2 : Outs (F := F) := fun J =>
  Function.update (outs1 m J) main_v51 (fun c => (dat1 (atTc (V5 m (outs1 m))) c).arrAt 2 cfg1.N)
/-- After region 2: `main_v52_0` and `main_v52_1`. -/
def outs3 : Outs (F := F) := fun J =>
  Function.update (Function.update (outs2 m J)
    main_v52_0 (fun c => (dat2 (atTc (V6 m (outs2 m))) c).arrAt 4 cfg2.N))
    main_v52_1 (fun c => (dat2 (atTc (V6 m (outs2 m))) c).arrAt 5 cfg2.N)
/-- After region 3: `main_v74`. -/
def outs4 : Outs (F := F) := fun J =>
  Function.update (outs3 m J) main_v74 (fun c => (dat3 (atTc (V8 m (outs3 m))) c).arrAt 2 cfg3.N)
/-- After region 4: `main_v75`, the program's result. -/
def outs5 : Outs (F := F) := fun J =>
  Function.update (outs4 m J) main_v75 (fun c => (dat4 (atTc (V9 m (outs4 m))) c).arrAt 6 cfg4.N)

theorem outs2_of (J : ℕ) (r : Ref sig .tc) (h : r ≠ main_v51) : outs2 m J r = outs1 m J r :=
  Function.update_of_ne h _ _
theorem outs3_of (J : ℕ) (r : Ref sig .tc) (h0 : r ≠ main_v52_0) (h1 : r ≠ main_v52_1) : outs3 m J r = outs2 m J r :=
  (Function.update_of_ne h1 _ _).trans (Function.update_of_ne h0 _ _)
theorem outs4_of (J : ℕ) (r : Ref sig .tc) (h : r ≠ main_v74) : outs4 m J r = outs3 m J r :=
  Function.update_of_ne h _ _
theorem outs5_of (J : ℕ) (r : Ref sig .tc) (h : r ≠ main_v75) : outs5 m J r = outs4 m J r :=
  Function.update_of_ne h _ _

theorem outs1_v29_0 (J : ℕ) : outs1 m J main_v29_0 = fun c => (dat0 (atTc (V3 m)) c).arrAt 4 cfg0.N :=
  (Function.update_of_ne (by decide) _ _).trans (Function.update_self _ _ _)
theorem outs1_v29_1 (J : ℕ) : outs1 m J main_v29_1 = fun c => (dat0 (atTc (V3 m)) c).arrAt 5 cfg0.N :=
  Function.update_self _ _ _
theorem outs2_v51 (J : ℕ) : outs2 m J main_v51 = fun c => (dat1 (atTc (V5 m (outs1 m))) c).arrAt 2 cfg1.N :=
  Function.update_self _ _ _
theorem outs3_v52_0 (J : ℕ) : outs3 m J main_v52_0 = fun c => (dat2 (atTc (V6 m (outs2 m))) c).arrAt 4 cfg2.N :=
  (Function.update_of_ne (by decide) _ _).trans (Function.update_self _ _ _)
theorem outs3_v52_1 (J : ℕ) : outs3 m J main_v52_1 = fun c => (dat2 (atTc (V6 m (outs2 m))) c).arrAt 5 cfg2.N :=
  Function.update_self _ _ _
theorem outs4_v74 (J : ℕ) : outs4 m J main_v74 = fun c => (dat3 (atTc (V8 m (outs3 m))) c).arrAt 2 cfg3.N :=
  Function.update_self _ _ _
theorem outs5_v75 (J : ℕ) : outs5 m J main_v75 = fun c => (dat4 (atTc (V9 m (outs4 m))) c).arrAt 6 cfg4.N :=
  Function.update_self _ _ _

/-! ## The generated valuations depend on the unknowns only where they read them -/

theorem V4_congr (o o' : Outs (F := F)) (h0 : o 4 main_v29_0 = o' 4 main_v29_0) (h1 : o 4 main_v29_1 = o' 4 main_v29_1) (c : Dev nD) :
    V4 m o c = V4 m o' c := by
  show Function.update (Function.update (V3 m c) _ (o 4 main_v29_0 c)) _ (o 4 main_v29_1 c)
    = Function.update (Function.update (V3 m c) _ (o' 4 main_v29_0 c)) _ (o' 4 main_v29_1 c)
  rw [h0, h1]
theorem V5_congr (o o' : Outs (F := F)) (h : ∀ c, V4 m o c = V4 m o' c) (c : Dev nD) : V5 m o c = V5 m o' c := by
  show StableHlo.after hostOps1 (V4 m o c) = StableHlo.after hostOps1 (V4 m o' c)
  rw [h c]
theorem V6_congr (o o' : Outs (F := F)) (h : ∀ c, V5 m o c = V5 m o' c) (h0 : o 6 main_v51 = o' 6 main_v51) (c : Dev nD) :
    V6 m o c = V6 m o' c := by
  show Function.update (V5 m o c) _ (o 6 main_v51 c) = Function.update (V5 m o' c) _ (o' 6 main_v51 c)
  rw [h c, h0]
theorem V7_congr (o o' : Outs (F := F)) (h : ∀ c, V6 m o c = V6 m o' c) (h0 : o 7 main_v52_0 = o' 7 main_v52_0) (h1 : o 7 main_v52_1 = o' 7 main_v52_1) (c : Dev nD) :
    V7 m o c = V7 m o' c := by
  show Function.update (Function.update (V6 m o c) _ (o 7 main_v52_0 c)) _ (o 7 main_v52_1 c)
    = Function.update (Function.update (V6 m o' c) _ (o' 7 main_v52_0 c)) _ (o' 7 main_v52_1 c)
  rw [h c, h0, h1]
theorem V8_congr (o o' : Outs (F := F)) (h : ∀ c, V7 m o c = V7 m o' c) (c : Dev nD) : V8 m o c = V8 m o' c := by
  show StableHlo.after hostOps3 (V7 m o c) = StableHlo.after hostOps3 (V7 m o' c)
  rw [h c]
theorem V9_congr (o o' : Outs (F := F)) (h : ∀ c, V8 m o c = V8 m o' c) (h0 : o 9 main_v74 = o' 9 main_v74) (c : Dev nD) :
    V9 m o c = V9 m o' c := by
  show Function.update (V8 m o c) _ (o 9 main_v74 c) = Function.update (V8 m o' c) _ (o' 9 main_v74 c)
  rw [h c, h0]

/-- The unknowns of the whole run: the last stage. -/
abbrev outs : Outs (F := F) := outs5 m

theorem E4 (c : Dev nD) : V4 m (outs m) c = V4 m (outs1 m) c :=
  V4_congr m _ _
    ((outs5_of m 4 _ (by decide)).trans ((outs4_of m 4 _ (by decide)).trans ((outs3_of m 4 _ (by decide) (by decide)).trans (outs2_of m 4 _ (by decide)))))
    ((outs5_of m 4 _ (by decide)).trans ((outs4_of m 4 _ (by decide)).trans ((outs3_of m 4 _ (by decide) (by decide)).trans (outs2_of m 4 _ (by decide))))) c
theorem E5 (c : Dev nD) : V5 m (outs m) c = V5 m (outs1 m) c := V5_congr m _ _ (E4 m) c
theorem E4' (c : Dev nD) : V4 m (outs2 m) c = V4 m (outs1 m) c :=
  V4_congr m _ _ (outs2_of m 4 _ (by decide)) (outs2_of m 4 _ (by decide)) c
theorem E5' (c : Dev nD) : V5 m (outs2 m) c = V5 m (outs1 m) c := V5_congr m _ _ (E4' m) c
theorem E6 (c : Dev nD) : V6 m (outs m) c = V6 m (outs2 m) c :=
  V6_congr m _ _ (fun c => (E5 m c).trans (E5' m c).symm)
    ((outs5_of m 6 _ (by decide)).trans ((outs4_of m 6 _ (by decide)).trans (outs3_of m 6 _ (by decide) (by decide)))) c
theorem E6' (c : Dev nD) : V6 m (outs3 m) c = V6 m (outs2 m) c :=
  V6_congr m _ _ (fun c => V5_congr m _ _ (fun c => V4_congr m _ _ (outs3_of m 4 _ (by decide) (by decide)) (outs3_of m 4 _ (by decide) (by decide)) c) c)
    (outs3_of m 6 _ (by decide) (by decide)) c
theorem E7 (c : Dev nD) : V7 m (outs m) c = V7 m (outs3 m) c :=
  V7_congr m _ _ (fun c => (E6 m c).trans (E6' m c).symm)
    ((outs5_of m 7 _ (by decide)).trans (outs4_of m 7 _ (by decide)))
    ((outs5_of m 7 _ (by decide)).trans (outs4_of m 7 _ (by decide))) c
theorem E8 (c : Dev nD) : V8 m (outs m) c = V8 m (outs3 m) c := V8_congr m _ _ (E7 m) c
theorem E7' (c : Dev nD) : V7 m (outs4 m) c = V7 m (outs3 m) c :=
  V7_congr m _ _ (fun c => V6_congr m _ _ (fun c => V5_congr m _ _ (fun c => V4_congr m _ _ (outs4_of m 4 _ (by decide)) (outs4_of m 4 _ (by decide)) c) c) (outs4_of m 6 _ (by decide)) c)
    (outs4_of m 7 _ (by decide)) (outs4_of m 7 _ (by decide)) c
theorem E8' (c : Dev nD) : V8 m (outs4 m) c = V8 m (outs3 m) c := V8_congr m _ _ (E7' m) c
theorem E9 (c : Dev nD) : V9 m (outs m) c = V9 m (outs4 m) c :=
  V9_congr m _ _ (fun c => (E8 m c).trans (E8' m c).symm) (outs5_of m 9 _ (by decide)) c

/-! ## The proof data family, and what rides beside the buffers -/

/-- Every pipeline's proof data, each at its region's entry valuation: a literal match on the pipeline. -/
def pdats : (p : Fin 5) → (c : Dev nD) → Dat τ (Elt F) Unit ℕ (UR sig nD τ) ℕ (cfgs p) c
  | ⟨0, _⟩ => fun c => dat0 (atTc (V3 m)) c
  | ⟨1, _⟩ => fun c => dat1 (atTc (V5 m (outs1 m))) c
  | ⟨2, _⟩ => fun c => dat2 (atTc (V6 m (outs2 m))) c
  | ⟨3, _⟩ => fun c => dat3 (atTc (V8 m (outs3 m))) c
  | ⟨4, _⟩ => fun c => dat4 (atTc (V9 m (outs4 m))) c

/-- No core owes another anything: no level is assigned. -/
abbrev Lno : GSem nD τ sig → Finset Unit := fun _ => ∅
abbrev lvno : GSem nD τ sig → Unit → ℕ := fun _ _ => 0
/-- What rides beside the buffers through every item: the core's generator register at some state and its `owes`, at nothing. -/
abbrev Rst (c : Dev nD) : sProp 𝕄 := iprop((∃ r, prngReg c r) ∗ ∃ W, owes (c : Thread nD τ) (0 : CellTallies nD τ sig Unit) W)

/-! ## Each region's arrays at its exit, and every other buffer unchanged across it -/

set_option maxHeartbeats 4000000 in
theorem hF0 (c : Dev nD) : ∀ w : Fin cfg0.W, (pdats m 0 c).arrAt w cfg0.N = atTc (V4 m (outs1 m)) c (Pipeline.arrRef spec0 w)
  | ⟨0, _⟩ => (((pdats m 0 c).arrAt_in 0 rfl _).trans (A_eq0 _ c 0)).trans (V4_of m (outs1 m) c _ (by decide)).symm
  | ⟨1, _⟩ => (((pdats m 0 c).arrAt_in 1 rfl _).trans (A_eq0 _ c 1)).trans (V4_of m (outs1 m) c _ (by decide)).symm
  | ⟨2, _⟩ => (((pdats m 0 c).arrAt_in 2 rfl _).trans (A_eq0 _ c 2)).trans (V4_of m (outs1 m) c _ (by decide)).symm
  | ⟨3, _⟩ => (((pdats m 0 c).arrAt_in 3 rfl _).trans (A_eq0 _ c 3)).trans (V4_of m (outs1 m) c _ (by decide)).symm
  | ⟨4, _⟩ => by
    show _ = Function.update (Function.update (V3 m c) _ (outs1 m 4 main_v29_0 c)) _ (outs1 m 4 main_v29_1 c) (Proc.devRef .tc main_v29_0)
    rw [Function.update_of_ne (StableHlo.devRef_ne_of_ne (by decide)), Function.update_self, outs1_v29_0]; rfl
  | ⟨5, _⟩ => by
    show _ = Function.update (Function.update (V3 m c) _ (outs1 m 4 main_v29_0 c)) _ (outs1 m 4 main_v29_1 c) (Proc.devRef .tc main_v29_1)
    rw [Function.update_self, outs1_v29_1]; rfl
theorem hrest0 (c : Dev nD) : ∀ b, b ∉ Finset.univ.image (Pipeline.arrRef spec0) → atTc (V4 m (outs1 m)) c b = atTc (V3 m) c b :=
  fun b hb => V4_of m (outs1 m) c b (by
    intro hmem
    rcases List.mem_cons.mp hmem with rfl | hmem
    · exact hb (Finset.mem_image.mpr ⟨4, Finset.mem_univ _, rfl⟩)
    · rcases List.mem_singleton.mp hmem with rfl
      exact hb (Finset.mem_image.mpr ⟨5, Finset.mem_univ _, rfl⟩))

set_option maxHeartbeats 4000000 in
theorem hF1 (c : Dev nD) : ∀ w : Fin cfg1.W, (pdats m 1 c).arrAt w cfg1.N = atTc (V6 m (outs2 m)) c (Pipeline.arrRef spec1 w)
  | ⟨0, _⟩ => ((((pdats m 1 c).arrAt_in 0 rfl _).trans (A_eq1 _ c 0)).trans (congrFun (E5' m c) _).symm).trans (V6_of m (outs2 m) c _ (by decide)).symm
  | ⟨1, _⟩ => ((((pdats m 1 c).arrAt_in 1 rfl _).trans (A_eq1 _ c 1)).trans (congrFun (E5' m c) _).symm).trans (V6_of m (outs2 m) c _ (by decide)).symm
  | ⟨2, _⟩ => by
    show _ = Function.update (V5 m (outs2 m) c) _ (outs2 m 6 main_v51 c) (Proc.devRef .tc main_v51)
    rw [Function.update_self, outs2_v51]; rfl
theorem hrest1 (c : Dev nD) : ∀ b, b ∉ Finset.univ.image (Pipeline.arrRef spec1) → atTc (V6 m (outs2 m)) c b = atTc (V5 m (outs1 m)) c b :=
  fun b hb => (V6_of m (outs2 m) c b (by
    intro hmem
    rcases List.mem_singleton.mp hmem with rfl
    exact hb (Finset.mem_image.mpr ⟨2, Finset.mem_univ _, rfl⟩))).trans (congrFun (E5' m c) _)

set_option maxHeartbeats 4000000 in
theorem hF2 (c : Dev nD) : ∀ w : Fin cfg2.W, (pdats m 2 c).arrAt w cfg2.N = atTc (V7 m (outs3 m)) c (Pipeline.arrRef spec2 w)
  | ⟨0, _⟩ => ((((pdats m 2 c).arrAt_in 0 rfl _).trans (A_eq2 _ c 0)).trans (congrFun (E6' m c) _).symm).trans (V7_of m (outs3 m) c _ (by decide)).symm
  | ⟨1, _⟩ => ((((pdats m 2 c).arrAt_in 1 rfl _).trans (A_eq2 _ c 1)).trans (congrFun (E6' m c) _).symm).trans (V7_of m (outs3 m) c _ (by decide)).symm
  | ⟨2, _⟩ => ((((pdats m 2 c).arrAt_in 2 rfl _).trans (A_eq2 _ c 2)).trans (congrFun (E6' m c) _).symm).trans (V7_of m (outs3 m) c _ (by decide)).symm
  | ⟨3, _⟩ => ((((pdats m 2 c).arrAt_in 3 rfl _).trans (A_eq2 _ c 3)).trans (congrFun (E6' m c) _).symm).trans (V7_of m (outs3 m) c _ (by decide)).symm
  | ⟨4, _⟩ => by
    show _ = Function.update (Function.update (V6 m (outs3 m) c) _ (outs3 m 7 main_v52_0 c)) _ (outs3 m 7 main_v52_1 c) (Proc.devRef .tc main_v52_0)
    rw [Function.update_of_ne (StableHlo.devRef_ne_of_ne (by decide)), Function.update_self, outs3_v52_0]; rfl
  | ⟨5, _⟩ => by
    show _ = Function.update (Function.update (V6 m (outs3 m) c) _ (outs3 m 7 main_v52_0 c)) _ (outs3 m 7 main_v52_1 c) (Proc.devRef .tc main_v52_1)
    rw [Function.update_self, outs3_v52_1]; rfl
theorem hrest2 (c : Dev nD) : ∀ b, b ∉ Finset.univ.image (Pipeline.arrRef spec2) → atTc (V7 m (outs3 m)) c b = atTc (V6 m (outs2 m)) c b :=
  fun b hb => (V7_of m (outs3 m) c b (by
    intro hmem
    rcases List.mem_cons.mp hmem with rfl | hmem
    · exact hb (Finset.mem_image.mpr ⟨4, Finset.mem_univ _, rfl⟩)
    · rcases List.mem_singleton.mp hmem with rfl
      exact hb (Finset.mem_image.mpr ⟨5, Finset.mem_univ _, rfl⟩))).trans (congrFun (E6' m c) _)

set_option maxHeartbeats 4000000 in
theorem hF3 (c : Dev nD) : ∀ w : Fin cfg3.W, (pdats m 3 c).arrAt w cfg3.N = atTc (V9 m (outs4 m)) c (Pipeline.arrRef spec3 w)
  | ⟨0, _⟩ => ((((pdats m 3 c).arrAt_in 0 rfl _).trans (A_eq3 _ c 0)).trans (congrFun (E8' m c) _).symm).trans (V9_of m (outs4 m) c _ (by decide)).symm
  | ⟨1, _⟩ => ((((pdats m 3 c).arrAt_in 1 rfl _).trans (A_eq3 _ c 1)).trans (congrFun (E8' m c) _).symm).trans (V9_of m (outs4 m) c _ (by decide)).symm
  | ⟨2, _⟩ => by
    show _ = Function.update (V8 m (outs4 m) c) _ (outs4 m 9 main_v74 c) (Proc.devRef .tc main_v74)
    rw [Function.update_self, outs4_v74]; rfl
theorem hrest3 (c : Dev nD) : ∀ b, b ∉ Finset.univ.image (Pipeline.arrRef spec3) → atTc (V9 m (outs4 m)) c b = atTc (V8 m (outs3 m)) c b :=
  fun b hb => (V9_of m (outs4 m) c b (by
    intro hmem
    rcases List.mem_singleton.mp hmem with rfl
    exact hb (Finset.mem_image.mpr ⟨2, Finset.mem_univ _, rfl⟩))).trans (congrFun (E8' m c) _)

/-- The valuation region 4 is entered from does not read what region 4 itself leaves. -/
theorem E9' (c : Dev nD) : V9 m (outs5 m) c = V9 m (outs4 m) c := E9 m c

set_option maxHeartbeats 4000000 in
theorem hF4 (c : Dev nD) : ∀ w : Fin cfg4.W, (pdats m 4 c).arrAt w cfg4.N = atTc (V10 m (outs5 m)) c (Pipeline.arrRef spec4 w)
  | ⟨0, _⟩ => ((((pdats m 4 c).arrAt_in 0 rfl _).trans (A_eq4 _ c 0)).trans (congrFun (E9' m c) _).symm).trans (V10_of m (outs5 m) c _ (by decide)).symm
  | ⟨1, _⟩ => ((((pdats m 4 c).arrAt_in 1 rfl _).trans (A_eq4 _ c 1)).trans (congrFun (E9' m c) _).symm).trans (V10_of m (outs5 m) c _ (by decide)).symm
  | ⟨2, _⟩ => ((((pdats m 4 c).arrAt_in 2 rfl _).trans (A_eq4 _ c 2)).trans (congrFun (E9' m c) _).symm).trans (V10_of m (outs5 m) c _ (by decide)).symm
  | ⟨3, _⟩ => ((((pdats m 4 c).arrAt_in 3 rfl _).trans (A_eq4 _ c 3)).trans (congrFun (E9' m c) _).symm).trans (V10_of m (outs5 m) c _ (by decide)).symm
  | ⟨4, _⟩ => ((((pdats m 4 c).arrAt_in 4 rfl _).trans (A_eq4 _ c 4)).trans (congrFun (E9' m c) _).symm).trans (V10_of m (outs5 m) c _ (by decide)).symm
  | ⟨5, _⟩ => ((((pdats m 4 c).arrAt_in 5 rfl _).trans (A_eq4 _ c 5)).trans (congrFun (E9' m c) _).symm).trans (V10_of m (outs5 m) c _ (by decide)).symm
  | ⟨6, _⟩ => by
    show _ = Function.update (V9 m (outs5 m) c) _ (outs5 m 10 main_v75 c) (Proc.devRef .tc main_v75)
    rw [Function.update_self, outs5_v75]; rfl
theorem hrest4 (c : Dev nD) : ∀ b, b ∉ Finset.univ.image (Pipeline.arrRef spec4) → atTc (V10 m (outs5 m)) c b = atTc (V9 m (outs4 m)) c b :=
  fun b hb => (V10_of m (outs5 m) c b (by
    intro hmem
    rcases List.mem_singleton.mp hmem with rfl
    exact hb (Finset.mem_image.mpr ⟨6, Finset.mem_univ _, rfl⟩))).trans (congrFun (E9' m c) _)

/-! ## The regions as segment records -/

set_option backward.isDefEq.respectTransparency.types false in
/-- REGION 0 over the thread state: entered from every unscoped buffer at the valuation before it, left at the one
    after it. Its arrays are split out of the unscoped buffers and put back at the exit contents; the generator register
    goes into the region's invariant and comes back; nothing is owed; the kernel has no semaphore of its own. -/
def reg0 : Pipeline.RegionSeg (pcfgs (F := F)) adm (pdats m) () defs₀ Variants.none Lno lvno 0 where
  win := launch0.win.to₀
  block_pos := launch0.block_pos
  stage_whole := launch0.stage_whole
  K := PEmpty
  osem k := k.elim
  ho := Pipeline.OwnSemFacts.none _
  hbody c := (body_obligation0 (atTc (V3 m)) c).loose
  hwaits := Pipeline.hwaits_of_owed_zero _ _ _ _ Lno lvno 0 fun _ _ => rfl
  pre c := iprop(StableHlo.held (c : Thread nD τ) (Pipeline.ucRefs τ sig) (V3 m c) ∗ Rst c)
  post c := iprop(StableHlo.held (c : Thread nD τ) (Pipeline.ucRefs τ sig) (V4 m (outs1 m) c) ∗ Rst c)
  X c := iprop(∃ r, prngReg c r)
  Y c := iprop(∃ r, prngReg c r)
  Z c := Pipeline.unscopedRest (Ix := Unit) (Name := ℕ) (U := UR sig nD τ) (Lvl := ℕ) spec0 c (atTc (V3 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (V3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (V3 m) c) (atTc (V4 m (outs1 m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at the valuation before it, left at the one
    after it. Its arrays are split out of the unscoped buffers and put back at the exit contents; the generator register
    goes into the region's invariant and comes back; nothing is owed; the kernel has no semaphore of its own. -/
def reg1 : Pipeline.RegionSeg (pcfgs (F := F)) adm (pdats m) () defs₀ Variants.none Lno lvno 1 where
  win := launch1.win.to₀
  block_pos := launch1.block_pos
  stage_whole := launch1.stage_whole
  K := PEmpty
  osem k := k.elim
  ho := Pipeline.OwnSemFacts.none _
  hbody c := (body_obligation1 (atTc (V5 m (outs1 m))) c).loose
  hwaits := Pipeline.hwaits_of_owed_zero _ _ _ _ Lno lvno 1 fun _ _ => rfl
  pre c := iprop(StableHlo.held (c : Thread nD τ) (Pipeline.ucRefs τ sig) (V5 m (outs1 m) c) ∗ Rst c)
  post c := iprop(StableHlo.held (c : Thread nD τ) (Pipeline.ucRefs τ sig) (V6 m (outs2 m) c) ∗ Rst c)
  X c := iprop(∃ r, prngReg c r)
  Y c := iprop(∃ r, prngReg c r)
  Z c := Pipeline.unscopedRest (Ix := Unit) (Name := ℕ) (U := UR sig nD τ) (Lvl := ℕ) spec1 c (atTc (V5 m (outs1 m)) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (V5 m (outs1 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (V5 m (outs1 m)) c) (atTc (V6 m (outs2 m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at the valuation before it, left at the one
    after it. Its arrays are split out of the unscoped buffers and put back at the exit contents; the generator register
    goes into the region's invariant and comes back; nothing is owed; the kernel has no semaphore of its own. -/
def reg2 : Pipeline.RegionSeg (pcfgs (F := F)) adm (pdats m) () defs₀ Variants.none Lno lvno 2 where
  win := launch2.win.to₀
  block_pos := launch2.block_pos
  stage_whole := launch2.stage_whole
  K := PEmpty
  osem k := k.elim
  ho := Pipeline.OwnSemFacts.none _
  hbody c := (body_obligation2 (atTc (V6 m (outs2 m))) c).loose
  hwaits := Pipeline.hwaits_of_owed_zero _ _ _ _ Lno lvno 2 fun _ _ => rfl
  pre c := iprop(StableHlo.held (c : Thread nD τ) (Pipeline.ucRefs τ sig) (V6 m (outs2 m) c) ∗ Rst c)
  post c := iprop(StableHlo.held (c : Thread nD τ) (Pipeline.ucRefs τ sig) (V7 m (outs3 m) c) ∗ Rst c)
  X c := iprop(∃ r, prngReg c r)
  Y c := iprop(∃ r, prngReg c r)
  Z c := Pipeline.unscopedRest (Ix := Unit) (Name := ℕ) (U := UR sig nD τ) (Lvl := ℕ) spec2 c (atTc (V6 m (outs2 m)) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (V6 m (outs2 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (V6 m (outs2 m)) c) (atTc (V7 m (outs3 m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at the valuation before it, left at the one
    after it. Its arrays are split out of the unscoped buffers and put back at the exit contents; the generator register
    goes into the region's invariant and comes back; nothing is owed; the kernel has no semaphore of its own. -/
def reg3 : Pipeline.RegionSeg (pcfgs (F := F)) adm (pdats m) () defs₀ Variants.none Lno lvno 3 where
  win := launch3.win.to₀
  block_pos := launch3.block_pos
  stage_whole := launch3.stage_whole
  K := PEmpty
  osem k := k.elim
  ho := Pipeline.OwnSemFacts.none _
  hbody c := (body_obligation3 (atTc (V8 m (outs3 m))) c).loose
  hwaits := Pipeline.hwaits_of_owed_zero _ _ _ _ Lno lvno 3 fun _ _ => rfl
  pre c := iprop(StableHlo.held (c : Thread nD τ) (Pipeline.ucRefs τ sig) (V8 m (outs3 m) c) ∗ Rst c)
  post c := iprop(StableHlo.held (c : Thread nD τ) (Pipeline.ucRefs τ sig) (V9 m (outs4 m) c) ∗ Rst c)
  X c := iprop(∃ r, prngReg c r)
  Y c := iprop(∃ r, prngReg c r)
  Z c := Pipeline.unscopedRest (Ix := Unit) (Name := ℕ) (U := UR sig nD τ) (Lvl := ℕ) spec3 c (atTc (V8 m (outs3 m)) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atTc (V8 m (outs3 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc (V8 m (outs3 m)) c) (atTc (V9 m (outs4 m)) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at the valuation before it, left at the one
    after it. Its arrays are split out of the unscoped buffers and put back at the exit contents; the generator register
    goes into the region's invariant and comes back; nothing is owed; the kernel has no semaphore of its own. -/
def reg4 : Pipeline.RegionSeg (pcfgs (F := F)) adm (pdats m) () defs₀ Variants.none Lno lvno 4 where
  win := launch4.win.to₀
  block_pos := launch4.block_pos
  stage_whole := launch4.stage_whole
  K := PEmpty
  osem k := k.elim
  ho := Pipeline.OwnSemFacts.none _
  hbody c := (body_obligation4 (atTc (V9 m (outs4 m))) c).loose
  hwaits := Pipeline.hwaits_of_owed_zero _ _ _ _ Lno lvno 4 fun _ _ => rfl
  pre c := iprop(StableHlo.held (c : Thread nD τ) (Pipeline.ucRefs τ sig) (V9 m (outs4 m) c) ∗ Rst c)
  post c := iprop(StableHlo.held (c : Thread nD τ) (Pipeline.ucRefs τ sig) (V10 m (outs5 m) c) ∗ Rst c)
  X c := iprop(∃ r, prngReg c r)
  Y c := iprop(∃ r, prngReg c r)
  Z c := Pipeline.unscopedRest (Ix := Unit) (Name := ℕ) (U := UR sig nD τ) (Lvl := ℕ) spec4 c (atTc (V9 m (outs4 m)) c)
  hentry c := by
    rw [Pipeline.ownSems0_none]
    have hsplit := Pipeline.arrays_of_unscopedBufs (p := 4) (pcfgs (F := F)) adm (pdats m) launch4.win launch4.arr_whole c
      ((pdats m 4 c).share_full fun _ => rfl) (atTc (V9 m (outs4 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin4 (atTc (V9 m (outs4 m))) c)
    unfold Pipeline.ΦA
    iintro ⟨Hp, -, Hr⟩
    isplitl [Hr]; · iexact Hr
    iexact Hp
  hout c := by
    rw [Pipeline.ownSems0_none]
    refine BIBase.Entails.trans (hout4 (atTc (V9 m (outs4 m))) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (atTc (V9 m (outs4 m)) c) (atTc (V10 m (outs5 m)) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The chaining: each region's own valuations against the generated ones at the whole run's unknowns -/

theorem hpost0 (c : Dev nD) : (iprop(StableHlo.held (c : Thread nD τ) (Pipeline.ucRefs τ sig) (V4 m (outs1 m) c) ∗ Rst c) : sProp 𝕄) ⊢ iprop(StableHlo.held (c : Thread nD τ) (Pipeline.ucRefs τ sig) (V4 m (outs m) c) ∗ Rst c) := by
  rw [E4 m c]
theorem hpre1 (c : Dev nD) : (iprop(StableHlo.held (c : Thread nD τ) (Pipeline.ucRefs τ sig) (V5 m (outs m) c) ∗ Rst c) : sProp 𝕄) ⊢ iprop(StableHlo.held (c : Thread nD τ) (Pipeline.ucRefs τ sig) (V5 m (outs1 m) c) ∗ Rst c) := by
  rw [E5 m c]
theorem hpost1 (c : Dev nD) : (iprop(StableHlo.held (c : Thread nD τ) (Pipeline.ucRefs τ sig) (V6 m (outs2 m) c) ∗ Rst c) : sProp 𝕄) ⊢ iprop(StableHlo.held (c : Thread nD τ) (Pipeline.ucRefs τ sig) (V6 m (outs m) c) ∗ Rst c) := by
  rw [E6 m c]
theorem hpre2 (c : Dev nD) : (iprop(StableHlo.held (c : Thread nD τ) (Pipeline.ucRefs τ sig) (V6 m (outs m) c) ∗ Rst c) : sProp 𝕄) ⊢ iprop(StableHlo.held (c : Thread nD τ) (Pipeline.ucRefs τ sig) (V6 m (outs2 m) c) ∗ Rst c) := by
  rw [E6 m c]
theorem hpost2 (c : Dev nD) : (iprop(StableHlo.held (c : Thread nD τ) (Pipeline.ucRefs τ sig) (V7 m (outs3 m) c) ∗ Rst c) : sProp 𝕄) ⊢ iprop(StableHlo.held (c : Thread nD τ) (Pipeline.ucRefs τ sig) (V7 m (outs m) c) ∗ Rst c) := by
  rw [E7 m c]
theorem hpre3 (c : Dev nD) : (iprop(StableHlo.held (c : Thread nD τ) (Pipeline.ucRefs τ sig) (V8 m (outs m) c) ∗ Rst c) : sProp 𝕄) ⊢ iprop(StableHlo.held (c : Thread nD τ) (Pipeline.ucRefs τ sig) (V8 m (outs3 m) c) ∗ Rst c) := by
  rw [E8 m c]
theorem hpost3 (c : Dev nD) : (iprop(StableHlo.held (c : Thread nD τ) (Pipeline.ucRefs τ sig) (V9 m (outs4 m) c) ∗ Rst c) : sProp 𝕄) ⊢ iprop(StableHlo.held (c : Thread nD τ) (Pipeline.ucRefs τ sig) (V9 m (outs m) c) ∗ Rst c) := by
  rw [E9 m c]
theorem hpre4 (c : Dev nD) : (iprop(StableHlo.held (c : Thread nD τ) (Pipeline.ucRefs τ sig) (V9 m (outs m) c) ∗ Rst c) : sProp 𝕄) ⊢ iprop(StableHlo.held (c : Thread nD τ) (Pipeline.ucRefs τ sig) (V9 m (outs4 m) c) ∗ Rst c) := by
  rw [E9 m c]

/-! ## The launch's ghost state and first thread state -/

theorem hu₀_init : (ownU (initOf (Pipeline.cells (nD := nD) (τ := τ) cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch makes on every core at once: the generator register at its launch state and nothing owed. -/
theorem hE0_init (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts Lno lvno)
      ⊢ (|={Set.univ}=> bigSep Finset.univ (fun c => Rst c) : sProp 𝕄) := by
  refine Pipeline.initEach Lno lvno fun c => ?_
  iintro ⟨⟨-, HO, -, Hp, -⟩, -⟩
  imodintro
  isplitl [Hp]; · iexists _; iexact Hp
  iexists ∅; iexact HO

theorem hE5_end (c : Dev nD) : Rst c ⊢ (iprop(∃ W, owes (c : Thread nD τ) (0 : CellTallies nD τ sig Unit) W) : sProp 𝕄) := by
  iintro ⟨-, H⟩; iexact H

/-! ## The frame -/

set_option backward.isDefEq.respectTransparency.types false in
/-- THE FRAME of the kernel program at any float instance: from any memory with zero counters every weakly fair
    execution of @main terminates, nothing faulting, with every argument array as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_cond m (Ix := Unit) (U := UR sig nD τ) (Lvl := ℕ) emb₁ () Variants.none Lno lvno (fun _ _ => rfl) ρ (outs m) (pdats m)
    (0 : Dev nD → CellTallies nD τ sig Unit) (fun _ => (BI.emp : sProp 𝕄))
    (initOf (Pipeline.cells cfgs cellOf_inj) (Pipeline.launchToks cfgs cellOf_inj)) hu₀_init
    (fun _ c => Rst c) (hE0_init ρ) hE5_end
    (reg0 m) (fun c => BI.Entails.refl _) (hpost0 m)
    (reg1 m) (hpre1 m) (hpost1 m)
    (reg2 m) (hpre2 m) (hpost2 m)
    (reg3 m) (hpre3 m) (hpost3 m)
    (reg4 m) (hpre4 m) (fun c => BI.Entails.refl _)

end Cert.Kernel.Reg

end
-- ==== Proof.KI.R0.lean ====
/-
  Region 0 of the kernel program (the first pallas_call: center = x·W1 + b1 and x_j = x·W2 on blocks of 2000 rows,
  the weights and the bias staged whole): what one grid point's body leaves in the two output blocks as a function
  of the input blocks, the body's triple, and the pipeline's proof data at a parameter `V` (the buffer contents
  when the region is entered).
-/
import proofs.«401038_j80255758893589_2_alg».proof.Proof.Gen.KernelIdeal.Launch
import proofs.«401038_j80255758893589_2_alg».proof.Proof.Gen.KernelIdeal.Skeleton
import proofs.«401038_j80255758893589_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not: the rows of x are
    fetched at every point; the weights and the bias are fetched at the first point only and their block index
    never moves, so the buffer still holds the one block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The whole blocks as single rectangles: the 2000×3 rows of x, a 3×16 weight, the bias, a 2000×16 output. -/
abbrev r0x : Rect S2000x3 := Rect.unit (s := S2000x3) ![0, 0] S2000x3.size inb_S2000x3_S2000x3_0_0
abbrev r0w : Rect S3x16 := Rect.unit (s := S3x16) ![0, 0] S3x16.size inb_S3x16_S3x16_0_0
abbrev r0b : Rect S16 := Rect.unit (s := S16) ![0] S16.size inb_S16_S16_0
abbrev r0o : Rect S2000x16 := Rect.unit (s := S2000x16) ![0, 0] S2000x16.size inb_S2000x16_S2000x16_0_0

/-- Output window 4 (center) after the body: the one store x·W1 + b1 over the whole block. -/
def out0_4 (x0 : Vec F S2000x3 .f32) (x1 : Vec F S3x16 .f32) (x2 : Vec F S16 .f32) : Vec F S2000x16 .f32 :=
  View.canon [⟨r0o, k0_pay2 (View.ld x0 r0x) (View.ld x1 r0w) (View.ld x2 r0b)⟩]
/-- Output window 5 (x_j) after the body: the one store x·W2 over the whole block. -/
def out0_5 (x0 : Vec F S2000x3 .f32) (x3 : Vec F S3x16 .f32) : Vec F S2000x16 .f32 :=
  View.canon [⟨r0o, k0_pay3 (View.ld x0 r0x) (View.ld x3 r0w)⟩]

/-- One store over the whole 2000×16 block covers it. -/
theorem cover0_o (p0 : Vec F S2000x16 .f32) (y : S2000x16.Idx) :
    ∃ pc ∈ ([⟨r0o, p0⟩] : List (View.Piece (Elt F) S2000x16 .f32)), y ∈ pc.1.set :=
  View.cover_of_tiled [⟨r0o, p0⟩] S2000x16.size (by rfl) y

set_option maxHeartbeats 1000000 in
/-- The body on whole staging buffers: the four inputs kept, the outputs at `out0_4` / `out0_5` of the inputs
    (what the output buffers held before is read and dropped). -/
theorem sound_kernel0 (c : Dev nD) (E : Set ℕ) (i : grid0.Coords) (arg1 : Memref sig .tc .vmem S2000x3 .f32) (harg1 : arg1.IsWhole)
    (arg2 : Memref sig .tc .vmem S3x16 .f32) (harg2 : arg2.IsWhole) (arg3 : Memref sig .tc .vmem S16 .f32) (harg3 : arg3.IsWhole)
    (arg4 : Memref sig .tc .vmem S3x16 .f32) (harg4 : arg4.IsWhole) (arg5 : Memref sig .tc .vmem S2000x16 .f32) (harg5 : arg5.IsWhole)
    (arg6 : Memref sig .tc .vmem S2000x16 .f32) (harg6 : arg6.IsWhole)
    (x0 : Vec F S2000x3 .f32) (x1 : Vec F S3x16 .f32) (x2 : Vec F S16 .f32) (x3 : Vec F S3x16 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2)
            ∗ owns (c : Thread nD τ) arg6 fullShare (out0_5 x0 x3)) -∗ K ⟨⟩))
      ⊢ wp frame (wpE (defs₀ (F := F)) Variants.none c none) E (cc0_kernel i arg1 harg1 arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_o _)
  iexists _; isplitr
  swap; · iexact H5
  ipureintro
  exact View.read_writes_eq_canon _ _ _ (cover0_o _)

/-- The proof data of pipeline 0 on core `c`: arrays as the region finds them; after the body each input's buffer
    at its block, the outputs' at `out0_4` / `out0_5` of the input blocks; the invariant is the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t)
    | ⟨5, _⟩ => out0_5 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the input buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Reg

end
-- ==== Proof.KI.R1.lean ====
/-
  Region 1 of the kernel program (the second pallas_call: h = max(center + aggr, 0) on blocks of 2000 rows):
  what one grid point's body leaves in the output block as a function of the two input blocks, the body's
  triple, and the pipeline's proof data at a parameter `V` (the buffer contents when the region is entered).
-/
import proofs.«401038_j80255758893589_2_alg».proof.Proof.Gen.KernelIdeal.Launch
import proofs.«401038_j80255758893589_2_alg».proof.Proof.Gen.KernelIdeal.Skeleton
import proofs.«401038_j80255758893589_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point (both inputs are fetched at every point). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole 2000×16 block as one rectangle. -/
abbrev rW1 : Rect S2000x16 := Rect.unit (s := S2000x16) ![0, 0] S2000x16.size inb_S2000x16_S2000x16_0_0

/-- The output block after the body: the one store, max(x0 + x1, 0), over the whole block. -/
def out1_2 (x0 x1 : Vec F S2000x16 .f32) : Vec F S2000x16 .f32 :=
  View.canon [⟨rW1, k1_pay1 (View.ld x0 rW1) (View.ld x1 rW1)⟩]

theorem cover1_2 (p0 : Vec F S2000x16 .f32) (y : S2000x16.Idx) :
    ∃ pc ∈ ([⟨rW1, p0⟩] : List (View.Piece (Elt F) S2000x16 .f32)), y ∈ pc.1.set :=
  View.cover_of_tiled [⟨rW1, p0⟩] S2000x16.size (by rfl) y

set_option maxHeartbeats 1000000 in
/-- The body on whole staging buffers: inputs kept, the output at `out1_2` of the inputs. -/
theorem sound_kernel1 (c : Dev nD) (E : Set ℕ) (i : grid1.Coords) (arg1 : Memref sig .tc .vmem S2000x16 .f32) (harg1 : arg1.IsWhole)
    (arg2 : Memref sig .tc .vmem S2000x16 .f32) (harg2 : arg2.IsWhole) (arg3 : Memref sig .tc .vmem S2000x16 .f32) (harg3 : arg3.IsWhole)
    (x0 x1 : Vec F S2000x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1_kernel i arg1 harg1 arg2 harg2 arg3 harg3) K := by
  simp only [cc1_kernel_eq_skeleton]; unfold cc1_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of pipeline 1 on core `c`: arrays as the region finds them; after the body each input's buffer
    at its block, the output's at `out1_2` of the two input blocks; the invariant is the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Reg

end
-- ==== Proof.KI.R2.lean ====
/-
  Region 2 of the kernel program (the third pallas_call: center = x·W1 + b1 and x_j = x·W2 on blocks of 2000 rows,
  the weights and the bias staged whole): what one grid point's body leaves in the two output blocks as a function
  of the input blocks, the body's triple, and the pipeline's proof data at a parameter `V` (the buffer contents
  when the region is entered).
-/
import proofs.«401038_j80255758893589_2_alg».proof.Proof.Gen.KernelIdeal.Launch
import proofs.«401038_j80255758893589_2_alg».proof.Proof.Gen.KernelIdeal.Skeleton
import proofs.«401038_j80255758893589_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not: the rows of x are
    fetched at every point; the weights and the bias are fetched at the first point only and their block index
    never moves, so the buffer still holds the one block. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The whole blocks as single rectangles: the 2000×16 rows of x, a 16×16 weight, the bias, a 2000×16 output. -/
abbrev r2x : Rect S2000x16 := Rect.unit (s := S2000x16) ![0, 0] S2000x16.size inb_S2000x16_S2000x16_0_0
abbrev r2w : Rect S16x16 := Rect.unit (s := S16x16) ![0, 0] S16x16.size inb_S16x16_S16x16_0_0
abbrev r2b : Rect S16 := Rect.unit (s := S16) ![0] S16.size inb_S16_S16_0
abbrev r2o : Rect S2000x16 := Rect.unit (s := S2000x16) ![0, 0] S2000x16.size inb_S2000x16_S2000x16_0_0

/-- Output window 4 (center) after the body: the one store x·W1 + b1 over the whole block. -/
def out2_4 (x0 : Vec F S2000x16 .f32) (x1 : Vec F S16x16 .f32) (x2 : Vec F S16 .f32) : Vec F S2000x16 .f32 :=
  View.canon [⟨r2o, k2_pay2 (View.ld x0 r2x) (View.ld x1 r2w) (View.ld x2 r2b)⟩]
/-- Output window 5 (x_j) after the body: the one store x·W2 over the whole block. -/
def out2_5 (x0 : Vec F S2000x16 .f32) (x3 : Vec F S16x16 .f32) : Vec F S2000x16 .f32 :=
  View.canon [⟨r2o, k2_pay3 (View.ld x0 r2x) (View.ld x3 r2w)⟩]

/-- One store over the whole 2000×16 block covers it. -/
theorem cover2_o (p0 : Vec F S2000x16 .f32) (y : S2000x16.Idx) :
    ∃ pc ∈ ([⟨r2o, p0⟩] : List (View.Piece (Elt F) S2000x16 .f32)), y ∈ pc.1.set :=
  View.cover_of_tiled [⟨r2o, p0⟩] S2000x16.size (by rfl) y

set_option maxHeartbeats 1000000 in
/-- The body on whole staging buffers: the four inputs kept, the outputs at `out2_4` / `out2_5` of the inputs
    (what the output buffers held before is read and dropped). -/
theorem sound_kernel2 (c : Dev nD) (E : Set ℕ) (i : grid2.Coords) (arg1 : Memref sig .tc .vmem S2000x16 .f32) (harg1 : arg1.IsWhole)
    (arg2 : Memref sig .tc .vmem S16x16 .f32) (harg2 : arg2.IsWhole) (arg3 : Memref sig .tc .vmem S16 .f32) (harg3 : arg3.IsWhole)
    (arg4 : Memref sig .tc .vmem S16x16 .f32) (harg4 : arg4.IsWhole) (arg5 : Memref sig .tc .vmem S2000x16 .f32) (harg5 : arg5.IsWhole)
    (arg6 : Memref sig .tc .vmem S2000x16 .f32) (harg6 : arg6.IsWhole)
    (x0 : Vec F S2000x16 .f32) (x1 : Vec F S16x16 .f32) (x2 : Vec F S16 .f32) (x3 : Vec F S16x16 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2)
            ∗ owns (c : Thread nD τ) arg6 fullShare (out2_5 x0 x3)) -∗ K ⟨⟩))
      ⊢ wp frame (wpE (defs₀ (F := F)) Variants.none c none) E (cc2_kernel i arg1 harg1 arg2 harg2 arg3 harg3 arg4 harg4 arg5 harg5 arg6 harg6) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover2_o _)
  iexists _; isplitr
  swap; · iexact H5
  ipureintro
  exact View.read_writes_eq_canon _ _ _ (cover2_o _)

/-- The proof data of pipeline 2 on core `c`: arrays as the region finds them; after the body each input's buffer
    at its block, the outputs' at `out2_4` / `out2_5` of the input blocks; the invariant is the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t)
    | ⟨5, _⟩ => out2_5 (iblk2 V c 0 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) := by dsimp only [dat2]
theorem after2_5 (c : Dev nD) (t : Fin cfg2.N) : (dat2 V c).after 5 t = out2_5 (iblk2 V c 0 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the input buffers hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Reg

end
-- ==== Proof.KI.R3.lean ====
/-
  Region 3 of the kernel program (the fourth pallas_call: h = max(center + aggr, 0) on blocks of 2000 rows):
  what one grid point's body leaves in the output block as a function of the two input blocks, the body's
  triple, and the pipeline's proof data at a parameter `V` (the buffer contents when the region is entered).
-/
import proofs.«401038_j80255758893589_2_alg».proof.Proof.Gen.KernelIdeal.Launch
import proofs.«401038_j80255758893589_2_alg».proof.Proof.Gen.KernelIdeal.Skeleton
import proofs.«401038_j80255758893589_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point (both inputs are fetched at every point). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole 2000×16 block as one rectangle. -/
abbrev rW3 : Rect S2000x16 := Rect.unit (s := S2000x16) ![0, 0] S2000x16.size inb_S2000x16_S2000x16_0_0

/-- The output block after the body: the one store, max(x0 + x1, 0), over the whole block. -/
def out3_2 (x0 x1 : Vec F S2000x16 .f32) : Vec F S2000x16 .f32 :=
  View.canon [⟨rW3, k3_pay1 (View.ld x0 rW3) (View.ld x1 rW3)⟩]

theorem cover3_2 (p0 : Vec F S2000x16 .f32) (y : S2000x16.Idx) :
    ∃ pc ∈ ([⟨rW3, p0⟩] : List (View.Piece (Elt F) S2000x16 .f32)), y ∈ pc.1.set :=
  View.cover_of_tiled [⟨rW3, p0⟩] S2000x16.size (by rfl) y

set_option maxHeartbeats 1000000 in
/-- The body on whole staging buffers: inputs kept, the output at `out3_2` of the inputs. -/
theorem sound_kernel3 (c : Dev nD) (E : Set ℕ) (i : grid3.Coords) (arg1 : Memref sig .tc .vmem S2000x16 .f32) (harg1 : arg1.IsWhole)
    (arg2 : Memref sig .tc .vmem S2000x16 .f32) (harg2 : arg2.IsWhole) (arg3 : Memref sig .tc .vmem S2000x16 .f32) (harg3 : arg3.IsWhole)
    (x0 x1 : Vec F S2000x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3_kernel i arg1 harg1 arg2 harg2 arg3 harg3) K := by
  simp only [cc3_kernel_eq_skeleton]; unfold cc3_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of pipeline 3 on core `c`: arrays as the region finds them; after the body each input's buffer
    at its block, the output's at `out3_2` of the two input blocks; the invariant is the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Reg

end
-- ==== Proof.KI.R4.lean ====
/-
  Region 4 of the kernel program (the last pallas_call: mean-pooling over 64 graph ids by a one-hot matrix product,
  accumulated over the 50 blocks of 2000 nodes in two scratch buffers — the per-graph feature sums and the per-graph
  node counts — and, at the last block, the two-layer head on the pooled means): the scratch contents after each
  grid point, what the last point stores into the output block, the body's triple per case of the two conditionals,
  and the pipeline's proof data at a parameter `V` (the buffer contents when the region is entered).
-/
import proofs.«401038_j80255758893589_2_alg».proof.Proof.Gen.KernelIdeal.Launch
import proofs.«401038_j80255758893589_2_alg».proof.Proof.Gen.KernelIdeal.Skeleton
import proofs.«401038_j80255758893589_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The two scratch operands as whole memrefs. -/
abbrev scM4_0 : Memref sig .tc .vmem S64x16 .f32 := Memref.whole cc4_scratch0
abbrev scM4_1 : Memref sig .tc .vmem S64x1 .f32 := Memref.whole cc4_scratch1

/-- THE ACCUMULATION. What the two scratch buffers (per-graph sums, per-graph counts) hold after the body at position
    `n`: at the first point the body resets both to zero and adds the first block's contribution; at every later
    point it adds the point's contribution to what the point before left. -/
def acc4 (c : Dev nD) : (n : ℕ) → n < cfg4.N → Vec F S64x16 .f32 × Vec F S64x1 .f32
  | 0, h => (k4_pay4 (iblk4 V c 0 ⟨0, h⟩) (iblk4 V c 1 ⟨0, h⟩) (k4_pay1 (F := F)), k4_pay5 (iblk4 V c 1 ⟨0, h⟩) (k4_pay2 (F := F)))
  | n + 1, h => (k4_pay4 (iblk4 V c 0 ⟨n + 1, h⟩) (iblk4 V c 1 ⟨n + 1, h⟩) (acc4 c n (Nat.lt_of_succ_lt h)).1,
      k4_pay5 (iblk4 V c 1 ⟨n + 1, h⟩) (acc4 c n (Nat.lt_of_succ_lt h)).2)

theorem acc4_zero (c : Dev nD) (h : 0 < cfg4.N) :
    acc4 V c 0 h = (k4_pay4 (iblk4 V c 0 ⟨0, h⟩) (iblk4 V c 1 ⟨0, h⟩) (k4_pay1 (F := F)), k4_pay5 (iblk4 V c 1 ⟨0, h⟩) (k4_pay2 (F := F))) := rfl
theorem acc4_succ (c : Dev nD) (n : ℕ) (h : n + 1 < cfg4.N) :
    acc4 V c (n + 1) h = (k4_pay4 (iblk4 V c 0 ⟨n + 1, h⟩) (iblk4 V c 1 ⟨n + 1, h⟩) (acc4 V c n (Nat.lt_of_succ_lt h)).1,
      k4_pay5 (iblk4 V c 1 ⟨n + 1, h⟩) (acc4 V c n (Nat.lt_of_succ_lt h)).2) := rfl

/-- What the body stores into the output block at point `t` when it stores at all (it does at the last point only):
    the head applied to the scratch contents the point has just written. At the other points the output window is idle
    and this value is a placeholder nothing reads. -/
def out4_6 (c : Dev nD) (t : Fin cfg4.N) : Vec F S64x2 .f32 :=
  k4_pay6 (acc4 V c t.val t.isLt).1 (acc4 V c t.val t.isLt).2 (iblk4 V c 2 t) (iblk4 V c 3 t) (iblk4 V c 4 t) (iblk4 V c 5 t)

/-- The region invariant before position `n`: before the first point the scoped rest at anything and the generator
    register; afterwards the two scratch buffers at what the point before left, the other scoped buffers unopened,
    and the generator register at some state. -/
def PhiS4 (c : Dev nD) : (n : ℕ) → n ≤ cfg4.N → sProp 𝕄
  | 0, _ => Pipeline.ΦA spec4 c
  | n + 1, hn => iprop(owns (c : Thread nD τ) scM4_0 fullShare (acc4 V c n hn).1 ∗ owns (c : Thread nD τ) scM4_1 fullShare (acc4 V c n hn).2
      ∗ Pipeline.scopedRestBut (Ix := Unit) (Name := ℕ) (U := UR sig nD τ) (Lvl := ℕ) (Val := Elt F) spec4 c [cc4_scratch0, cc4_scratch1] ∗ (∃ r, prngReg c r))

/-- The proof data of pipeline 4 on core `c`. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 V c t
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = out4_6 V c t := by dsimp only [dat4]

/-- The zero offsets of a whole-block rectangle, of rank two and of rank one. -/
theorem hz4_2 : (![0, 0] : Fin 2 → Nat) = fun _ => 0 := funext fun a => by fin_cases a <;> rfl
theorem hz4_1 : (![0] : Fin 1 → Nat) = fun _ => 0 := funext fun a => by fin_cases a <;> rfl

/-- A whole-shape store, made last, is what the buffer then reads, whatever was stored before it. -/
theorem read_writes_unit_cons4 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- The first conditional's test (the point is the first), from the grid coordinate. -/
abbrev cond4_0 (i : grid4.Coords) : Prop :=
  (Scalar.cmpi .ne (Scalar.extui (Scalar.cmpi .eq (BitVec.ofNat 32 (i 0).val) 0#32)) 0#32) = 1#1
/-- The second conditional's test (the point is the last). -/
abbrev cond4_1 (i : grid4.Coords) : Prop := k4_cond2 i = 1#1

/-- The first test holds at the first point only, the second at the last point only: decided over the grid. -/
theorem hcond4_0 : ∀ t : Fin cfg4.N, cond4_0 (grid4.coords t) ↔ t.val = 0 :=
  (by decide +kernel : ∀ t : Fin grid4.N, cond4_0 (grid4.coords t) ↔ t.val = 0)
theorem hcond4_1 : ∀ t : Fin cfg4.N, cond4_1 (grid4.coords t) ↔ t.val = 49 :=
  (by decide +kernel : ∀ t : Fin grid4.N, cond4_1 (grid4.coords t) ↔ t.val = 49)

/-- The output window is idle, and not written back, exactly where the second test fails. -/
theorem idleAt4_6 : ∀ t : Fin cfg4.N, ¬cond4_1 (grid4.coords t) → cfg4.idle 6 (grid4.coords t) = true := by decide +kernel
theorem liveAt4_6 : ∀ t : Fin cfg4.N, cond4_1 (grid4.coords t) → cfg4.idle 6 (grid4.coords t) = false := by decide +kernel
theorem noFlush4_6 : ∀ t : Fin cfg4.N, ¬cond4_1 (grid4.coords t) → (cfg4.win 6).flush t = false := by decide +kernel

set_option maxHeartbeats 4000000 in
/-- The body at the first point: both scratch buffers, at anything, are zeroed and take the first block's
    contribution; the two streamed inputs are kept; the weights and the output block are not touched. -/
theorem sound_kernel4_first (c : Dev nD) (E : Set ℕ) (i : grid4.Coords)
    (arg1 : Memref sig .tc .vmem S2000x16 .f32) (harg1 : arg1.IsWhole) (arg2 : Memref sig .tc .vmem S2000x1 .i32) (harg2 : arg2.IsWhole)
    (arg3 : Memref sig .tc .vmem S16x16 .f32) (harg3 : arg3.IsWhole) (arg4 : Memref sig .tc .vmem S16 .f32) (harg4 : arg4.IsWhole)
    (arg5 : Memref sig .tc .vmem S16x2 .f32) (harg5 : arg5.IsWhole) (arg6 : Memref sig .tc .vmem S2 .f32) (harg6 : arg6.IsWhole)
    (arg7 : Memref sig .tc .vmem S64x2 .f32) (harg7 : arg7.IsWhole) (arg8 : Memref sig .tc .vmem S64x16 .f32) (harg8 : arg8.IsWhole)
    (arg9 : Memref sig .tc .vmem S64x1 .f32) (harg9 : arg9.IsWhole) (hc0 : cond4_0 i) (hc1 : ¬cond4_1 i)
    (x0 : Vec F S2000x16 .f32) (x1 : Vec F S2000x1 .i32) (K : PUnit → sProp 𝕄) :
    iprop(owns (c : Thread nD τ) arg1 fullShare x0 ∗ owns (c : Thread nD τ) arg2 fullShare x1
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1
            ∗ owns (c : Thread nD τ) arg8 fullShare (k4_pay4 x0 x1 (k4_pay1 (F := F)))
            ∗ owns (c : Thread nD τ) arg9 fullShare (k4_pay5 x1 (k4_pay2 (F := F)))) -∗ K ⟨⟩))
      ⊢ wp frame (wpE (defs₀ (F := F)) Variants.none c none) E (cc4_kernel i arg1 harg1 arg2 harg2 arg3 harg3 arg4 harg4 arg5 harg5 arg6 harg6 arg7 harg7 arg8 harg8 arg9 harg9) K := by
  simp only [cc4_kernel_eq_skeleton]; unfold cc4_kernel_skel
  unfold owns
  iintro ⟨⟨%f0, %hf0, H0⟩, ⟨%f1, %hf1, H1⟩, ⟨%d8, %f8, -, H8⟩, ⟨%d9, %f9, -, H9⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H8]
  · iexists _; isplitr
    swap; · iexact H8
    ipureintro
    sl_unfold_words
    rw [read_writes_unit_cons4 _ _ hz4_2]
    simp only [View.readAt_eq_ld, View.ld_unit_zero (S := S2000x16) hz4_2, View.ld_unit_zero (S := S2000x1) hz4_2,
      View.readCov_unit_zero (S := S64x16) _ hz4_2]
  iexists _; isplitr
  swap; · iexact H9
  ipureintro
  sl_unfold_words
  rw [read_writes_unit_cons4 _ _ hz4_2]
  simp only [View.readAt_eq_ld, View.ld_unit_zero (S := S2000x1) hz4_2, View.readCov_unit_zero (S := S64x1) _ hz4_2]

set_option maxHeartbeats 4000000 in
/-- The body at a point that is neither first nor last: each scratch buffer takes the block's contribution on top of
    what it held; the two streamed inputs are kept; the weights and the output block are not touched. -/
theorem sound_kernel4_mid (c : Dev nD) (E : Set ℕ) (i : grid4.Coords)
    (arg1 : Memref sig .tc .vmem S2000x16 .f32) (harg1 : arg1.IsWhole) (arg2 : Memref sig .tc .vmem S2000x1 .i32) (harg2 : arg2.IsWhole)
    (arg3 : Memref sig .tc .vmem S16x16 .f32) (harg3 : arg3.IsWhole) (arg4 : Memref sig .tc .vmem S16 .f32) (harg4 : arg4.IsWhole)
    (arg5 : Memref sig .tc .vmem S16x2 .f32) (harg5 : arg5.IsWhole) (arg6 : Memref sig .tc .vmem S2 .f32) (harg6 : arg6.IsWhole)
    (arg7 : Memref sig .tc .vmem S64x2 .f32) (harg7 : arg7.IsWhole) (arg8 : Memref sig .tc .vmem S64x16 .f32) (harg8 : arg8.IsWhole)
    (arg9 : Memref sig .tc .vmem S64x1 .f32) (harg9 : arg9.IsWhole) (hc0 : ¬cond4_0 i) (hc1 : ¬cond4_1 i)
    (x0 : Vec F S2000x16 .f32) (x1 : Vec F S2000x1 .i32) (s0 : Vec F S64x16 .f32) (s1 : Vec F S64x1 .f32) (K : PUnit → sProp 𝕄) :
    iprop(owns (c : Thread nD τ) arg1 fullShare x0 ∗ owns (c : Thread nD τ) arg2 fullShare x1
        ∗ owns (c : Thread nD τ) arg8 fullShare s0 ∗ owns (c : Thread nD τ) arg9 fullShare s1
        ∗ (iprop(owns (c : Thread nD τ) arg1 fullShare x0 ∗ owns (c : Thread nD τ) arg2 fullShare x1
            ∗ owns (c : Thread nD τ) arg8 fullShare (k4_pay4 x0 x1 s0)
            ∗ owns (c : Thread nD τ) arg9 fullShare (k4_pay5 x1 s1)) -∗ K ⟨⟩))
      ⊢ wp frame (wpE (defs₀ (F := F)) Variants.none c none) E (cc4_kernel i arg1 harg1 arg2 harg2 arg3 harg3 arg4 harg4 arg5 harg5 arg6 harg6 arg7 harg7 arg8 harg8 arg9 harg9) K := by
  simp only [cc4_kernel_eq_skeleton]; unfold cc4_kernel_skel
  unfold owns
  iintro ⟨⟨%f0, %hf0, H0⟩, ⟨%f1, %hf1, H1⟩, ⟨%f8, %hf8, H8⟩, ⟨%f9, %hf9, H9⟩, Hk⟩
  subst hf0; subst hf1; subst hf8; subst hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H8]
  · iexists _; isplitr
    swap; · iexact H8
    ipureintro
    sl_unfold_words
    rw [read_writes_unit_cons4 _ _ hz4_2]
    simp only [View.readAt_eq_ld, View.ld_unit_zero (S := S2000x16) hz4_2, View.ld_unit_zero (S := S2000x1) hz4_2,
      View.ld_unit_zero (S := S64x16) hz4_2]
  iexists _; isplitr
  swap; · iexact H9
  ipureintro
  sl_unfold_words
  rw [read_writes_unit_cons4 _ _ hz4_2]
  simp only [View.readAt_eq_ld, View.ld_unit_zero (S := S2000x1) hz4_2, View.ld_unit_zero (S := S64x1) hz4_2]

set_option maxHeartbeats 8000000 in
/-- The body at the last point: each scratch buffer takes the block's contribution on top of what it held, and the
    output block is stored with the head applied to the two scratch buffers as just written and the four weight
    blocks; every input is kept. -/
theorem sound_kernel4_last (c : Dev nD) (E : Set ℕ) (i : grid4.Coords)
    (arg1 : Memref sig .tc .vmem S2000x16 .f32) (harg1 : arg1.IsWhole) (arg2 : Memref sig .tc .vmem S2000x1 .i32) (harg2 : arg2.IsWhole)
    (arg3 : Memref sig .tc .vmem S16x16 .f32) (harg3 : arg3.IsWhole) (arg4 : Memref sig .tc .vmem S16 .f32) (harg4 : arg4.IsWhole)
    (arg5 : Memref sig .tc .vmem S16x2 .f32) (harg5 : arg5.IsWhole) (arg6 : Memref sig .tc .vmem S2 .f32) (harg6 : arg6.IsWhole)
    (arg7 : Memref sig .tc .vmem S64x2 .f32) (harg7 : arg7.IsWhole) (arg8 : Memref sig .tc .vmem S64x16 .f32) (harg8 : arg8.IsWhole)
    (arg9 : Memref sig .tc .vmem S64x1 .f32) (harg9 : arg9.IsWhole) (hc0 : ¬cond4_0 i) (hc1 : cond4_1 i)
    (x0 : Vec F S2000x16 .f32) (x1 : Vec F S2000x1 .i32) (x2 : Vec F S16x16 .f32) (x3 : Vec F S16 .f32)
    (x4 : Vec F S16x2 .f32) (x5 : Vec F S2 .f32) (s0 : Vec F S64x16 .f32) (s1 : Vec F S64x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ owns (c : Thread nD τ) arg8 fullShare s0 ∗ owns (c : Thread nD τ) arg9 fullShare s1
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (k4_pay6 (k4_pay4 x0 x1 s0) (k4_pay5 x1 s1) x2 x3 x4 x5)
            ∗ owns (c : Thread nD τ) arg8 fullShare (k4_pay4 x0 x1 s0)
            ∗ owns (c : Thread nD τ) arg9 fullShare (k4_pay5 x1 s1)) -∗ K ⟨⟩))
      ⊢ wp frame (wpE (defs₀ (F := F)) Variants.none c none) E (cc4_kernel i arg1 harg1 arg2 harg2 arg3 harg3 arg4 harg4 arg5 harg5 arg6 harg6 arg7 harg7 arg8 harg8 arg9 harg9) K := by
  simp only [cc4_kernel_eq_skeleton]; unfold cc4_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, ⟨%f8, %hf8, H8⟩, ⟨%f9, %hf9, H9⟩, Hk⟩
  subst hf0; subst hf1; subst hf2; subst hf3; subst hf4; subst hf5; subst hf8; subst hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H7]
  · iexists _; isplitr
    swap; · iexact H7
    ipureintro
    sl_unfold_words
    rw [read_writes_unit_cons4 _ _ hz4_2]
    simp only [View.readAt_eq_ld, View.ld_unit_zero (S := S2000x16) hz4_2, View.ld_unit_zero (S := S2000x1) hz4_2,
      View.ld_unit_zero (S := S64x16) hz4_2, View.ld_unit_zero (S := S64x1) hz4_2, View.ld_unit_zero (S := S16x16) hz4_2,
      View.ld_unit_zero (S := S16) hz4_1, View.ld_unit_zero (S := S16x2) hz4_2, View.ld_unit_zero (S := S2) hz4_1,
      View.readCov_unit_zero (S := S64x16) _ hz4_2, View.readCov_unit_zero (S := S64x1) _ hz4_2]
  isplitl [H8]
  · iexists _; isplitr
    swap; · iexact H8
    ipureintro
    sl_unfold_words
    rw [read_writes_unit_cons4 _ _ hz4_2]
    simp only [View.readAt_eq_ld, View.ld_unit_zero (S := S2000x16) hz4_2, View.ld_unit_zero (S := S2000x1) hz4_2,
      View.ld_unit_zero (S := S64x16) hz4_2]
  iexists _; isplitr
  swap; · iexact H9
  ipureintro
  sl_unfold_words
  rw [read_writes_unit_cons4 _ _ hz4_2]
  simp only [View.readAt_eq_ld, View.ld_unit_zero (S := S2000x1) hz4_2, View.ld_unit_zero (S := S64x1) hz4_2]

/-- An input window's staging buffer holds its block at every point, fetched there or not: the node features and the
    graph ids are fetched at every point; the four weight blocks are fetched at the first point only and their block
    index never moves, so the buffer still holds the one block. -/
theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl) (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V c).before 3 t d = iblk4 V c 3 t :=
  ((dat4 V c).before_in_eq_fetched 3 rfl (fun _ => rfl) (fun _ _ _ => rfl) (fun t => by rw [after4_3]; unfold Dat.blockOf iblk4; rw [A_eq4]; try rfl) t d).trans
    (by unfold Dat.fetched Dat.blockOf iblk4; rw [A_eq4]; try rfl)
theorem before4_4 (c : Dev nD) (t : Fin cfg4.N) (d) : (dat4 V c).before 4 t d = iblk4 V c 4 t :=
  ((dat4 V c).before_in_eq_fetched 4 rfl (fun _ => rfl) (fun _ _ _ => rfl) (fun t => by rw [after4_4]; unfold Dat.blockOf iblk4; rw [A_eq4]; try rfl) t d).trans
    (by unfold Dat.fetched Dat.blockOf iblk4; rw [A_eq4]; try rfl)
theorem before4_5 (c : Dev nD) (t : Fin cfg4.N) (d) : (dat4 V c).before 5 t d = iblk4 V c 5 t :=
  ((dat4 V c).before_in_eq_fetched 5 rfl (fun _ => rfl) (fun _ _ _ => rfl) (fun t => by rw [after4_5]; unfold Dat.blockOf iblk4; rw [A_eq4]; try rfl) t d).trans
    (by unfold Dat.fetched Dat.blockOf iblk4; rw [A_eq4]; try rfl)

/-- The accumulation at the first point, and at a later point over what the point before left. -/
theorem acc4_first (c : Dev nD) (t : Fin cfg4.N) (h0 : t.val = 0) :
    acc4 V c t.val t.isLt = (k4_pay4 (iblk4 V c 0 t) (iblk4 V c 1 t) (k4_pay1 (F := F)), k4_pay5 (iblk4 V c 1 t) (k4_pay2 (F := F))) := by
  obtain ⟨n, hn⟩ := t
  cases n with
  | zero => rfl
  | succ n => exact absurd h0 (Nat.succ_ne_zero n)
theorem acc4_later (c : Dev nD) (t : Fin cfg4.N) (h0 : t.val ≠ 0) :
    acc4 V c t.val t.isLt = (k4_pay4 (iblk4 V c 0 t) (iblk4 V c 1 t) (acc4 V c (t.val - 1) (Nat.lt_of_le_of_lt (Nat.sub_le _ _) t.isLt)).1,
      k4_pay5 (iblk4 V c 1 t) (acc4 V c (t.val - 1) (Nat.lt_of_le_of_lt (Nat.sub_le _ _) t.isLt)).2) := by
  obtain ⟨n, hn⟩ := t
  cases n with
  | zero => exact absurd rfl h0
  | succ n => rfl

/-- The class invariant with the two scratch operands split out as memrefs owned at some contents. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop(owns (c : Thread nD τ) scM4_0 fullShare (acc4 V c n hn).1 ∗ owns (c : Thread nD τ) scM4_1 fullShare (acc4 V c n hn).2
      ∗ Pipeline.scopedRestBut (Ix := Unit) (Name := ℕ) (U := UR sig nD τ) (Lvl := ℕ) (Val := Elt F) spec4 c [cc4_scratch0, cc4_scratch1] ∗ (∃ r, prngReg c r)) := rfl
theorem PhiS4_pos (c : Dev nD) (n : ℕ) (h : n ≤ cfg4.N) (hz : n ≠ 0) :
    PhiS4 V c n h = iprop(owns (c : Thread nD τ) scM4_0 fullShare (acc4 V c (n - 1) (by omega)).1 ∗ owns (c : Thread nD τ) scM4_1 fullShare (acc4 V c (n - 1) (by omega)).2
      ∗ Pipeline.scopedRestBut (Ix := Unit) (Name := ℕ) (U := UR sig nD τ) (Lvl := ℕ) (Val := Elt F) spec4 c [cc4_scratch0, cc4_scratch1] ∗ (∃ r, prngReg c r)) := by
  cases n with
  | zero => exact absurd rfl hz
  | succ n => rfl
theorem PhiS4_castSucc (c : Dev nD) (t : Fin cfg4.N) :
    (dat4 V c).Φ t.castSucc = PhiS4 V c t.val (Nat.le_of_lt t.isLt) := by
  dsimp only [dat4]; simp only [Fin.coe_castSucc]

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

set_option maxHeartbeats 4000000 in
/-- The body at any point. The inputs' buffers hold their blocks; the point is the first, a middle one or the last.
    At the first point the invariant is the class's, which hands over both scratch buffers at anything; later it hands
    them over at what the point before left. Either way it takes them back at this point's accumulation. The output
    window is idle and handed back as found except at the last point, where it is left at the head of the accumulation. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (st4_0 t) fullShare ((dat4 V c).after 0 t) from rfl, after4_0]
  rw [show (dat4 V c).leavesExact 1 t = owns (c : Thread nD τ) (st4_1 t) fullShare ((dat4 V c).after 1 t) from rfl, after4_1]
  rw [show (dat4 V c).leavesExact 2 t = owns (c : Thread nD τ) (st4_2 t) fullShare ((dat4 V c).after 2 t) from rfl, after4_2]
  rw [show (dat4 V c).leavesExact 3 t = owns (c : Thread nD τ) (st4_3 t) fullShare ((dat4 V c).after 3 t) from rfl, after4_3]
  rw [show (dat4 V c).leavesExact 4 t = owns (c : Thread nD τ) (st4_4 t) fullShare ((dat4 V c).after 4 t) from rfl, after4_4]
  rw [show (dat4 V c).leavesExact 5 t = owns (c : Thread nD τ) (st4_5 t) fullShare ((dat4 V c).after 5 t) from rfl, after4_5]
  have hN : t.val < 50 := lt_of_lt_of_eq t.isLt (show cfg4.N = 50 from N_4)
  by_cases h0 : t.val = 0
  · have hc0 : cond4_0 (grid4.coords t) := (hcond4_0 t).mpr h0
    have hc1 : ¬cond4_1 (grid4.coords t) := fun h => by have := (hcond4_1 t).mp h; omega
    rw [Dat.leavesExact_idle (dat4 V c) 6 t (idleAt4_6 t hc1) (noFlush4_6 t hc1)]
    rw [acc4_first V c t h0]; dsimp only
    rw [PhiS4_castSucc V c t, PhiS4_zero V c _ _ h0, PhiA4_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel4_first c Set.univ _ _ _ _ _ _ _ _ _ _ _ _ _ _ _ _ _ _ _ hc0 hc1 (iblk4 V c 0 t) (iblk4 V c 1 t) _)
    isplitl [H0]; · iexact H0
    isplitl [H1]; · iexact H1
    isplitl [HS0]; · iexact HS0
    isplitl [HS1]; · iexact HS1
    iintro ⟨H0, H1, HS0, HS1⟩
    isplitl [HS0 HS1 Hrest Hg]
    · isplitl [HS0]; · iexact HS0
      isplitl [HS1]; · iexact HS1
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hc0 : ¬cond4_0 (grid4.coords t) := fun h => h0 ((hcond4_0 t).mp h)
    rw [acc4_later V c t h0]; dsimp only
    rw [PhiS4_castSucc V c t, PhiS4_pos V c _ _ h0]
    by_cases h1 : t.val = 49
    · have hc1 : cond4_1 (grid4.coords t) := (hcond4_1 t).mpr h1
      rw [show (dat4 V c).leavesExact 6 t = owns (c : Thread nD τ) (st4_6 t) fullShare ((dat4 V c).after 6 t) from by
        unfold Dat.leavesExact; rw [liveAt4_6 t hc1], after4_6]
      unfold out4_6
      rw [acc4_later V c t h0]; dsimp only
      iintro ⟨⟨HS0, HS1, Hrest, Hg⟩, Ho, ⟨%d0, H0⟩, ⟨%d1, H1⟩, ⟨%d2, H2⟩, ⟨%d3, H3⟩, ⟨%d4, H4⟩, ⟨%d5, H5⟩, ⟨%d6, H6⟩⟩
      iapply (sound_kernel4_last c Set.univ _ _ _ _ _ _ _ _ _ _ _ _ _ _ _ _ _ _ _ hc0 hc1 (iblk4 V c 0 t) (iblk4 V c 1 t)
        (iblk4 V c 2 t) (iblk4 V c 3 t) (iblk4 V c 4 t) (iblk4 V c 5 t) (acc4 V c (t.val - 1) (Nat.lt_of_le_of_lt (Nat.sub_le _ _) t.isLt)).1 (acc4 V c (t.val - 1) (Nat.lt_of_le_of_lt (Nat.sub_le _ _) t.isLt)).2 _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, H6, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc1 : ¬cond4_1 (grid4.coords t) := fun h => h1 ((hcond4_1 t).mp h)
      rw [Dat.leavesExact_idle (dat4 V c) 6 t (idleAt4_6 t hc1) (noFlush4_6 t hc1)]
      iintro ⟨⟨HS0, HS1, Hrest, Hg⟩, Ho, ⟨%d0, H0⟩, ⟨%d1, H1⟩, ⟨%d2, H2⟩, ⟨%d3, H3⟩, ⟨%d4, H4⟩, ⟨%d5, H5⟩, ⟨%d6, H6⟩⟩
      iapply (sound_kernel4_mid c Set.univ _ _ _ _ _ _ _ _ _ _ _ _ _ _ _ _ _ _ _ hc0 hc1 (iblk4 V c 0 t) (iblk4 V c 1 t) (acc4 V c (t.val - 1) (Nat.lt_of_le_of_lt (Nat.sub_le _ _) t.isLt)).1 (acc4 V c (t.val - 1) (Nat.lt_of_le_of_lt (Nat.sub_le _ _) t.isLt)).2 _)
      isplitl [H0]; · iexact H0
      isplitl [H1]; · iexact H1
      isplitl [HS0]; · iexact HS0
      isplitl [HS1]; · iexact HS1
      iintro ⟨H0, H1, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives the scoped rest and the generator register back: the scratch buffers'
    named contents are forgotten. -/
theorem hout4 (c : Dev nD) : (dat4 V c).Φ (Fin.last cfg4.N) ⊢ Pipeline.ΦA spec4 c := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 50 := N_4; omega), PhiA4_eq]
  iintro ⟨HS0, HS1, Hrest, Hg⟩
  isplitl [HS0 HS1 Hrest]
  · isplitl [HS0 HS1]
    · isplitl [HS0]
      · iexists _; iexact HS0
      iexists _; iexact HS1
    iexact Hrest
  iexact Hg

end Cert.KernelIdeal.Reg

end
-- ==== Proof.KI.Main.lean ====
/-
  The launch of the kernel program: @main is ten items — three stretches of host operations, region 0, a stretch,
  regions 1 and 2, a stretch, regions 3 and 4. Between two items every unscoped buffer is held at a known valuation:
  the launch contents, then each host stretch applied, then after each region its output arrays at what the region's
  write-backs leave (the proof data's `arrAt` at the last point) and every other buffer as before. Each region is a
  segment record entered from the valuation before it and left at the one after it; the generated conditional frame
  then gives the frame claim.
-/
import proofs.«401038_j80255758893589_2_alg».proof.Proof.Gen.KernelIdeal.Regions
import proofs.«401038_j80255758893589_2_alg».proof.Proof.KI.R0
import proofs.«401038_j80255758893589_2_alg».proof.Proof.KI.R1
import proofs.«401038_j80255758893589_2_alg».proof.Proof.KI.R2
import proofs.«401038_j80255758893589_2_alg».proof.Proof.KI.R3
import proofs.«401038_j80255758893589_2_alg».proof.Proof.KI.R4

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- A valuation read at the TensorCore's references: what a region's proof data take. -/
abbrev atTc (W : Dev nD → Valuation τ sig (Elt F)) : (c : Dev nD) → (b : Ref sig .tc) → Buf (Elt F) ((c : Thread nD τ).loc b) :=
  fun c b => W c b

/-! ## What the regions leave: the unknowns of the generated valuations, stage by stage

  Each stage names the arrays one more region writes, from the valuation that region is entered from; a later stage
  changes nothing an earlier one named. -/

/-- After region 0: `main_v29_0` (center) and `main_v29_1` (x_j). -/
def outs1 : Outs (F := F) := fun _ =>
  Function.update (Function.update (fun r c => m ((c : Thread nD τ).loc r))
    main_v29_0 (fun c => (dat0 (atTc (V3 m)) c).arrAt 4 cfg0.N))
    main_v29_1 (fun c => (dat0 (atTc (V3 m)) c).arrAt 5 cfg0.N)
/-- After region 1: `main_v51`. -/
def outs2 : Outs (F := F) := fun J =>
  Function.update (outs1 m J) main_v51 (fun c => (dat1 (atTc (V5 m (outs1 m))) c).arrAt 2 cfg1.N)
/-- After region 2: `main_v52_0` and `main_v52_1`. -/
def outs3 : Outs (F := F) := fun J =>
  Function.update (Function.update (outs2 m J)
    main_v52_0 (fun c => (dat2 (atTc (V6 m (outs2 m))) c).arrAt 4 cfg2.N))
    main_v52_1 (fun c => (dat2 (atTc (V6 m (outs2 m))) c).arrAt 5 cfg2.N)
/-- After region 3: `main_v74`. -/
def outs4 : Outs (F := F) := fun J =>
  Function.update (outs3 m J) main_v74 (fun c => (dat3 (atTc (V8 m (outs3 m))) c).arrAt 2 cfg3.N)
/-- After region 4: `main_v75`, the program's result. -/
def outs5 : Outs (F := F) := fun J =>
  Function.update (outs4 m J) main_v75 (fun c => (dat4 (atTc (V9 m (outs4 m))) c).arrAt 6 cfg4.N)

theorem outs2_of (J : ℕ) (r : Ref sig .tc) (h : r ≠ main_v51) : outs2 m J r = outs1 m J r :=
  Function.update_of_ne h _ _
theorem outs3_of (J : ℕ) (r : Ref sig .tc) (h0 : r ≠ main_v52_0) (h1 : r ≠ main_v52_1) : outs3 m J r = outs2 m J r :=
  (Function.update_of_ne h1 _ _).trans (Function.update_of_ne h0 _ _)
theorem outs4_of (J : ℕ) (r : Ref sig .tc) (h : r ≠ main_v74) : outs4 m J r = outs3 m J r :=
  Function.update_of_ne h _ _
theorem outs5_of (J : ℕ) (r : Ref sig .tc) (h : r ≠ main_v75) : outs5 m J r = outs4 m J r :=
  Function.update_of_ne h _ _

theorem outs1_v29_0 (J : ℕ) : outs1 m J main_v29_0 = fun c => (dat0 (atTc (V3 m)) c).arrAt 4 cfg0.N :=
  (Function.update_of_ne (by decide) _ _).trans (Function.update_self _ _ _)
theorem outs1_v29_1 (J : ℕ) : outs1 m J main_v29_1 = fun c => (dat0 (atTc (V3 m)) c).arrAt 5 cfg0.N :=
  Function.update_self _ _ _
theorem outs2_v51 (J : ℕ) : outs2 m J main_v51 = fun c => (dat1 (atTc (V5 m (outs1 m))) c).arrAt 2 cfg1.N :=
  Function.update_self _ _ _
theorem outs3_v52_0 (J : ℕ) : outs3 m J main_v52_0 = fun c => (dat2 (atTc (V6 m (outs2 m))) c).arrAt 4 cfg2.N :=
  (Function.update_of_ne (by decide) _ _).trans (Function.update_self _ _ _)
theorem outs3_v52_1 (J : ℕ) : outs3 m J main_v52_1 = fun c => (dat2 (atTc (V6 m (outs2 m))) c).arrAt 5 cfg2.N :=
  Function.update_self _ _ _
theorem outs4_v74 (J : ℕ) : outs4 m J main_v74 = fun c => (dat3 (atTc (V8 m (outs3 m))) c).arrAt 2 cfg3.N :=
  Function.update_self _ _ _
theorem outs5_v75 (J : ℕ) : outs5 m J main_v75 = fun c => (dat4 (atTc (V9 m (outs4 m))) c).arrAt 6 cfg4.N :=
  Function.update_self _ _ _

/-! ## The generated valuations depend on the unknowns only where they read them -/

theorem V4_congr (o o' : Outs (F := F)) (h0 : o 4 main_v29_0 = o' 4 main_v29_0) (h1 : o 4 main_v29_1 = o' 4 main_v29_1) (c : Dev nD) :
    V4 m o c = V4 m o' c := by
  show Function.update (Function.update (V3 m c) _ (o 4 main_v29_0 c)) _ (o 4 main_v29_1 c)
    = Function.update (Function.update (V3 m c) _ (o' 4 main_v29_0 c)) _ (o' 4 main_v29_1 c)
  rw [h0, h1]
theorem V5_congr (o o' : Outs (F := F)) (h : ∀ c, V4 m o c = V4 m o' c) (c : Dev nD) : V5 m o c = V5 m o' c := by
  show StableHlo.after hostOps1 (V4 m o c) = StableHlo.after hostOps1 (V4 m o' c)
  rw [h c]
theorem V6_congr (o o' : Outs (F := F)) (h : ∀ c, V5 m o c = V5 m o' c) (h0 : o 6 main_v51 = o' 6 main_v51) (c : Dev nD) :
    V6 m o c = V6 m o' c := by
  show Function.update (V5 m o c) _ (o 6 main_v51 c) = Function.update (V5 m o' c) _ (o' 6 main_v51 c)
  rw [h c, h0]
theorem V7_congr (o o' : Outs (F := F)) (h : ∀ c, V6 m o c = V6 m o' c) (h0 : o 7 main_v52_0 = o' 7 main_v52_0) (h1 : o 7 main_v52_1 = o' 7 main_v52_1) (c : Dev nD) :
    V7 m o c = V7 m o' c := by
  show Function.update (Function.update (V6 m o c) _ (o 7 main_v52_0 c)) _ (o 7 main_v52_1 c)
    = Function.update (Function.update (V6 m o' c) _ (o' 7 main_v52_0 c)) _ (o' 7 main_v52_1 c)
  rw [h c, h0, h1]
theorem V8_congr (o o' : Outs (F := F)) (h : ∀ c, V7 m o c = V7 m o' c) (c : Dev nD) : V8 m o c = V8 m o' c := by
  show StableHlo.after hostOps3 (V7 m o c) = StableHlo.after hostOps3 (V7 m o' c)
  rw [h c]
theorem V9_congr (o o' : Outs (F := F)) (h : ∀ c, V8 m o c = V8 m o' c) (h0 : o 9 main_v74 = o' 9 main_v74) (c : Dev nD) :
    V9 m o c = V9 m o' c := by
  show Function.update (V8 m o c) _ (o 9 main_v74 c) = Function.update (V8 m o' c) _ (o' 9 main_v74 c)
  rw [h c, h0]

/-- The unknowns of the whole run: the last stage. -/
abbrev outs : Outs (F := F) := outs5 m

theorem E4 (c : Dev nD) : V4 m (outs m) c = V4 m (outs1 m) c :=
  V4_congr m _ _
    ((outs5_of m 4 _ (by decide)).trans ((outs4_of m 4 _ (by decide)).trans ((outs3_of m 4 _ (by decide) (by decide)).trans (outs2_of m 4 _ (by decide)))))
    ((outs5_of m 4 _ (by decide)).trans ((outs4_of m 4 _ (by decide)).trans ((outs3_of m 4 _ (by decide) (by decide)).trans (outs2_of m 4 _ (by decide))))) c
theorem E5 (c : Dev nD) : V5 m (outs m) c = V5 m (outs1 m) c := V5_congr m _ _ (E4 m) c
theorem E4' (c : Dev nD) : V4 m (outs2 m) c = V4 m (outs1 m) c :=
  V4_congr m _ _ (outs2_of m 4 _ (by decide)) (outs2_of m 4 _ (by decide)) c
theorem E5' (c : Dev nD) : V5 m (outs2 m) c = V5 m (outs1 m) c := V5_congr m _ _ (E4' m) c
theorem E6 (c : Dev nD) : V6 m (outs m) c = V6 m (outs2 m) c :=
  V6_congr m _ _ (fun c => (E5 m c).trans (E5' m c).symm)
    ((outs5_of m 6 _ (by decide)).trans ((outs4_of m 6 _ (by decide)).trans (outs3_of m 6 _ (by decide) (by decide)))) c
theorem E6' (c : Dev nD) : V6 m (outs3 m) c = V6 m (outs2 m) c :=
  V6_congr m _ _ (fun c => V5_congr m _ _ (fun c => V4_congr m _ _ (outs3_of m 4 _ (by decide) (by decide)) (outs3_of m 4 _ (by decide) (by decide)) c) c)
    (outs3_of m 6 _ (by decide) (by decide)) c
theorem E7 (c : Dev nD) : V7 m (outs m) c = V7 m (outs3 m) c :=
  V7_congr m _ _ (fun c => (E6 m c).trans (E6' m c).symm)
    ((outs5_of m 7 _ (by decide)).trans (outs4_of m 7 _ (by decide)))
    ((outs5_of m 7 _ (by decide)).trans (outs4_of m 7 _ (by decide))) c
theorem E8 (c : Dev nD) : V8 m (outs m) c = V8 m (outs3 m) c := V8_congr m _ _ (E7 m) c
theorem E7' (c : Dev nD) : V7 m (outs4 m) c = V7 m (outs3 m) c :=
  V7_congr m _ _ (fun c => V6_congr m _ _ (fun c => V5_congr m _ _ (fun c => V4_congr m _ _ (outs4_of m 4 _ (by decide)) (outs4_of m 4 _ (by decide)) c) c) (outs4_of m 6 _ (by decide)) c)
    (outs4_of m 7 _ (by decide)) (outs4_of m 7 _ (by decide)) c
theorem E8' (c : Dev nD) : V8 m (outs4 m) c = V8 m (outs3 m) c := V8_congr m _ _ (E7' m) c
theorem E9 (c : Dev nD) : V9 m (outs m) c = V9 m (outs4 m) c :=
  V9_congr m _ _ (fun c => (E8 m c).trans (E8' m c).symm) (outs5_of m 9 _ (by decide)) c

/-! ## The proof data family, and what rides beside the buffers -/

/-- Every pipeline's proof data, each at its region's entry valuation: a literal match on the pipeline. -/
def pdats : (p : Fin 5) → (c : Dev nD) → Dat τ (Elt F) Unit ℕ (UR sig nD τ) ℕ (cfgs p) c
  | ⟨0, _⟩ => fun c => dat0 (atTc (V3 m)) c
  | ⟨1, _⟩ => fun c => dat1 (atTc (V5 m (outs1 m))) c
  | ⟨2, _⟩ => fun c => dat2 (atTc (V6 m (outs2 m))) c
  | ⟨3, _⟩ => fun c => dat3 (atTc (V8 m (outs3 m))) c
  | ⟨4, _⟩ => fun c => dat4 (atTc (V9 m (outs4 m))) c

/-- No core owes another anything: no level is assigned. -/
abbrev Lno : GSem nD τ sig → Finset Unit := fun _ => ∅
abbrev lvno : GSem nD τ sig → Unit → ℕ := fun _ _ => 0
/-- What rides beside the buffers through every item: the core's generator register at some state and its `owes`, at nothing. -/
abbrev Rst (c : Dev nD) : sProp 𝕄 := iprop((∃ r, prngReg c r) ∗ ∃ W, owes (c : Thread nD τ) (0 : CellTallies nD τ sig Unit) W)

/-! ## Each region's arrays at its exit, and every other buffer unchanged across it -/

set_option maxHeartbeats 4000000 in
theorem hF0 (c : Dev nD) : ∀ w : Fin cfg0.W, (pdats m 0 c).arrAt w cfg0.N = atTc (V4 m (outs1 m)) c (Pipeline.arrRef spec0 w)
  | ⟨0, _⟩ => (((pdats m 0 c).arrAt_in 0 rfl _).trans (A_eq0 _ c 0)).trans (V4_of m (outs1 m) c _ (by decide)).symm
  | ⟨1, _⟩ => (((pdats m 0 c).arrAt_in 1 rfl _).trans (A_eq0 _ c 1)).trans (V4_of m (outs1 m) c _ (by decide)).symm
  | ⟨2, _⟩ => (((pdats m 0 c).arrAt_in 2 rfl _).trans (A_eq0 _ c 2)).trans (V4_of m (outs1 m) c _ (by decide)).symm
  | ⟨3, _⟩ => (((pdats m 0 c).arrAt_in 3 rfl _).trans (A_eq0 _ c 3)).trans (V4_of m (outs1 m) c _ (by decide)).symm
  | ⟨4, _⟩ => by
    show _ = Function.update (Function.update (V3 m c) _ (outs1 m 4 main_v29_0 c)) _ (outs1 m 4 main_v29_1 c) (Proc.devRef .tc main_v29_0)
    rw [Function.update_of_ne (StableHlo.devRef_ne_of_ne (by decide)), Function.update_self, outs1_v29_0]; rfl
  | ⟨5, _⟩ => by
    show _ = Function.update (Function.update (V3 m c) _ (outs1 m 4 main_v29_0 c)) _ (outs1 m 4 main_v29_1 c) (Proc.devRef .tc main_v29_1)
    rw [Function.update_self, outs1_v29_1]; rfl
theorem hrest0 (c : Dev nD) : ∀ b, b ∉ Finset.univ.image (Pipeline.arrRef spec0) → atTc (V4 m (outs1 m)) c b = atTc (V3 m) c b :=
  fun b hb => V4_of m (outs1 m) c b (by
    intro hmem
    rcases List.mem_cons.mp hmem with rfl | hmem
    · exact hb (Finset.mem_image.mpr ⟨4, Finset.mem_univ _, rfl⟩)
    · rcases List.mem_singleton.mp hmem with rfl
      exact hb (Finset.mem_image.mpr ⟨5, Finset.mem_univ _, rfl⟩))

set_option maxHeartbeats 4000000 in
theorem hF1 (c : Dev nD) : ∀ w : Fin cfg1.W, (pdats m 1 c).arrAt w cfg1.N = atTc (V6 m (outs2 m)) c (Pipeline.arrRef spec1 w)
  | ⟨0, _⟩ => ((((pdats m 1 c).arrAt_in 0 rfl _).trans (A_eq1 _ c 0)).trans (congrFun (E5' m c) _).symm).trans (V6_of m (outs2 m) c _ (by decide)).symm
  | ⟨1, _⟩ => ((((pdats m 1 c).arrAt_in 1 rfl _).trans (A_eq1 _ c 1)).trans (congrFun (E5' m c) _).symm).trans (V6_of m (outs2 m) c _ (by decide)).symm
  | ⟨2, _⟩ => by
    show _ = Function.update (V5 m (outs2 m) c) _ (outs2 m 6 main_v51 c) (Proc.devRef .tc main_v51)
    rw [Function.update_self, outs2_v51]; rfl
theorem hrest1 (c : Dev nD) : ∀ b, b ∉ Finset.univ.image (Pipeline.arrRef spec1) → atTc (V6 m (outs2 m)) c b = atTc (V5 m (outs1 m)) c b :=
  fun b hb => (V6_of m (outs2 m) c b (by
    intro hmem
    rcases List.mem_singleton.mp hmem with rfl
    exact hb (Finset.mem_image.mpr ⟨2, Finset.mem_univ _, rfl⟩))).trans (congrFun (E5' m c) _)

set_option maxHeartbeats 4000000 in
theorem hF2 (c : Dev nD) : ∀ w : Fin cfg2.W, (pdats m 2 c).arrAt w cfg2.N = atTc (V7 m (outs3 m)) c (Pipeline.arrRef spec2 w)
  | ⟨0, _⟩ => ((((pdats m 2 c).arrAt_in 0 rfl _).trans (A_eq2 _ c 0)).trans (congrFun (E6' m c) _).symm).trans (V7_of m (outs3 m) c _ (by decide)).symm
  | ⟨1, _⟩ => ((((pdats m 2 c).arrAt_in 1 rfl _).trans (A_eq2 _ c 1)).trans (congrFun (E6' m c) _).symm).trans (V7_of m (outs3 m) c _ (by decide)).symm
  | ⟨2, _⟩ => ((((pdats m 2 c).arrAt_in 2 rfl _).trans (A_eq2 _ c 2)).trans (congrFun (E6' m c) _).symm).trans (V7_of m (outs3 m) c _ (by decide)).symm
  | ⟨3, _⟩ => ((((pdats m 2 c).arrAt_in 3 rfl _).trans (A_eq2 _ c 3)).trans (congrFun (E6' m c) _).symm).trans (V7_of m (outs3 m) c _ (by decide)).symm
  | ⟨4, _⟩ => by
    show _ = Function.update (Function.update (V6 m (outs3 m) c) _ (outs3 m 7 main_v52_0 c)) _ (outs3 m 7 main_v52_1 c) (Proc.devRef .tc main_v52_0)
    rw [Function.update_of_ne (StableHlo.devRef_ne_of_ne (by decide)), Function.update_self, outs3_v52_0]; rfl
  | ⟨5, _⟩ => by
    show _ = Function.update (Function.update (V6 m (outs3 m) c) _ (outs3 m 7 main_v52_0 c)) _ (outs3 m 7 main_v52_1 c) (Proc.devRef .tc main_v52_1)
    rw [Function.update_self, outs3_v52_1]; rfl
theorem hrest2 (c : Dev nD) : ∀ b, b ∉ Finset.univ.image (Pipeline.arrRef spec2) → atTc (V7 m (outs3 m)) c b = atTc (V6 m (outs2 m)) c b :=
  fun b hb => (V7_of m (outs3 m) c b (by
    intro hmem
    rcases List.mem_cons.mp hmem with rfl | hmem
    · exact hb (Finset.mem_image.mpr ⟨4, Finset.mem_univ _, rfl⟩)
    · rcases List.mem_singleton.mp hmem with rfl
      exact hb (Finset.mem_image.mpr ⟨5, Finset.mem_univ _, rfl⟩))).trans (congrFun (E6' m c) _)

set_option maxHeartbeats 4000000 in
theorem hF3 (c : Dev nD) : ∀ w : Fin cfg3.W, (pdats m 3 c).arrAt w cfg3.N = atTc (V9 m (outs4 m)) c (Pipeline.arrRef spec3 w)
  | ⟨0, _⟩ => ((((pdats m 3 c).arrAt_in 0 rfl _).trans (A_eq3 _ c 0)).trans (congrFun (E8' m c) _).symm).trans (V9_of m (outs4 m) c _ (by decide)).symm
  | ⟨1, _⟩ => ((((pdats m 3 c).arrAt_in 1 rfl _).trans (A_eq3 _ c 1)).trans (congrFun (E8' m c) _).symm).trans (V9_of m (outs4 m) c _ (by decide)).symm
  | ⟨2, _⟩ => by
    show _ = Function.update (V8 m (outs4 m) c) _ (outs4 m 9 main_v74 c) (Proc.devRef .tc main_v74)
    rw [Function.update_self, outs4_v74]; rfl
theorem hrest3 (c : Dev nD) : ∀ b, b ∉ Finset.univ.image (Pipeline.arrRef spec3) → atTc (V9 m (outs4 m)) c b = atTc (V8 m (outs3 m)) c b :=
  fun b hb => (V9_of m (outs4 m) c b (by
    intro hmem
    rcases List.mem_singleton.mp hmem with rfl
    exact hb (Finset.mem_image.mpr ⟨2, Finset.mem_univ _, rfl⟩))).trans (congrFun (E8' m c) _)

/-- The valuation region 4 is entered from does not read what region 4 itself leaves. -/
theorem E9' (c : Dev nD) : V9 m (outs5 m) c = V9 m (outs4 m) c := E9 m c

set_option maxHeartbeats 4000000 in
theorem hF4 (c : Dev nD) : ∀ w : Fin cfg4.W, (pdats m 4 c).arrAt w cfg4.N = atTc (V10 m (outs5 m)) c (Pipeline.arrRef spec4 w)
  | ⟨0, _⟩ => ((((pdats m 4 c).arrAt_in 0 rfl _).trans (A_eq4 _ c 0)).trans (congrFun (E9' m c) _).symm).trans (V10_of m (outs5 m) c _ (by decide)).symm
  | ⟨1, _⟩ => ((((pdats m 4 c).arrAt_in 1 rfl _).trans (A_eq4 _ c 1)).trans (congrFun (E9' m c) _).symm).trans (V10_of m (outs5 m) c _ (by decide)).symm
  | ⟨2, _⟩ => ((((pdats m 4 c).arrAt_in 2 rfl _).trans (A_eq4 _ c 2)).trans (congrFun (E9' m c) _).symm).trans (V10_of m (outs5 m) c _ (by decide)).symm
  | ⟨3, _⟩ => ((((pdats m 4 c).arrAt_in 3 rfl _).trans (A_eq4 _ c 3)).trans (congrFun (E9' m c) _).symm).trans (V10_of m (outs5 m) c _ (by decide)).symm
  | ⟨4, _⟩ => ((((pdats m 4 c).arrAt_in 4 rfl _).trans (A_eq4 _ c 4)).trans (congrFun (E9' m c) _).symm).trans (V10_of m (outs5 m) c _ (by decide)).symm
  | ⟨5, _⟩ => ((((pdats m 4 c).arrAt_in 5 rfl _).trans (A_eq4 _ c 5)).trans (congrFun (E9' m c) _).symm).trans (V10_of m (outs5 m) c _ (by decide)).symm
  | ⟨6, _⟩ => by
    show _ = Function.update (V9 m (outs5 m) c) _ (outs5 m 10 main_v75 c) (Proc.devRef .tc main_v75)
    rw [Function.update_self, outs5_v75]; rfl
theorem hrest4 (c : Dev nD) : ∀ b, b ∉ Finset.univ.image (Pipeline.arrRef spec4) → atTc (V10 m (outs5 m)) c b = atTc (V9 m (outs4 m)) c b :=
  fun b hb => (V10_of m (outs5 m) c b (by
    intro hmem
    rcases List.mem_singleton.mp hmem with rfl
    exact hb (Finset.mem_image.mpr ⟨6, Finset.mem_univ _, rfl⟩))).trans (congrFun (E9' m c) _)

/-! ## The regions as segment records -/

set_option backward.isDefEq.respectTransparency.types false in
/-- REGION 0 over the thread state: entered from every unscoped buffer at the valuation before it, left at the one
    after it. Its arrays are split out of the unscoped buffers and put back at the exit contents; the generator register
    goes into the region's invariant and comes back; nothing is owed; the kernel has no semaphore of its own. -/
def reg0 : Pipeline.RegionSeg (pcfgs (F := F)) adm (pdats m) () defs₀ Variants.none Lno lvno 0 where
  win := launch0.win.to₀
  block_pos := launch0.block_pos
  stage_whole := launch0.stage_whole
  K := PEmpty
  osem k := k.elim
  ho := Pipeline.OwnSemFacts.none _
  hbody c := (body_obligation0 (atTc (V3 m)) c).loose
  hwaits := Pipeline.hwaits_of_owed_zero _ _ _ _ Lno lvno 0 fun _ _ => rfl
  pre c := iprop(StableHlo.held (c : Thread nD τ) (Pipeline.ucRefs τ sig) (V3 m c) ∗ Rst c)
  post c := iprop(StableHlo.held (c : Thread nD τ) (Pipeline.ucRefs τ sig) (V4 m (outs1 m) c) ∗ Rst c)
  X c := iprop(∃ r, prngReg c r)
  Y c := iprop(∃ r, prngReg c r)
  Z c := Pipeline.unscopedRest (Ix := Unit) (Name := ℕ) (U := UR sig nD τ) (Lvl := ℕ) spec0 c (atTc (V3 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (V3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (V3 m) c) (atTc (V4 m (outs1 m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at the valuation before it, left at the one
    after it. Its arrays are split out of the unscoped buffers and put back at the exit contents; the generator register
    goes into the region's invariant and comes back; nothing is owed; the kernel has no semaphore of its own. -/
def reg1 : Pipeline.RegionSeg (pcfgs (F := F)) adm (pdats m) () defs₀ Variants.none Lno lvno 1 where
  win := launch1.win.to₀
  block_pos := launch1.block_pos
  stage_whole := launch1.stage_whole
  K := PEmpty
  osem k := k.elim
  ho := Pipeline.OwnSemFacts.none _
  hbody c := (body_obligation1 (atTc (V5 m (outs1 m))) c).loose
  hwaits := Pipeline.hwaits_of_owed_zero _ _ _ _ Lno lvno 1 fun _ _ => rfl
  pre c := iprop(StableHlo.held (c : Thread nD τ) (Pipeline.ucRefs τ sig) (V5 m (outs1 m) c) ∗ Rst c)
  post c := iprop(StableHlo.held (c : Thread nD τ) (Pipeline.ucRefs τ sig) (V6 m (outs2 m) c) ∗ Rst c)
  X c := iprop(∃ r, prngReg c r)
  Y c := iprop(∃ r, prngReg c r)
  Z c := Pipeline.unscopedRest (Ix := Unit) (Name := ℕ) (U := UR sig nD τ) (Lvl := ℕ) spec1 c (atTc (V5 m (outs1 m)) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (V5 m (outs1 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (V5 m (outs1 m)) c) (atTc (V6 m (outs2 m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at the valuation before it, left at the one
    after it. Its arrays are split out of the unscoped buffers and put back at the exit contents; the generator register
    goes into the region's invariant and comes back; nothing is owed; the kernel has no semaphore of its own. -/
def reg2 : Pipeline.RegionSeg (pcfgs (F := F)) adm (pdats m) () defs₀ Variants.none Lno lvno 2 where
  win := launch2.win.to₀
  block_pos := launch2.block_pos
  stage_whole := launch2.stage_whole
  K := PEmpty
  osem k := k.elim
  ho := Pipeline.OwnSemFacts.none _
  hbody c := (body_obligation2 (atTc (V6 m (outs2 m))) c).loose
  hwaits := Pipeline.hwaits_of_owed_zero _ _ _ _ Lno lvno 2 fun _ _ => rfl
  pre c := iprop(StableHlo.held (c : Thread nD τ) (Pipeline.ucRefs τ sig) (V6 m (outs2 m) c) ∗ Rst c)
  post c := iprop(StableHlo.held (c : Thread nD τ) (Pipeline.ucRefs τ sig) (V7 m (outs3 m) c) ∗ Rst c)
  X c := iprop(∃ r, prngReg c r)
  Y c := iprop(∃ r, prngReg c r)
  Z c := Pipeline.unscopedRest (Ix := Unit) (Name := ℕ) (U := UR sig nD τ) (Lvl := ℕ) spec2 c (atTc (V6 m (outs2 m)) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (V6 m (outs2 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (V6 m (outs2 m)) c) (atTc (V7 m (outs3 m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at the valuation before it, left at the one
    after it. Its arrays are split out of the unscoped buffers and put back at the exit contents; the generator register
    goes into the region's invariant and comes back; nothing is owed; the kernel has no semaphore of its own. -/
def reg3 : Pipeline.RegionSeg (pcfgs (F := F)) adm (pdats m) () defs₀ Variants.none Lno lvno 3 where
  win := launch3.win.to₀
  block_pos := launch3.block_pos
  stage_whole := launch3.stage_whole
  K := PEmpty
  osem k := k.elim
  ho := Pipeline.OwnSemFacts.none _
  hbody c := (body_obligation3 (atTc (V8 m (outs3 m))) c).loose
  hwaits := Pipeline.hwaits_of_owed_zero _ _ _ _ Lno lvno 3 fun _ _ => rfl
  pre c := iprop(StableHlo.held (c : Thread nD τ) (Pipeline.ucRefs τ sig) (V8 m (outs3 m) c) ∗ Rst c)
  post c := iprop(StableHlo.held (c : Thread nD τ) (Pipeline.ucRefs τ sig) (V9 m (outs4 m) c) ∗ Rst c)
  X c := iprop(∃ r, prngReg c r)
  Y c := iprop(∃ r, prngReg c r)
  Z c := Pipeline.unscopedRest (Ix := Unit) (Name := ℕ) (U := UR sig nD τ) (Lvl := ℕ) spec3 c (atTc (V8 m (outs3 m)) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atTc (V8 m (outs3 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc (V8 m (outs3 m)) c) (atTc (V9 m (outs4 m)) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at the valuation before it, left at the one
    after it. Its arrays are split out of the unscoped buffers and put back at the exit contents; the generator register
    goes into the region's invariant and comes back; nothing is owed; the kernel has no semaphore of its own. -/
def reg4 : Pipeline.RegionSeg (pcfgs (F := F)) adm (pdats m) () defs₀ Variants.none Lno lvno 4 where
  win := launch4.win.to₀
  block_pos := launch4.block_pos
  stage_whole := launch4.stage_whole
  K := PEmpty
  osem k := k.elim
  ho := Pipeline.OwnSemFacts.none _
  hbody c := (body_obligation4 (atTc (V9 m (outs4 m))) c).loose
  hwaits := Pipeline.hwaits_of_owed_zero _ _ _ _ Lno lvno 4 fun _ _ => rfl
  pre c := iprop(StableHlo.held (c : Thread nD τ) (Pipeline.ucRefs τ sig) (V9 m (outs4 m) c) ∗ Rst c)
  post c := iprop(StableHlo.held (c : Thread nD τ) (Pipeline.ucRefs τ sig) (V10 m (outs5 m) c) ∗ Rst c)
  X c := iprop(∃ r, prngReg c r)
  Y c := iprop(∃ r, prngReg c r)
  Z c := Pipeline.unscopedRest (Ix := Unit) (Name := ℕ) (U := UR sig nD τ) (Lvl := ℕ) spec4 c (atTc (V9 m (outs4 m)) c)
  hentry c := by
    rw [Pipeline.ownSems0_none]
    have hsplit := Pipeline.arrays_of_unscopedBufs (p := 4) (pcfgs (F := F)) adm (pdats m) launch4.win launch4.arr_whole c
      ((pdats m 4 c).share_full fun _ => rfl) (atTc (V9 m (outs4 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin4 (atTc (V9 m (outs4 m))) c)
    unfold Pipeline.ΦA
    iintro ⟨Hp, -, Hr⟩
    isplitl [Hr]; · iexact Hr
    iexact Hp
  hout c := by
    rw [Pipeline.ownSems0_none]
    refine BIBase.Entails.trans (hout4 (atTc (V9 m (outs4 m))) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (atTc (V9 m (outs4 m)) c) (atTc (V10 m (outs5 m)) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The chaining: each region's own valuations against the generated ones at the whole run's unknowns -/

theorem hpost0 (c : Dev nD) : (iprop(StableHlo.held (c : Thread nD τ) (Pipeline.ucRefs τ sig) (V4 m (outs1 m) c) ∗ Rst c) : sProp 𝕄) ⊢ iprop(StableHlo.held (c : Thread nD τ) (Pipeline.ucRefs τ sig) (V4 m (outs m) c) ∗ Rst c) := by
  rw [E4 m c]
theorem hpre1 (c : Dev nD) : (iprop(StableHlo.held (c : Thread nD τ) (Pipeline.ucRefs τ sig) (V5 m (outs m) c) ∗ Rst c) : sProp 𝕄) ⊢ iprop(StableHlo.held (c : Thread nD τ) (Pipeline.ucRefs τ sig) (V5 m (outs1 m) c) ∗ Rst c) := by
  rw [E5 m c]
theorem hpost1 (c : Dev nD) : (iprop(StableHlo.held (c : Thread nD τ) (Pipeline.ucRefs τ sig) (V6 m (outs2 m) c) ∗ Rst c) : sProp 𝕄) ⊢ iprop(StableHlo.held (c : Thread nD τ) (Pipeline.ucRefs τ sig) (V6 m (outs m) c) ∗ Rst c) := by
  rw [E6 m c]
theorem hpre2 (c : Dev nD) : (iprop(StableHlo.held (c : Thread nD τ) (Pipeline.ucRefs τ sig) (V6 m (outs m) c) ∗ Rst c) : sProp 𝕄) ⊢ iprop(StableHlo.held (c : Thread nD τ) (Pipeline.ucRefs τ sig) (V6 m (outs2 m) c) ∗ Rst c) := by
  rw [E6 m c]
theorem hpost2 (c : Dev nD) : (iprop(StableHlo.held (c : Thread nD τ) (Pipeline.ucRefs τ sig) (V7 m (outs3 m) c) ∗ Rst c) : sProp 𝕄) ⊢ iprop(StableHlo.held (c : Thread nD τ) (Pipeline.ucRefs τ sig) (V7 m (outs m) c) ∗ Rst c) := by
  rw [E7 m c]
theorem hpre3 (c : Dev nD) : (iprop(StableHlo.held (c : Thread nD τ) (Pipeline.ucRefs τ sig) (V8 m (outs m) c) ∗ Rst c) : sProp 𝕄) ⊢ iprop(StableHlo.held (c : Thread nD τ) (Pipeline.ucRefs τ sig) (V8 m (outs3 m) c) ∗ Rst c) := by
  rw [E8 m c]
theorem hpost3 (c : Dev nD) : (iprop(StableHlo.held (c : Thread nD τ) (Pipeline.ucRefs τ sig) (V9 m (outs4 m) c) ∗ Rst c) : sProp 𝕄) ⊢ iprop(StableHlo.held (c : Thread nD τ) (Pipeline.ucRefs τ sig) (V9 m (outs m) c) ∗ Rst c) := by
  rw [E9 m c]
theorem hpre4 (c : Dev nD) : (iprop(StableHlo.held (c : Thread nD τ) (Pipeline.ucRefs τ sig) (V9 m (outs m) c) ∗ Rst c) : sProp 𝕄) ⊢ iprop(StableHlo.held (c : Thread nD τ) (Pipeline.ucRefs τ sig) (V9 m (outs4 m) c) ∗ Rst c) := by
  rw [E9 m c]

/-! ## The launch's ghost state and first thread state -/

theorem hu₀_init : (ownU (initOf (Pipeline.cells (nD := nD) (τ := τ) cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch makes on every core at once: the generator register at its launch state and nothing owed. -/
theorem hE0_init (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts Lno lvno)
      ⊢ (|={Set.univ}=> bigSep Finset.univ (fun c => Rst c) : sProp 𝕄) := by
  refine Pipeline.initEach Lno lvno fun c => ?_
  iintro ⟨⟨-, HO, -, Hp, -⟩, -⟩
  imodintro
  isplitl [Hp]; · iexists _; iexact Hp
  iexists ∅; iexact HO

theorem hE5_end (c : Dev nD) : Rst c ⊢ (iprop(∃ W, owes (c : Thread nD τ) (0 : CellTallies nD τ sig Unit) W) : sProp 𝕄) := by
  iintro ⟨-, H⟩; iexact H

/-! ## The frame -/

set_option backward.isDefEq.respectTransparency.types false in
/-- THE FRAME of the kernel program at any float instance: from any memory with zero counters every weakly fair
    execution of @main terminates, nothing faulting, with every argument array as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_cond m (Ix := Unit) (U := UR sig nD τ) (Lvl := ℕ) emb₁ () Variants.none Lno lvno (fun _ _ => rfl) ρ (outs m) (pdats m)
    (0 : Dev nD → CellTallies nD τ sig Unit) (fun _ => (BI.emp : sProp 𝕄))
    (initOf (Pipeline.cells cfgs cellOf_inj) (Pipeline.launchToks cfgs cellOf_inj)) hu₀_init
    (fun _ c => Rst c) (hE0_init ρ) hE5_end
    (reg0 m) (fun c => BI.Entails.refl _) (hpost0 m)
    (reg1 m) (hpre1 m) (hpost1 m)
    (reg2 m) (hpre2 m) (hpost2 m)
    (reg3 m) (hpre3 m) (hpost3 m)
    (reg4 m) (hpre4 m) (fun c => BI.Entails.refl _)

end Cert.KernelIdeal.Reg

end
-- ==== Proof.KI.RunVal.lean ====
/-
  The run of the kernel program with its result named: the launch of `Main.lean`'s segment list once more, the last
  thread state read at the result array too — every weakly fair execution ends with the result array `main_v75` at what
  region 4's write-backs leave and the arguments as launched.
-/
import proofs.«401038_j80255758893589_2_alg».proof.Proof.KI.Main

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-- Two families held on every core at once are the family of their pairs held on every core. -/
theorem bigSep_join (A B : Dev nD → sProp 𝕄) :
    (iprop(bigSep Finset.univ A ∗ bigSep Finset.univ B) : sProp 𝕄) ⊢ bigSep Finset.univ fun c => iprop(A c ∗ B c) := by
  rw [bigSep_sep']

set_option backward.isDefEq.respectTransparency.types false in
/-- From any memory with zero counters every weakly fair execution of @main terminates, nothing faulting, with the
    result array at the last valuation's contents there and every argument array as launched. -/
theorem run_val (ρ : Dev nD → PrngReg) :
    θ_run defs (onTc (τ := τ) (main (F := F))) ⟨m, fun _ => 0, ρ⟩ (fun r => ∀ c : Dev nD,
      r.2.mem ((c.tc : Thread nD τ).loc main_v75) = V10 m (outs m) c main_v75
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  refine Pipeline.θ_run_regions_kit_dev (pcfgs (F := F)) adm (pdats m) () cellOf_inj emb₁ defs₀ Variants.none Lno lvno m ρ main
    (segs m (outs m) Variants.none Lno lvno (fun _ c => Rst c) () (pdats m) (reg0 m) (reg1 m) (reg2 m) (reg3 m) (reg4 m))
    (fun c Q => by
      rewrite [main_chain c, Seg.run_eq_chain,
        show ((segs m (outs m) Variants.none Lno lvno (fun _ c => Rst c) () (pdats m) (reg0 m) (reg1 m) (reg2 m) (reg3 m) (reg4 m)) c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()) ] from rfl]
      exact .rfl)
    (fun c => by simp only [segs, Seg.pipes_host, Seg.pipes_region, Seg.pipes_nil]; decide)
    (0 : Dev nD → CellTallies nD τ sig Unit) (fun _ _ => rfl) (fun _ => (BI.emp : sProp 𝕄))
    (initOf (Pipeline.cells cfgs cellOf_inj) (Pipeline.launchToks cfgs cellOf_inj)) hu₀_init
    (T₀ := fun c => iprop(StableHlo.held (c : Thread nD τ) (Pipeline.ucRefs τ sig) (V0 m c) ∗ Rst c))
    (Tₙ := fun c => StableHlo.held (c : Thread nD τ) (Pipeline.ucRefs τ sig) (V10 m (outs m) c))
    (hch := fun c => ⟨.rfl, .rfl, .rfl, BI.Entails.refl _, hpost0 m c, hpre1 m c, (hpost1 m c).trans (hpre2 m c), hpost2 m c, hpre3 m c,
      (hpost3 m c).trans (hpre4 m c), sep_mono .rfl (hE5_end c)⟩)
    (hinit := ?_) (QY := fun c s => s.mem ((c.tc : Thread nD τ).loc main_v75) = V10 m (outs m) c main_v75
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12))
    (hfin := fun c s' => ?_) (hQ := fun _ h => h)
  · -- the launch: the unscoped buffers are held at the launch contents; the rest makes the first thread state on every core
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0_init ρ) $$ [Hr Hla] with HE
    · isplitl [Hr]; · iexact Hr
      iexact Hla
    imodintro
    iapply (bigSep_join (fun c : Dev nD => StableHlo.held (c : Thread nD τ) (Pipeline.ucRefs τ sig) (V0 m c)) (fun c : Dev nD => Rst c))
    isplitl [Hh]; · iexact Hh
    iexact HE
  · -- the end: the result's and each argument's buffer read off the last valuation
    unfold StableHlo.held
    iintro ⟨Hh, HSI⟩
    ihave Hr := (pointsTo_read_all (Pipeline.ucRefs τ sig) (fun b => ((c : Thread nD τ).1, b)) (V10 m (outs m) c) s') $$ [Hh HSI]
    · isplitl [Hh] <;> iassumption
    icases Hr with ⟨%h, HSI⟩
    imodintro
    isplitr
    · ipureintro
      exact ⟨h (Proc.devRef .tc main_v75) (Finset.mem_filter.mpr ⟨StableHlo.devRef_mem_tcRefs main_v75, by decide⟩),
        (h (Proc.devRef .tc main_arg0) (Finset.mem_filter.mpr ⟨StableHlo.devRef_mem_tcRefs main_arg0, by decide⟩)).trans (V10_main_arg0 m (outs m) c),
        (h (Proc.devRef .tc main_arg1) (Finset.mem_filter.mpr ⟨StableHlo.devRef_mem_tcRefs main_arg1, by decide⟩)).trans (V10_main_arg1 m (outs m) c),
        (h (Proc.devRef .tc main_arg2) (Finset.mem_filter.mpr ⟨StableHlo.devRef_mem_tcRefs main_arg2, by decide⟩)).trans (V10_main_arg2 m (outs m) c),
        (h (Proc.devRef .tc main_arg3) (Finset.mem_filter.mpr ⟨StableHlo.devRef_mem_tcRefs main_arg3, by decide⟩)).trans (V10_main_arg3 m (outs m) c),
        (h (Proc.devRef .tc main_arg4) (Finset.mem_filter.mpr ⟨StableHlo.devRef_mem_tcRefs main_arg4, by decide⟩)).trans (V10_main_arg4 m (outs m) c),
        (h (Proc.devRef .tc main_arg5) (Finset.mem_filter.mpr ⟨StableHlo.devRef_mem_tcRefs main_arg5, by decide⟩)).trans (V10_main_arg5 m (outs m) c),
        (h (Proc.devRef .tc main_arg6) (Finset.mem_filter.mpr ⟨StableHlo.devRef_mem_tcRefs main_arg6, by decide⟩)).trans (V10_main_arg6 m (outs m) c),
        (h (Proc.devRef .tc main_arg7) (Finset.mem_filter.mpr ⟨StableHlo.devRef_mem_tcRefs main_arg7, by decide⟩)).trans (V10_main_arg7 m (outs m) c),
        (h (Proc.devRef .tc main_arg8) (Finset.mem_filter.mpr ⟨StableHlo.devRef_mem_tcRefs main_arg8, by decide⟩)).trans (V10_main_arg8 m (outs m) c),
        (h (Proc.devRef .tc main_arg9) (Finset.mem_filter.mpr ⟨StableHlo.devRef_mem_tcRefs main_arg9, by decide⟩)).trans (V10_main_arg9 m (outs m) c),
        (h (Proc.devRef .tc main_arg10) (Finset.mem_filter.mpr ⟨StableHlo.devRef_mem_tcRefs main_arg10, by decide⟩)).trans (V10_main_arg10 m (outs m) c),
        (h (Proc.devRef .tc main_arg11) (Finset.mem_filter.mpr ⟨StableHlo.devRef_mem_tcRefs main_arg11, by decide⟩)).trans (V10_main_arg11 m (outs m) c),
        (h (Proc.devRef .tc main_arg12) (Finset.mem_filter.mpr ⟨StableHlo.devRef_mem_tcRefs main_arg12, by decide⟩)).trans (V10_main_arg12 m (outs m) c)⟩
    · iexact HSI

end Cert.KernelIdeal.Reg

end
-- ==== Proof.KI.Val0.lean ====
/-
  The value of region 0 at the exact-real instance: the two arrays the region leaves in its output windows, each as ONE
  whole-array function of the arrays it reads — center = x·W1 + b1 and x_j = x·W2, a block-row matrix product per grid
  point being the corresponding rows of the whole product — in the host operations' own vocabulary.
-/
import proofs.«401038_j80255758893589_2_alg».proof.Proof.KI.R0
import proofs.«401038_j80255758893589_2_alg».proof.Proof.RefRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

theorem hz0_2 : (![0, 0] : Fin 2 → Nat) = fun _ => 0 := funext fun a => by fin_cases a <;> rfl
theorem hz0_1 : (![0] : Fin 1 → Nat) = fun _ => 0 := funext fun a => by fin_cases a; rfl

/-! ## The block's matrix product read at an entry -/

/-- The product's operand indices at an output entry and a contraction index: the entry's row and the feature on the
    left operand, the feature and the entry's column on the right. -/
theorem dotL0_0 (i : S2000x16.Idx) (q : dot_S2000x3_S3x16_S2000x16_1_0_0_1_n_n.contr.Idx) :
    (dot_S2000x3_S3x16_S2000x16_1_0_0_1_n_n.lhsIdx i q 0).val = (i 0).val := by
  unfold DotDims.lhsIdx
  rw [dif_neg (show ¬(0 : Fin S2000x3.rank) ∈ dot_S2000x3_S3x16_S2000x16_1_0_0_1_n_n.lhsBatch by decide), dif_pos (show (0 : Fin S2000x3.rank) ∈ dot_S2000x3_S3x16_S2000x16_1_0_0_1_n_n.lhsNonContracting by decide)]
  rfl
theorem dotL0_1 (i : S2000x16.Idx) (q : dot_S2000x3_S3x16_S2000x16_1_0_0_1_n_n.contr.Idx) :
    (dot_S2000x3_S3x16_S2000x16_1_0_0_1_n_n.lhsIdx i q 1).val = (q ⟨0, by decide⟩).val :=
  dot_S2000x3_S3x16_S2000x16_1_0_0_1_n_n.lhsIdx_val_of_single rfl i q
theorem dotR0_0 (i : S2000x16.Idx) (q : dot_S2000x3_S3x16_S2000x16_1_0_0_1_n_n.contr.Idx) :
    (dot_S2000x3_S3x16_S2000x16_1_0_0_1_n_n.rhsIdx i q 0).val = (q ⟨0, by decide⟩).val :=
  dot_S2000x3_S3x16_S2000x16_1_0_0_1_n_n.rhsIdx_val_of_single rfl i q
theorem dotR0_1 (i : S2000x16.Idx) (q : dot_S2000x3_S3x16_S2000x16_1_0_0_1_n_n.contr.Idx) :
    (dot_S2000x3_S3x16_S2000x16_1_0_0_1_n_n.rhsIdx i q 1).val = (i 1).val := by
  unfold DotDims.rhsIdx
  rw [dif_neg (show ¬(1 : Fin S3x16.rank) ∈ dot_S2000x3_S3x16_S2000x16_1_0_0_1_n_n.rhsBatch by decide), dif_pos (show (1 : Fin S3x16.rank) ∈ dot_S2000x3_S3x16_S2000x16_1_0_0_1_n_n.rhsNonContracting by decide)]
  rfl

/-- A block's product into the zero accumulator, read at row p and column q: the sum over the input features of
    the row's entry times the column's (at the exact reals the narrowing of the operands changes nothing). -/
theorem mm0_apply (x : FVec Ideal S2000x3 .bf16) (w : FVec Ideal S3x16 .bf16) (p : Fin 2000) (q : Fin 16) :
    (matmul dot_S2000x3_S3x16_S2000x16_1_0_0_1_n_n none x w (constant (F := Ideal) S2000x16 .f32 0x00000000#32) : FVec Ideal S2000x16 .f32) (ix2 p q)
      = ∑ k : Fin 3, x (ix2 p k) * w (ix2 k q) := by
  simp only [matmul]
  rw [Ideal.matmul_constant_zero_apply, ← Equiv.sum_comp (ValueIdx.contrEquiv1 dot_S2000x3_S3x16_S2000x16_1_0_0_1_n_n 3 rfl rfl).symm]
  refine Finset.sum_congr rfl fun k _ => ?_
  have hk := ValueIdx.contrEquiv1_symm_val dot_S2000x3_S3x16_S2000x16_1_0_0_1_n_n 3 rfl rfl k
  have el : dot_S2000x3_S3x16_S2000x16_1_0_0_1_n_n.lhsIdx (ix2 p q) ((ValueIdx.contrEquiv1 dot_S2000x3_S3x16_S2000x16_1_0_0_1_n_n 3 rfl rfl).symm k) = ix2 p k := funext fun a => Fin.ext (by
    match a with
    | ⟨0, _⟩ => exact dotL0_0 _ _
    | ⟨1, _⟩ => exact (dotL0_1 _ _).trans hk)
  have er : dot_S2000x3_S3x16_S2000x16_1_0_0_1_n_n.rhsIdx (ix2 p q) ((ValueIdx.contrEquiv1 dot_S2000x3_S3x16_S2000x16_1_0_0_1_n_n 3 rfl rfl).symm k) = ix2 k q := funext fun a => Fin.ext (by
    match a with
    | ⟨0, _⟩ => exact (dotR0_0 _ _).trans hk
    | ⟨1, _⟩ => exact dotR0_1 _ _)
  rw [el, er]

/-- The bias laid along every row of the block, read at row p and column q, is its entry q. -/
theorem bias0_apply (b : FVec Ideal S16 .f32) (p : Fin 2000) (q : Fin 16) :
    broadcastTo S2000x16 (shapeCast S1x16 b shapeCasts_S16_S1x16) broadcasts_S1x16_S2000x16 (ix2 p q) = b (ix1 q) := by
  refine (broadcastTo_apply _ broadcasts_S1x16_S2000x16 (ix2 p q) (ix2 (0 : Fin 1) q) (fun a => ?_)).trans ?_
  · match a with
    | ⟨0, _⟩ => rfl
    | ⟨1, _⟩ => show q.val = if (16 : Nat) = 1 then 0 else q.val; rw [if_neg (by decide)]
  · exact shapeCast_apply b shapeCasts_S16_S1x16 (ix2 (0 : Fin 1) q) (ix1 q) (by
      rw [Shape.rowMajor_val_two, Shape.rowMajor_val_one]; show q.val = 0 * 16 + q.val; omega)

/-- What the body stores into the first output block, at row p and column q: the row of x times the column of W1,
    plus the bias's entry. -/
theorem pay0_2_apply (x : Vec Ideal S2000x3 .f32) (w : Vec Ideal S3x16 .f32) (b : Vec Ideal S16 .f32) (p : Fin 2000) (q : Fin 16) :
    k0_pay2 x w b (ix2 p q) = FloatOps.addf (∑ k : Fin 3, x (ix2 p k) * w (ix2 k q)) (b (ix1 q)) := by
  unfold k0_pay2 k0_pay1
  show FloatOps.addf _ _ = _
  exact congrArg₂ FloatOps.addf (mm0_apply _ _ p q) (bias0_apply b p q)

/-- What the body stores into the second output block, at row p and column q: the row of x times the column of W2. -/
theorem pay0_3_apply (x : Vec Ideal S2000x3 .f32) (w : Vec Ideal S3x16 .f32) (p : Fin 2000) (q : Fin 16) :
    k0_pay3 x w (ix2 p q) = ∑ k : Fin 3, x (ix2 p k) * w (ix2 k q) := by
  unfold k0_pay3 k0_pay1
  exact mm0_apply _ _ p q

variable (V : (c : Dev nD) → (b : Ref sig .tc) → Buf (Elt Ideal) ((c : Thread nD τ).loc b))

/-! ## The index maps, the blocks as rows of the arrays -/

/-- The printed index maps decided over the grid: the rows of x and of both outputs move with the point, one block
    of 2000 rows a point; the weights and the bias stay at their one block. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The block of x at point t is rows 2000 t … 2000 t + 1999 of x. -/
theorem blk0_x (c : Dev nD) (t : Fin cfg0.N) (p : Fin 2000) (k : Fin 3) (i : S100000x3.Idx)
    (h0 : (i 0).val = t.val * 2000 + p.val) (h1 : (i 1).val = k.val) :
    (iblk0 V c 0 t : Vec Ideal S2000x3 .f32) (ix2 p k) = (V c main_arg0 : S100000x3.Idx → Elt Ideal .f32) i := by
  obtain ⟨e0, e1, -⟩ := idx0 t
  unfold iblk0
  rw [View.read_apply]
  show V c main_arg0 _ = V c main_arg0 _
  congr 1
  funext a
  apply Fin.ext
  match a with
  | ⟨0, _⟩ => show win0_0.index t (0 : Fin 2) * 2000 + 1 * p.val = (i 0).val; rw [e0, h0]; omega
  | ⟨1, _⟩ => show win0_0.index t (1 : Fin 2) * 3 + 1 * k.val = (i 1).val; rw [e1, h1]; omega

/-- The block of W1 at any point is W1. -/
theorem blk0_w1 (c : Dev nD) (t : Fin cfg0.N) (k : Fin 3) (q : Fin 16) (i : S3x16.Idx)
    (h0 : (i 0).val = k.val) (h1 : (i 1).val = q.val) :
    (iblk0 V c 1 t : Vec Ideal S3x16 .f32) (ix2 k q) = (V c main_arg3 : S3x16.Idx → Elt Ideal .f32) i := by
  obtain ⟨-, -, e0, e1, -⟩ := idx0 t
  unfold iblk0
  rw [View.read_apply]
  show V c main_arg3 _ = V c main_arg3 _
  congr 1
  funext a
  apply Fin.ext
  match a with
  | ⟨0, _⟩ => show win0_1.index t (0 : Fin 2) * 3 + 1 * k.val = (i 0).val; rw [e0, h0]; omega
  | ⟨1, _⟩ => show win0_1.index t (1 : Fin 2) * 16 + 1 * q.val = (i 1).val; rw [e1, h1]; omega

/-- The block of the bias at any point is the bias. -/
theorem blk0_b (c : Dev nD) (t : Fin cfg0.N) (q : Fin 16) (i : S16.Idx) (h0 : (i 0).val = q.val) :
    (iblk0 V c 2 t : Vec Ideal S16 .f32) (ix1 q) = (V c main_arg4 : S16.Idx → Elt Ideal .f32) i := by
  obtain ⟨-, -, -, -, e0, -⟩ := idx0 t
  unfold iblk0
  rw [View.read_apply]
  show V c main_arg4 _ = V c main_arg4 _
  congr 1
  funext a
  apply Fin.ext
  match a with
  | ⟨0, _⟩ => show win0_2.index t (0 : Fin 1) * 16 + 1 * q.val = (i 0).val; rw [e0, h0]; omega

/-- The block of W2 at any point is W2. -/
theorem blk0_w2 (c : Dev nD) (t : Fin cfg0.N) (k : Fin 3) (q : Fin 16) (i : S3x16.Idx)
    (h0 : (i 0).val = k.val) (h1 : (i 1).val = q.val) :
    (iblk0 V c 3 t : Vec Ideal S3x16 .f32) (ix2 k q) = (V c main_arg5 : S3x16.Idx → Elt Ideal .f32) i := by
  obtain ⟨-, -, -, -, -, e0, e1, -⟩ := idx0 t
  unfold iblk0
  rw [View.read_apply]
  show V c main_arg5 _ = V c main_arg5 _
  congr 1
  funext a
  apply Fin.ext
  match a with
  | ⟨0, _⟩ => show win0_3.index t (0 : Fin 2) * 3 + 1 * k.val = (i 0).val; rw [e0, h0]; omega
  | ⟨1, _⟩ => show win0_3.index t (1 : Fin 2) * 16 + 1 * q.val = (i 1).val; rw [e1, h1]; omega

/-! ## The two outputs as whole-array functions -/

/-- x·W1 + b1, entry by entry: row i 0 of x times column i 1 of W1, plus entry i 1 of the bias. -/
def G0_4 (A0 : S100000x3.Idx → Elt Ideal .f32) (A1 : S3x16.Idx → Elt Ideal .f32) (A2 : S16.Idx → Elt Ideal .f32) : S100000x16.Idx → Elt Ideal .f32 :=
  fun i => FloatOps.addf (F := Ideal) (φ := .f32) (∑ k : Fin 3, A0 (ix2 (⟨(i 0).val, (i 0).isLt⟩ : Fin 100000) k) * A1 (ix2 k (⟨(i 1).val, (i 1).isLt⟩ : Fin 16)))
    (A2 (ix1 (⟨(i 1).val, (i 1).isLt⟩ : Fin 16)))

/-- x·W2, entry by entry. -/
def G0_5 (A0 : S100000x3.Idx → Elt Ideal .f32) (A3 : S3x16.Idx → Elt Ideal .f32) : S100000x16.Idx → Elt Ideal .f32 :=
  fun i => ∑ k : Fin 3, A0 (ix2 (⟨(i 0).val, (i 0).isLt⟩ : Fin 100000) k) * A3 (ix2 k (⟨(i 1).val, (i 1).isLt⟩ : Fin 16))

/-- What the body stores at entry j of its first output block at point t is x·W1 + b1 at row 2000 t + j 0, column j 1. -/
theorem point0_4 (c : Dev nD) (t : Fin cfg0.N) (j : S2000x16.Idx) (i : S100000x16.Idx)
    (h0 : (i 0).val = t.val * 2000 + (j 0).val) (h1 : (i 1).val = (j 1).val) :
    k0_pay2 (iblk0 V c 0 t : Vec Ideal S2000x3 .f32) (iblk0 V c 1 t : Vec Ideal S3x16 .f32) (iblk0 V c 2 t : Vec Ideal S16 .f32) j
      = G0_4 (V c main_arg0) (V c main_arg3) (V c main_arg4) i := by
  obtain ⟨p, q, rfl⟩ : ∃ (p : Fin 2000) (q : Fin 16), j = ix2 p q := ⟨j 0, j 1, eq_ix2 j⟩
  refine (pay0_2_apply _ _ _ p q).trans ?_
  unfold G0_4
  refine congrArg₂ (FloatOps.addf (F := Ideal) (φ := .f32)) (Finset.sum_congr rfl fun k _ => ?_) ?_
  · exact congrArg₂ (· * ·) (blk0_x V c t p k _ h0 rfl) (blk0_w1 V c t k q _ rfl h1)
  · exact blk0_b V c t q _ h1

theorem point0_5 (c : Dev nD) (t : Fin cfg0.N) (j : S2000x16.Idx) (i : S100000x16.Idx)
    (h0 : (i 0).val = t.val * 2000 + (j 0).val) (h1 : (i 1).val = (j 1).val) :
    k0_pay3 (iblk0 V c 0 t : Vec Ideal S2000x3 .f32) (iblk0 V c 3 t : Vec Ideal S3x16 .f32) j
      = G0_5 (V c main_arg0) (V c main_arg5) i := by
  obtain ⟨p, q, rfl⟩ : ∃ (p : Fin 2000) (q : Fin 16), j = ix2 p q := ⟨j 0, j 1, eq_ix2 j⟩
  refine (pay0_3_apply _ _ p q).trans ?_
  unfold G0_5
  refine Finset.sum_congr rfl fun k _ => ?_
  exact congrArg₂ (· * ·) (blk0_x V c t p k _ h0 rfl) (blk0_w2 V c t k q _ rfl h1)

/-! ## What a point writes back, the cover, the arrays -/

/-- What point t writes back to the first output is block t of x·W1 + b1. -/
theorem flushed0_4 (c : Dev nD) (t : Fin cfg0.N) :
    (dat0 V c).flushed 4 t = ((cfg0.win 4).blk t).view.read (Elt Ideal) (G0_4 (V c main_arg0) (V c main_arg3) (V c main_arg4)) := by
  show (cfg0.win 4).cut (grid0.coords t) ((dat0 V c).after 4 t) = _
  rw [after0_4]
  unfold out0_4
  rw [View.canon_unit_zero hz0_2]
  simp only [View.ld_unit_zero (S := S2000x3) hz0_2, View.ld_unit_zero (S := S3x16) hz0_2, View.ld_unit_zero (S := S16) hz0_1]
  obtain ⟨-, -, -, -, -, -, -, e0, e1, -⟩ := idx0 t
  funext j
  refine point0_4 V c t j _ ?_ ?_
  · show win0_4.index t (0 : Fin 2) * 2000 + 1 * (j 0).val = t.val * 2000 + (j 0).val; rw [e0]; omega
  · show win0_4.index t (1 : Fin 2) * 16 + 1 * (j 1).val = (j 1).val; rw [e1]; omega

/-- What point t writes back to the second output is block t of x·W2. -/
theorem flushed0_5 (c : Dev nD) (t : Fin cfg0.N) :
    (dat0 V c).flushed 5 t = ((cfg0.win 5).blk t).view.read (Elt Ideal) (G0_5 (V c main_arg0) (V c main_arg5)) := by
  show (cfg0.win 5).cut (grid0.coords t) ((dat0 V c).after 5 t) = _
  rw [after0_5]
  unfold out0_5
  rw [View.canon_unit_zero hz0_2]
  simp only [View.ld_unit_zero (S := S2000x3) hz0_2, View.ld_unit_zero (S := S3x16) hz0_2]
  obtain ⟨-, -, -, -, -, -, -, -, -, e0, e1⟩ := idx0 t
  funext j
  refine point0_5 V c t j _ ?_ ?_
  · show win0_5.index t (0 : Fin 2) * 2000 + 1 * (j 0).val = t.val * 2000 + (j 0).val; rw [e0]; omega
  · show win0_5.index t (1 : Fin 2) * 16 + 1 * (j 1).val = (j 1).val; rw [e1]; omega

/-- An index of an output array is in point t's block iff each coordinate is in the block's range on its axis. -/
theorem mem_blk0_4 (t : Fin cfg0.N) (i : S100000x16.Idx) :
    i ∈ ((cfg0.win 4).blk t).view.set ↔ ∀ a : Fin 2, win0_4.index t a * S2000x16.size a ≤ (i a).val ∧ (i a).val < win0_4.index t a * S2000x16.size a + S2000x16.size a := by
  show i ∈ ((View.whole main_v29_0).slice (win0_4.rect t)).set ↔ _
  rw [View.set_slice_whole, Rect.mem_set_unit]
  exact Iff.rfl
theorem mem_blk0_5 (t : Fin cfg0.N) (i : S100000x16.Idx) :
    i ∈ ((cfg0.win 5).blk t).view.set ↔ ∀ a : Fin 2, win0_5.index t a * S2000x16.size a ≤ (i a).val ∧ (i a).val < win0_5.index t a * S2000x16.size a + S2000x16.size a := by
  show i ∈ ((View.whole main_v29_1).slice (win0_5.rect t)).set ↔ _
  rw [View.set_slice_whole, Rect.mem_set_unit]
  exact Iff.rfl

/-- Row r of an output is in the block of point r / 2000, which writes back: the fifty blocks cover the array. -/
theorem cover0_4 (i : S100000x16.Idx) : ∃ t : Fin cfg0.N, (cfg0.win 4).flush t = true ∧ i ∈ ((cfg0.win 4).blk t).view.set := by
  have hi0 : (i 0).val < 100000 := (i 0).isLt
  have hi1 : (i 1).val < 16 := (i 1).isLt
  obtain ⟨t, ht⟩ : ∃ t : Fin cfg0.N, t.val = (i 0).val / 2000 := ⟨⟨(i 0).val / 2000, by show _ < grid0.N; rw [N_0]; omega⟩, rfl⟩
  obtain ⟨-, -, -, -, -, -, -, e0, e1, -⟩ := idx0 t
  refine ⟨t, flush0_4 t, ?_⟩
  rw [mem_blk0_4]
  intro a
  match a with
  | ⟨0, _⟩ => show win0_4.index t (0 : Fin 2) * 2000 ≤ (i 0).val ∧ (i 0).val < win0_4.index t (0 : Fin 2) * 2000 + 2000; rw [e0, ht]; omega
  | ⟨1, _⟩ => show win0_4.index t (1 : Fin 2) * 16 ≤ (i 1).val ∧ (i 1).val < win0_4.index t (1 : Fin 2) * 16 + 16; rw [e1]; omega
theorem cover0_5 (i : S100000x16.Idx) : ∃ t : Fin cfg0.N, (cfg0.win 5).flush t = true ∧ i ∈ ((cfg0.win 5).blk t).view.set := by
  have hi0 : (i 0).val < 100000 := (i 0).isLt
  have hi1 : (i 1).val < 16 := (i 1).isLt
  obtain ⟨t, ht⟩ : ∃ t : Fin cfg0.N, t.val = (i 0).val / 2000 := ⟨⟨(i 0).val / 2000, by show _ < grid0.N; rw [N_0]; omega⟩, rfl⟩
  obtain ⟨-, -, -, -, -, -, -, -, -, e0, e1⟩ := idx0 t
  refine ⟨t, flush0_5 t, ?_⟩
  rw [mem_blk0_5]
  intro a
  match a with
  | ⟨0, _⟩ => show win0_5.index t (0 : Fin 2) * 2000 ≤ (i 0).val ∧ (i 0).val < win0_5.index t (0 : Fin 2) * 2000 + 2000; rw [e0, ht]; omega
  | ⟨1, _⟩ => show win0_5.index t (1 : Fin 2) * 16 ≤ (i 1).val ∧ (i 1).val < win0_5.index t (1 : Fin 2) * 16 + 16; rw [e1]; omega

/-- After the region the first output array is x·W1 + b1 and the second x·W2, as whole-array functions. -/
theorem arr0_4 (c : Dev nD) : (dat0 V c).arrAt 4 cfg0.N = G0_4 (V c main_arg0) (V c main_arg3) (V c main_arg4) :=
  (dat0 V c).arrAt_eq_of_cover 4 _ (fun t _ => flushed0_4 V c t) cover0_4
theorem arr0_5 (c : Dev nD) : (dat0 V c).arrAt 5 cfg0.N = G0_5 (V c main_arg0) (V c main_arg5) :=
  (dat0 V c).arrAt_eq_of_cover 5 _ (fun t _ => flushed0_5 V c t) cover0_5

/-! ## The same functions in the host operations' vocabulary -/

/-- Entry by entry, x·W1 + b1 is the host's product of x and W1 plus its bias laid along the rows. -/
theorem G0_4_eq (A0 : S100000x3.Idx → Elt Ideal .f32) (A1 : S3x16.Idx → Elt Ideal .f32) (A2 : S16.Idx → Elt Ideal .f32) :
    G0_4 A0 A1 A2 = Cert.ReferenceIdeal.ReadP.val_main_v3 (F := Ideal) A0 A1 A2 := by
  funext i
  refine Eq.symm ?_
  rw [Cert.ReferenceIdeal.ReadP.val_main_v3_apply, Cert.ReferenceIdeal.ReadP.val_main_v0_apply,
    Cert.ReferenceIdeal.ReadP.val_main_v2_apply, Cert.ReferenceIdeal.ReadP.val_main_v1_apply]
  unfold G0_4
  refine congrArg₂ (FloatOps.addf (F := Ideal) (φ := .f32)) (Finset.sum_congr rfl fun k _ => congrArg₂ (· * ·) (congrArg A0 ?_) (congrArg A1 ?_)) (congrArg A2 ?_)
  · funext a; match a with | ⟨0, _⟩ => rfl | ⟨1, _⟩ => rfl
  · funext a; match a with | ⟨0, _⟩ => rfl | ⟨1, _⟩ => rfl
  · funext a; match a with | ⟨0, _⟩ => rfl

/-- Entry by entry, x·W2 is the host's product of x and W2. -/
theorem G0_5_eq (A0 : S100000x3.Idx → Elt Ideal .f32) (A3 : S3x16.Idx → Elt Ideal .f32) :
    G0_5 A0 A3 = Cert.ReferenceIdeal.ReadP.val_main_v4 (F := Ideal) A0 A3 := by
  funext i
  refine Eq.symm ?_
  rw [Cert.ReferenceIdeal.ReadP.val_main_v4_apply]
  unfold G0_5
  refine Finset.sum_congr rfl fun k _ => congrArg₂ (· * ·) (congrArg A0 ?_) (congrArg A3 ?_)
  · funext a; match a with | ⟨0, _⟩ => rfl | ⟨1, _⟩ => rfl
  · funext a; match a with | ⟨0, _⟩ => rfl | ⟨1, _⟩ => rfl

/-- After the region, output window 4's array (`main_v29_0`) is x·W1 + b1. -/
theorem final0_4 (c : Dev nD) :
    (dat0 (F := Ideal) V c).arrAt 4 cfg0.N
      = Cert.ReferenceIdeal.ReadP.val_main_v3 (F := Ideal) (V c main_arg0) (V c main_arg3) (V c main_arg4) :=
  (arr0_4 V c).trans (G0_4_eq _ _ _)

/-- After the region, output window 5's array (`main_v29_1`) is x·W2. -/
theorem final0_5 (c : Dev nD) :
    (dat0 (F := Ideal) V c).arrAt 5 cfg0.N
      = Cert.ReferenceIdeal.ReadP.val_main_v4 (F := Ideal) (V c main_arg0) (V c main_arg5) :=
  (arr0_5 V c).trans (G0_5_eq _ _)

end Cert.KernelIdeal.Reg

end
-- ==== Proof.KI.Val1.lean ====
/-
  The value of region 1 at the exact-real instance: the array the region leaves in its output window, as ONE whole-array
  function of the two arrays it reads — max(center + aggr, 0), entry by entry — in the host operations' own vocabulary.

  The road: what one grid point writes back is the body's payload of the two input blocks; the payload at an entry is
  max(x0 + x1, 0) of the blocks' entries there; the three windows cut their arrays the same way (point t owns rows
  2000·t … 2000·t + 1999, all 16 columns), so an entry of an input block is the array's entry at the place the output
  block's entry goes to; and the 50 blocks tile the 100000 rows (row r lies in block r / 2000). Hence the array ends as
  the entrywise function of the two arrays.
-/
import proofs.«401038_j80255758893589_2_alg».proof.Proof.KI.R1
import proofs.«401038_j80255758893589_2_alg».proof.Proof.RefRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (V : (c : Dev nD) → (b : Ref sig .tc) → Buf (Elt Ideal) ((c : Thread nD τ).loc b))

/-- The store's offsets (0, 0) are the zero offsets. -/
theorem zero_off1 : (![0, 0] : Fin 2 → Nat) = fun _ => 0 := funext fun a => by
  match a with
  | ⟨0, _⟩ => rfl
  | ⟨1, _⟩ => rfl

/-- max(a + b, 0), entry by entry, of two whole 100000×16 arrays. -/
abbrev relu1 (a b : S100000x16.Idx → Ideal .f32) : S100000x16.Idx → Ideal .f32 :=
  fun i => FloatOps.maximumf (F := Ideal) (FloatOps.addf (F := Ideal) (a i) (b i)) (FloatOps.ofBits (F := Ideal) .f32 0x00000000#32)

/-- The body's payload at an entry of the block is max(x0 + x1, 0) of the two blocks' entries there: the two casts
    are to the same shape, the sum and the maximum are entrywise, and the maximum's other operand is the
    constant 0 at every entry. -/
theorem pay1_apply (x0 x1 : Vec Ideal S2000x16 .f32) (j : S2000x16.Idx) :
    k1_pay1 (F := Ideal) x0 x1 j
      = FloatOps.maximumf (F := Ideal) (FloatOps.addf (F := Ideal) (x0 j) (x1 j)) (FloatOps.ofBits (F := Ideal) .f32 0x00000000#32) := by
  unfold k1_pay1
  simp only [shapeCast_self]
  rfl

/-- The three windows' index maps, decided over the 50 grid points: at point t each names block (t, 0). -/
theorem idxfact1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- WHAT POINT t WRITES BACK is block t of relu1 of the two arrays the region reads: the payload at entry j of
    the block is max(x0 j + x1 j, 0), and entry j of either input block is the array's entry at row
    2000·t + j₀, column j₁ — the place entry j of the output block goes to. -/
theorem flushed1_2_eq (c : Dev nD) (t : Fin cfg1.N) :
    (dat1 (F := Ideal) V c).flushed 2 t
      = ((cfg1.win 2).blk t).view.read (Elt Ideal) (relu1 (V c main_v29_0) (V c main_v50)) := by
  show (cfg1.win 2).cut (grid1.coords t) ((dat1 (F := Ideal) V c).after 2 t) = _
  rw [after1_2]
  unfold out1_2
  rw [View.canon_unit_zero zero_off1]
  simp only [View.ld_unit_zero (S := S2000x16) zero_off1]
  obtain ⟨e00, e01, e10, e11, e20, e21⟩ := idxfact1 t
  funext j
  refine (pay1_apply (iblk1 V c 0 t) (iblk1 V c 1 t) j).trans ?_
  show FloatOps.maximumf (F := Ideal) (FloatOps.addf (F := Ideal) (V c main_v29_0 (((cfg1.win 0).blk t).view.emb j)) (V c main_v50 (((cfg1.win 1).blk t).view.emb j))) _
    = FloatOps.maximumf (F := Ideal) (FloatOps.addf (F := Ideal) (V c main_v29_0 (((cfg1.win 2).blk t).view.emb j)) (V c main_v50 (((cfg1.win 2).blk t).view.emb j))) _
  have h0 : ((cfg1.win 0).blk t).view.emb j = ((cfg1.win 2).blk t).view.emb j := by
    funext a; apply Fin.ext
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 16 + 1 * (j 1).val = win1_2.index t (1 : Fin 2) * 16 + 1 * (j 1).val; omega
  have h1 : ((cfg1.win 1).blk t).view.emb j = ((cfg1.win 2).blk t).view.emb j := by
    funext a; apply Fin.ext
    match a with
    | ⟨0, _⟩ => show win1_1.index t (0 : Fin 2) * 2000 + 1 * (j 0).val = win1_2.index t (0 : Fin 2) * 2000 + 1 * (j 0).val; omega
    | ⟨1, _⟩ => show win1_1.index t (1 : Fin 2) * 16 + 1 * (j 1).val = win1_2.index t (1 : Fin 2) * 16 + 1 * (j 1).val; omega
  rw [h0, h1]

/-- An entry of the array is in point t's block iff each coordinate is in the block's range on its axis. -/
theorem mem_blk1_2 (t : Fin cfg1.N) (i : S100000x16.Idx) :
    i ∈ ((cfg1.win 2).blk t).view.set ↔ ∀ a : Fin 2, win1_2.index t a * S2000x16.size a ≤ (i a).val ∧ (i a).val < win1_2.index t a * S2000x16.size a + S2000x16.size a := by
  show i ∈ ((View.whole main_v51).slice (win1_2.rect t)).set ↔ _
  rw [View.set_slice_whole, Rect.mem_set_unit]
  exact Iff.rfl

/-- Every entry of the array is in some point's block, and every point writes its block back: row r lies in
    block r / 2000 (2000·(r / 2000) ≤ r < 2000·(r / 2000) + 2000, and r < 100000 gives r / 2000 < 50); the 16
    columns are one block. -/
theorem covered1_2 (i : S100000x16.Idx) :
    ∃ t : Fin cfg1.N, (cfg1.win 2).flush t = true ∧ i ∈ ((cfg1.win 2).blk t).view.set := by
  have hi0 : (i 0).val < 100000 := (i 0).isLt
  have hi1 : (i 1).val < 16 := (i 1).isLt
  have hq : (i 0).val / 2000 < 50 := by omega
  refine ⟨⟨(i 0).val / 2000, hq⟩, flush1_2 _, ?_⟩
  rw [mem_blk1_2]
  obtain ⟨e00, e01, e10, e11, e20, e21⟩ := idxfact1 ⟨(i 0).val / 2000, hq⟩
  have e20' : win1_2.index ⟨(i 0).val / 2000, hq⟩ (0 : Fin 2) = (i 0).val / 2000 := e20
  intro a
  match a with
  | ⟨0, _⟩ => show win1_2.index ⟨(i 0).val / 2000, hq⟩ (0 : Fin 2) * 2000 ≤ (i 0).val ∧ (i 0).val < win1_2.index ⟨(i 0).val / 2000, hq⟩ (0 : Fin 2) * 2000 + 2000; omega
  | ⟨1, _⟩ => show win1_2.index ⟨(i 0).val / 2000, hq⟩ (1 : Fin 2) * 16 ≤ (i 1).val ∧ (i 1).val < win1_2.index ⟨(i 0).val / 2000, hq⟩ (1 : Fin 2) * 16 + 16; omega

/-- The host operations' term for the same function — the entrywise maximum of the entrywise sum and the
    broadcast of the scalar constant 0 — is relu1: read at an entry, the broadcast is the constant. -/
theorem host_relu1 (a b : S100000x16.Idx → Ideal .f32) :
    maximumf (addf a b) (Cert.ReferenceIdeal.ReadP.val_main_call1_v0 (F := Ideal)) = relu1 a b := by
  funext i
  show FloatOps.maximumf (F := Ideal) (FloatOps.addf (F := Ideal) (a i) (b i)) (Cert.ReferenceIdeal.ReadP.val_main_call1_v0 (F := Ideal) i) = _
  rw [Cert.ReferenceIdeal.ReadP.val_main_call1_v0_apply]
  rfl

/-- After the region, output window 2's array (`main_v51`) is max(a + b, 0) entry by entry, `a` and `b` the two arrays the
    region reads (`main_v29_0`, `main_v50`) as it finds them. The shape and the float format of the entrywise sum and
    maximum are written out as the host program's own maximum has them (its 100000×16 shape, f32), so that this
    right side is, letter for letter, the host's term at these two arrays. -/
theorem final1_2 (c : Dev nD) :
    (dat1 (F := Ideal) V c).arrAt 2 cfg1.N
      = maximumf (F := Ideal) (s := (⟨Cert.ReferenceIdeal.S100000x16, .f32⟩ : BufTy).shape) (φ := .f32)
          (addf (F := Ideal) (s := (⟨Cert.ReferenceIdeal.S100000x16, .f32⟩ : BufTy).shape) (φ := .f32) (V c main_v29_0) (V c main_v50))
          (Cert.ReferenceIdeal.ReadP.val_main_call1_v0 (F := Ideal)) := by
  exact ((dat1 (F := Ideal) V c).arrAt_eq_of_cover 2 (relu1 (V c main_v29_0) (V c main_v50)) (fun t _ => flushed1_2_eq V c t) covered1_2).trans
    (host_relu1 (V c main_v29_0) (V c main_v50)).symm

end Cert.KernelIdeal.Reg

end
-- ==== Proof.KI.Val2.lean ====
/-
  The value of region 2 at the exact-real instance: the two arrays the region leaves in its output windows, each as ONE
  whole-array function of the arrays it reads — center = h·W1 + b1 and x_j = h·W2 over 16 input features — in the host
  operations' own vocabulary.
-/
import proofs.«401038_j80255758893589_2_alg».proof.Proof.KI.R2
import proofs.«401038_j80255758893589_2_alg».proof.Proof.RefRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

theorem hz2_2 : (![0, 0] : Fin 2 → Nat) = fun _ => 0 := funext fun a => by fin_cases a <;> rfl
theorem hz2_1 : (![0] : Fin 1 → Nat) = fun _ => 0 := funext fun a => by fin_cases a; rfl

/-! ## The block's matrix product read at an entry -/

/-- The product's operand indices at an output entry and a contraction index: the entry's row and the feature on the
    left operand, the feature and the entry's column on the right. -/
theorem dotL2_0 (i : S2000x16.Idx) (q : dot_S2000x16_S16x16_S2000x16_1_0_0_1_n_n.contr.Idx) :
    (dot_S2000x16_S16x16_S2000x16_1_0_0_1_n_n.lhsIdx i q 0).val = (i 0).val := by
  unfold DotDims.lhsIdx
  rw [dif_neg (show ¬(0 : Fin S2000x16.rank) ∈ dot_S2000x16_S16x16_S2000x16_1_0_0_1_n_n.lhsBatch by decide), dif_pos (show (0 : Fin S2000x16.rank) ∈ dot_S2000x16_S16x16_S2000x16_1_0_0_1_n_n.lhsNonContracting by decide)]
  rfl
theorem dotL2_1 (i : S2000x16.Idx) (q : dot_S2000x16_S16x16_S2000x16_1_0_0_1_n_n.contr.Idx) :
    (dot_S2000x16_S16x16_S2000x16_1_0_0_1_n_n.lhsIdx i q 1).val = (q ⟨0, by decide⟩).val :=
  dot_S2000x16_S16x16_S2000x16_1_0_0_1_n_n.lhsIdx_val_of_single rfl i q
theorem dotR2_0 (i : S2000x16.Idx) (q : dot_S2000x16_S16x16_S2000x16_1_0_0_1_n_n.contr.Idx) :
    (dot_S2000x16_S16x16_S2000x16_1_0_0_1_n_n.rhsIdx i q 0).val = (q ⟨0, by decide⟩).val :=
  dot_S2000x16_S16x16_S2000x16_1_0_0_1_n_n.rhsIdx_val_of_single rfl i q
theorem dotR2_1 (i : S2000x16.Idx) (q : dot_S2000x16_S16x16_S2000x16_1_0_0_1_n_n.contr.Idx) :
    (dot_S2000x16_S16x16_S2000x16_1_0_0_1_n_n.rhsIdx i q 1).val = (i 1).val := by
  unfold DotDims.rhsIdx
  rw [dif_neg (show ¬(1 : Fin S16x16.rank) ∈ dot_S2000x16_S16x16_S2000x16_1_0_0_1_n_n.rhsBatch by decide), dif_pos (show (1 : Fin S16x16.rank) ∈ dot_S2000x16_S16x16_S2000x16_1_0_0_1_n_n.rhsNonContracting by decide)]
  rfl

/-- A block's product into the zero accumulator, read at row p and column q: the sum over the sixteen input features of
    the row's entry times the column's (at the exact reals the narrowing of the operands changes nothing). -/
theorem mm2_apply (x : FVec Ideal S2000x16 .bf16) (w : FVec Ideal S16x16 .bf16) (p : Fin 2000) (q : Fin 16) :
    (matmul dot_S2000x16_S16x16_S2000x16_1_0_0_1_n_n none x w (constant (F := Ideal) S2000x16 .f32 0x00000000#32) : FVec Ideal S2000x16 .f32) (ix2 p q)
      = ∑ k : Fin 16, x (ix2 p k) * w (ix2 k q) := by
  simp only [matmul]
  rw [Ideal.matmul_constant_zero_apply, ← Equiv.sum_comp (ValueIdx.contrEquiv1 dot_S2000x16_S16x16_S2000x16_1_0_0_1_n_n 16 rfl rfl).symm]
  refine Finset.sum_congr rfl fun k _ => ?_
  have hk := ValueIdx.contrEquiv1_symm_val dot_S2000x16_S16x16_S2000x16_1_0_0_1_n_n 16 rfl rfl k
  have el : dot_S2000x16_S16x16_S2000x16_1_0_0_1_n_n.lhsIdx (ix2 p q) ((ValueIdx.contrEquiv1 dot_S2000x16_S16x16_S2000x16_1_0_0_1_n_n 16 rfl rfl).symm k) = ix2 p k := funext fun a => Fin.ext (by
    match a with
    | ⟨0, _⟩ => exact dotL2_0 _ _
    | ⟨1, _⟩ => exact (dotL2_1 _ _).trans hk)
  have er : dot_S2000x16_S16x16_S2000x16_1_0_0_1_n_n.rhsIdx (ix2 p q) ((ValueIdx.contrEquiv1 dot_S2000x16_S16x16_S2000x16_1_0_0_1_n_n 16 rfl rfl).symm k) = ix2 k q := funext fun a => Fin.ext (by
    match a with
    | ⟨0, _⟩ => exact (dotR2_0 _ _).trans hk
    | ⟨1, _⟩ => exact dotR2_1 _ _)
  rw [el, er]

/-- The bias laid along every row of the block, read at row p and column q, is its entry q. -/
theorem bias2_apply (b : FVec Ideal S16 .f32) (p : Fin 2000) (q : Fin 16) :
    broadcastTo S2000x16 (shapeCast S1x16 b shapeCasts_S16_S1x16) broadcasts_S1x16_S2000x16 (ix2 p q) = b (ix1 q) := by
  refine (broadcastTo_apply _ broadcasts_S1x16_S2000x16 (ix2 p q) (ix2 (0 : Fin 1) q) (fun a => ?_)).trans ?_
  · match a with
    | ⟨0, _⟩ => rfl
    | ⟨1, _⟩ => show q.val = if (16 : Nat) = 1 then 0 else q.val; rw [if_neg (by decide)]
  · exact shapeCast_apply b shapeCasts_S16_S1x16 (ix2 (0 : Fin 1) q) (ix1 q) (by
      rw [Shape.rowMajor_val_two, Shape.rowMajor_val_one]; show q.val = 0 * 16 + q.val; omega)

/-- The block of h narrowed for the product: the cast to its own shape changes nothing. -/
theorem pay2_1_eq (x : Vec Ideal S2000x16 .f32) : k2_pay1 x = truncf .bf16 x bitsLt_bf16_f32 := by
  unfold k2_pay1
  simp only [shapeCast_self]

/-- What the body stores into the first output block, at row p and column q: the row of h times the column of W1,
    plus the bias's entry. -/
theorem pay2_2_apply (x : Vec Ideal S2000x16 .f32) (w : Vec Ideal S16x16 .f32) (b : Vec Ideal S16 .f32) (p : Fin 2000) (q : Fin 16) :
    k2_pay2 x w b (ix2 p q) = FloatOps.addf (∑ k : Fin 16, x (ix2 p k) * w (ix2 k q)) (b (ix1 q)) := by
  unfold k2_pay2
  rw [pay2_1_eq]
  show FloatOps.addf _ _ = _
  exact congrArg₂ FloatOps.addf (mm2_apply _ _ p q) (bias2_apply b p q)

/-- What the body stores into the second output block, at row p and column q: the row of h times the column of W2. -/
theorem pay2_3_apply (x : Vec Ideal S2000x16 .f32) (w : Vec Ideal S16x16 .f32) (p : Fin 2000) (q : Fin 16) :
    k2_pay3 x w (ix2 p q) = ∑ k : Fin 16, x (ix2 p k) * w (ix2 k q) := by
  unfold k2_pay3
  rw [pay2_1_eq]
  exact mm2_apply _ _ p q

variable (V : (c : Dev nD) → (b : Ref sig .tc) → Buf (Elt Ideal) ((c : Thread nD τ).loc b))

/-! ## The index maps, the blocks as rows of the arrays -/

/-- The printed index maps decided over the grid: the rows of h and of both outputs move with the point, one block
    of 2000 rows a point; the weights and the bias stay at their one block. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- The block of h at point t is rows 2000 t … 2000 t + 1999 of h. -/
theorem blk2_x (c : Dev nD) (t : Fin cfg2.N) (p : Fin 2000) (k : Fin 16) (i : S100000x16.Idx)
    (h0 : (i 0).val = t.val * 2000 + p.val) (h1 : (i 1).val = k.val) :
    (iblk2 V c 0 t : Vec Ideal S2000x16 .f32) (ix2 p k) = (V c main_v51 : S100000x16.Idx → Elt Ideal .f32) i := by
  obtain ⟨e0, e1, -⟩ := idx2 t
  unfold iblk2
  rw [View.read_apply]
  show V c main_v51 _ = V c main_v51 _
  congr 1
  funext a
  apply Fin.ext
  match a with
  | ⟨0, _⟩ => show win2_0.index t (0 : Fin 2) * 2000 + 1 * p.val = (i 0).val; rw [e0, h0]; omega
  | ⟨1, _⟩ => show win2_0.index t (1 : Fin 2) * 16 + 1 * k.val = (i 1).val; rw [e1, h1]; omega

/-- The block of W1 at any point is W1. -/
theorem blk2_w1 (c : Dev nD) (t : Fin cfg2.N) (k : Fin 16) (q : Fin 16) (i : S16x16.Idx)
    (h0 : (i 0).val = k.val) (h1 : (i 1).val = q.val) :
    (iblk2 V c 1 t : Vec Ideal S16x16 .f32) (ix2 k q) = (V c main_arg6 : S16x16.Idx → Elt Ideal .f32) i := by
  obtain ⟨-, -, e0, e1, -⟩ := idx2 t
  unfold iblk2
  rw [View.read_apply]
  show V c main_arg6 _ = V c main_arg6 _
  congr 1
  funext a
  apply Fin.ext
  match a with
  | ⟨0, _⟩ => show win2_1.index t (0 : Fin 2) * 16 + 1 * k.val = (i 0).val; rw [e0, h0]; omega
  | ⟨1, _⟩ => show win2_1.index t (1 : Fin 2) * 16 + 1 * q.val = (i 1).val; rw [e1, h1]; omega

/-- The block of the bias at any point is the bias. -/
theorem blk2_b (c : Dev nD) (t : Fin cfg2.N) (q : Fin 16) (i : S16.Idx) (h0 : (i 0).val = q.val) :
    (iblk2 V c 2 t : Vec Ideal S16 .f32) (ix1 q) = (V c main_arg7 : S16.Idx → Elt Ideal .f32) i := by
  obtain ⟨-, -, -, -, e0, -⟩ := idx2 t
  unfold iblk2
  rw [View.read_apply]
  show V c main_arg7 _ = V c main_arg7 _
  congr 1
  funext a
  apply Fin.ext
  match a with
  | ⟨0, _⟩ => show win2_2.index t (0 : Fin 1) * 16 + 1 * q.val = (i 0).val; rw [e0, h0]; omega

/-- The block of W2 at any point is W2. -/
theorem blk2_w2 (c : Dev nD) (t : Fin cfg2.N) (k : Fin 16) (q : Fin 16) (i : S16x16.Idx)
    (h0 : (i 0).val = k.val) (h1 : (i 1).val = q.val) :
    (iblk2 V c 3 t : Vec Ideal S16x16 .f32) (ix2 k q) = (V c main_arg8 : S16x16.Idx → Elt Ideal .f32) i := by
  obtain ⟨-, -, -, -, -, e0, e1, -⟩ := idx2 t
  unfold iblk2
  rw [View.read_apply]
  show V c main_arg8 _ = V c main_arg8 _
  congr 1
  funext a
  apply Fin.ext
  match a with
  | ⟨0, _⟩ => show win2_3.index t (0 : Fin 2) * 16 + 1 * k.val = (i 0).val; rw [e0, h0]; omega
  | ⟨1, _⟩ => show win2_3.index t (1 : Fin 2) * 16 + 1 * q.val = (i 1).val; rw [e1, h1]; omega

/-! ## The two outputs as whole-array functions -/

/-- h·W1 + b1, entry by entry: row i 0 of h times column i 1 of W1, plus entry i 1 of the bias. -/
def G2_4 (A0 : S100000x16.Idx → Elt Ideal .f32) (A1 : S16x16.Idx → Elt Ideal .f32) (A2 : S16.Idx → Elt Ideal .f32) : S100000x16.Idx → Elt Ideal .f32 :=
  fun i => FloatOps.addf (F := Ideal) (φ := .f32) (∑ k : Fin 16, A0 (ix2 (⟨(i 0).val, (i 0).isLt⟩ : Fin 100000) k) * A1 (ix2 k (⟨(i 1).val, (i 1).isLt⟩ : Fin 16)))
    (A2 (ix1 (⟨(i 1).val, (i 1).isLt⟩ : Fin 16)))

/-- h·W2, entry by entry. -/
def G2_5 (A0 : S100000x16.Idx → Elt Ideal .f32) (A3 : S16x16.Idx → Elt Ideal .f32) : S100000x16.Idx → Elt Ideal .f32 :=
  fun i => ∑ k : Fin 16, A0 (ix2 (⟨(i 0).val, (i 0).isLt⟩ : Fin 100000) k) * A3 (ix2 k (⟨(i 1).val, (i 1).isLt⟩ : Fin 16))

/-- What the body stores at entry j of its first output block at point t is h·W1 + b1 at row 2000 t + j 0, column j 1. -/
theorem point2_4 (c : Dev nD) (t : Fin cfg2.N) (j : S2000x16.Idx) (i : S100000x16.Idx)
    (h0 : (i 0).val = t.val * 2000 + (j 0).val) (h1 : (i 1).val = (j 1).val) :
    k2_pay2 (iblk2 V c 0 t : Vec Ideal S2000x16 .f32) (iblk2 V c 1 t : Vec Ideal S16x16 .f32) (iblk2 V c 2 t : Vec Ideal S16 .f32) j
      = G2_4 (V c main_v51) (V c main_arg6) (V c main_arg7) i := by
  obtain ⟨p, q, rfl⟩ : ∃ (p : Fin 2000) (q : Fin 16), j = ix2 p q := ⟨j 0, j 1, eq_ix2 j⟩
  refine (pay2_2_apply _ _ _ p q).trans ?_
  unfold G2_4
  refine congrArg₂ (FloatOps.addf (F := Ideal) (φ := .f32)) (Finset.sum_congr rfl fun k _ => ?_) ?_
  · exact congrArg₂ (· * ·) (blk2_x V c t p k _ h0 rfl) (blk2_w1 V c t k q _ rfl h1)
  · exact blk2_b V c t q _ h1

theorem point2_5 (c : Dev nD) (t : Fin cfg2.N) (j : S2000x16.Idx) (i : S100000x16.Idx)
    (h0 : (i 0).val = t.val * 2000 + (j 0).val) (h1 : (i 1).val = (j 1).val) :
    k2_pay3 (iblk2 V c 0 t : Vec Ideal S2000x16 .f32) (iblk2 V c 3 t : Vec Ideal S16x16 .f32) j
      = G2_5 (V c main_v51) (V c main_arg8) i := by
  obtain ⟨p, q, rfl⟩ : ∃ (p : Fin 2000) (q : Fin 16), j = ix2 p q := ⟨j 0, j 1, eq_ix2 j⟩
  refine (pay2_3_apply _ _ p q).trans ?_
  unfold G2_5
  refine Finset.sum_congr rfl fun k _ => ?_
  exact congrArg₂ (· * ·) (blk2_x V c t p k _ h0 rfl) (blk2_w2 V c t k q _ rfl h1)

/-! ## What a point writes back, the cover, the arrays -/

/-- What point t writes back to the first output is block t of h·W1 + b1. -/
theorem flushed2_4 (c : Dev nD) (t : Fin cfg2.N) :
    (dat2 V c).flushed 4 t = ((cfg2.win 4).blk t).view.read (Elt Ideal) (G2_4 (V c main_v51) (V c main_arg6) (V c main_arg7)) := by
  show (cfg2.win 4).cut (grid2.coords t) ((dat2 V c).after 4 t) = _
  rw [after2_4]
  unfold out2_4
  rw [View.canon_unit_zero hz2_2]
  simp only [View.ld_unit_zero (S := S2000x16) hz2_2, View.ld_unit_zero (S := S16x16) hz2_2, View.ld_unit_zero (S := S16) hz2_1]
  obtain ⟨-, -, -, -, -, -, -, e0, e1, -⟩ := idx2 t
  funext j
  refine point2_4 V c t j _ ?_ ?_
  · show win2_4.index t (0 : Fin 2) * 2000 + 1 * (j 0).val = t.val * 2000 + (j 0).val; rw [e0]; omega
  · show win2_4.index t (1 : Fin 2) * 16 + 1 * (j 1).val = (j 1).val; rw [e1]; omega

/-- What point t writes back to the second output is block t of h·W2. -/
theorem flushed2_5 (c : Dev nD) (t : Fin cfg2.N) :
    (dat2 V c).flushed 5 t = ((cfg2.win 5).blk t).view.read (Elt Ideal) (G2_5 (V c main_v51) (V c main_arg8)) := by
  show (cfg2.win 5).cut (grid2.coords t) ((dat2 V c).after 5 t) = _
  rw [after2_5]
  unfold out2_5
  rw [View.canon_unit_zero hz2_2]
  simp only [View.ld_unit_zero (S := S2000x16) hz2_2, View.ld_unit_zero (S := S16x16) hz2_2]
  obtain ⟨-, -, -, -, -, -, -, -, -, e0, e1⟩ := idx2 t
  funext j
  refine point2_5 V c t j _ ?_ ?_
  · show win2_5.index t (0 : Fin 2) * 2000 + 1 * (j 0).val = t.val * 2000 + (j 0).val; rw [e0]; omega
  · show win2_5.index t (1 : Fin 2) * 16 + 1 * (j 1).val = (j 1).val; rw [e1]; omega

/-- An index of an output array is in point t's block iff each coordinate is in the block's range on its axis. -/
theorem mem_blk2_4 (t : Fin cfg2.N) (i : S100000x16.Idx) :
    i ∈ ((cfg2.win 4).blk t).view.set ↔ ∀ a : Fin 2, win2_4.index t a * S2000x16.size a ≤ (i a).val ∧ (i a).val < win2_4.index t a * S2000x16.size a + S2000x16.size a := by
  show i ∈ ((View.whole main_v52_0).slice (win2_4.rect t)).set ↔ _
  rw [View.set_slice_whole, Rect.mem_set_unit]
  exact Iff.rfl
theorem mem_blk2_5 (t : Fin cfg2.N) (i : S100000x16.Idx) :
    i ∈ ((cfg2.win 5).blk t).view.set ↔ ∀ a : Fin 2, win2_5.index t a * S2000x16.size a ≤ (i a).val ∧ (i a).val < win2_5.index t a * S2000x16.size a + S2000x16.size a := by
  show i ∈ ((View.whole main_v52_1).slice (win2_5.rect t)).set ↔ _
  rw [View.set_slice_whole, Rect.mem_set_unit]
  exact Iff.rfl

/-- Row r of an output is in the block of point r / 2000, which writes back: the fifty blocks cover the array. -/
theorem cover2_4 (i : S100000x16.Idx) : ∃ t : Fin cfg2.N, (cfg2.win 4).flush t = true ∧ i ∈ ((cfg2.win 4).blk t).view.set := by
  have hi0 : (i 0).val < 100000 := (i 0).isLt
  have hi1 : (i 1).val < 16 := (i 1).isLt
  obtain ⟨t, ht⟩ : ∃ t : Fin cfg2.N, t.val = (i 0).val / 2000 := ⟨⟨(i 0).val / 2000, by show _ < grid2.N; rw [N_2]; omega⟩, rfl⟩
  obtain ⟨-, -, -, -, -, -, -, e0, e1, -⟩ := idx2 t
  refine ⟨t, flush2_4 t, ?_⟩
  rw [mem_blk2_4]
  intro a
  match a with
  | ⟨0, _⟩ => show win2_4.index t (0 : Fin 2) * 2000 ≤ (i 0).val ∧ (i 0).val < win2_4.index t (0 : Fin 2) * 2000 + 2000; rw [e0, ht]; omega
  | ⟨1, _⟩ => show win2_4.index t (1 : Fin 2) * 16 ≤ (i 1).val ∧ (i 1).val < win2_4.index t (1 : Fin 2) * 16 + 16; rw [e1]; omega
theorem cover2_5 (i : S100000x16.Idx) : ∃ t : Fin cfg2.N, (cfg2.win 5).flush t = true ∧ i ∈ ((cfg2.win 5).blk t).view.set := by
  have hi0 : (i 0).val < 100000 := (i 0).isLt
  have hi1 : (i 1).val < 16 := (i 1).isLt
  obtain ⟨t, ht⟩ : ∃ t : Fin cfg2.N, t.val = (i 0).val / 2000 := ⟨⟨(i 0).val / 2000, by show _ < grid2.N; rw [N_2]; omega⟩, rfl⟩
  obtain ⟨-, -, -, -, -, -, -, -, -, e0, e1⟩ := idx2 t
  refine ⟨t, flush2_5 t, ?_⟩
  rw [mem_blk2_5]
  intro a
  match a with
  | ⟨0, _⟩ => show win2_5.index t (0 : Fin 2) * 2000 ≤ (i 0).val ∧ (i 0).val < win2_5.index t (0 : Fin 2) * 2000 + 2000; rw [e0, ht]; omega
  | ⟨1, _⟩ => show win2_5.index t (1 : Fin 2) * 16 ≤ (i 1).val ∧ (i 1).val < win2_5.index t (1 : Fin 2) * 16 + 16; rw [e1]; omega

/-- After the region the first output array is h·W1 + b1 and the second h·W2, as whole-array functions. -/
theorem arr2_4 (c : Dev nD) : (dat2 V c).arrAt 4 cfg2.N = G2_4 (V c main_v51) (V c main_arg6) (V c main_arg7) :=
  (dat2 V c).arrAt_eq_of_cover 4 _ (fun t _ => flushed2_4 V c t) cover2_4
theorem arr2_5 (c : Dev nD) : (dat2 V c).arrAt 5 cfg2.N = G2_5 (V c main_v51) (V c main_arg8) :=
  (dat2 V c).arrAt_eq_of_cover 5 _ (fun t _ => flushed2_5 V c t) cover2_5

/-! ## The same functions in the host operations' vocabulary -/

/-- The host's product of a 100000×16 array and a 16×16 weight read at an entry: the sum over the sixteen features of
    the row's entry times the column's. -/
theorem hostDot2_apply (y : S100000x16.Idx → Elt Ideal .f32) (w : S16x16.Idx → Elt Ideal .f32) (i : S100000x16.Idx) :
    Host.dotGeneral (F := Ideal) (φ₁ := .f32) (φ₂ := .f32) Cert.ReferenceIdeal.dot_S100000x16_S16x16_S100000x16_1_0_0_1_n_n none y w i
      = ∑ k : Fin 16, y (Cert.ReferenceIdeal.ReadP.lidx_main_v56 i k) * w (Cert.ReferenceIdeal.ReadP.ridx_main_v56 i k) := by
  simp only [Host.dotGeneral]
  rw [Ideal.dotGeneral_apply, ← Equiv.sum_comp (ValueIdx.contrEquiv1 Cert.ReferenceIdeal.dot_S100000x16_S16x16_S100000x16_1_0_0_1_n_n 16 rfl rfl).symm]
  refine Finset.sum_congr rfl fun k _ => ?_
  have hk := ValueIdx.contrEquiv1_symm_val Cert.ReferenceIdeal.dot_S100000x16_S16x16_S100000x16_1_0_0_1_n_n 16 rfl rfl k
  have el : Cert.ReferenceIdeal.dot_S100000x16_S16x16_S100000x16_1_0_0_1_n_n.lhsIdx i ((ValueIdx.contrEquiv1 Cert.ReferenceIdeal.dot_S100000x16_S16x16_S100000x16_1_0_0_1_n_n 16 rfl rfl).symm k) = Cert.ReferenceIdeal.ReadP.lidx_main_v56 i k := funext fun a => Fin.ext (by
    match a with
    | ⟨0, _⟩ => exact Cert.ReferenceIdeal.ReadP.lhs_main_v56_0 _ _
    | ⟨1, _⟩ => exact (Cert.ReferenceIdeal.ReadP.lhs_main_v56_1 _ _).trans hk)
  have er : Cert.ReferenceIdeal.dot_S100000x16_S16x16_S100000x16_1_0_0_1_n_n.rhsIdx i ((ValueIdx.contrEquiv1 Cert.ReferenceIdeal.dot_S100000x16_S16x16_S100000x16_1_0_0_1_n_n 16 rfl rfl).symm k) = Cert.ReferenceIdeal.ReadP.ridx_main_v56 i k := funext fun a => Fin.ext (by
    match a with
    | ⟨0, _⟩ => exact (Cert.ReferenceIdeal.ReadP.rhs_main_v56_0 _ _).trans hk
    | ⟨1, _⟩ => exact Cert.ReferenceIdeal.ReadP.rhs_main_v56_1 _ _)
  rw [el, er]

/-- Entry by entry, h·W1 + b1 is the host's product of h and W1 plus its bias laid along the rows. -/
theorem G2_4_eq (A0 : S100000x16.Idx → Elt Ideal .f32) (A1 : S16x16.Idx → Elt Ideal .f32) (A2 : S16.Idx → Elt Ideal .f32) :
    G2_4 A0 A1 A2 = addf (F := Ideal) (Host.dotGeneral (F := Ideal) (φ₁ := .f32) (φ₂ := .f32) Cert.ReferenceIdeal.dot_S100000x16_S16x16_S100000x16_1_0_0_1_n_n none A0 A1)
      (Cert.ReferenceIdeal.ReadP.val_main_v58 (F := Ideal) A2) := by
  funext i
  refine Eq.symm ?_
  show FloatOps.addf (F := Ideal) (φ := .f32) (Host.dotGeneral (F := Ideal) (φ₁ := .f32) (φ₂ := .f32) Cert.ReferenceIdeal.dot_S100000x16_S16x16_S100000x16_1_0_0_1_n_n none A0 A1 i)
    (Cert.ReferenceIdeal.ReadP.val_main_v58 (F := Ideal) A2 i) = _
  rw [hostDot2_apply, Cert.ReferenceIdeal.ReadP.val_main_v58_apply, Cert.ReferenceIdeal.ReadP.val_main_v57_apply]
  unfold G2_4
  refine congrArg₂ (FloatOps.addf (F := Ideal) (φ := .f32)) (Finset.sum_congr rfl fun k _ => congrArg₂ (· * ·) (congrArg A0 ?_) (congrArg A1 ?_)) (congrArg A2 ?_)
  · funext a; match a with | ⟨0, _⟩ => rfl | ⟨1, _⟩ => rfl
  · funext a; match a with | ⟨0, _⟩ => rfl | ⟨1, _⟩ => rfl
  · funext a; match a with | ⟨0, _⟩ => rfl

/-- Entry by entry, h·W2 is the host's product of h and W2. -/
theorem G2_5_eq (A0 : S100000x16.Idx → Elt Ideal .f32) (A3 : S16x16.Idx → Elt Ideal .f32) :
    G2_5 A0 A3 = Host.dotGeneral (F := Ideal) (φ₁ := .f32) (φ₂ := .f32) Cert.ReferenceIdeal.dot_S100000x16_S16x16_S100000x16_1_0_0_1_n_n none A0 A3 := by
  funext i
  refine Eq.symm ?_
  rw [hostDot2_apply]
  unfold G2_5
  refine Finset.sum_congr rfl fun k _ => congrArg₂ (· * ·) (congrArg A0 ?_) (congrArg A3 ?_)
  · funext a; match a with | ⟨0, _⟩ => rfl | ⟨1, _⟩ => rfl
  · funext a; match a with | ⟨0, _⟩ => rfl | ⟨1, _⟩ => rfl

/-- After the region, output window 4's array (`main_v52_0`) is h·W1 + b1, `h` the array `main_v51` as the region finds it. -/
theorem final2_4 (c : Dev nD) :
    (dat2 (F := Ideal) V c).arrAt 4 cfg2.N
      = addf (F := Ideal) (Host.dotGeneral (F := Ideal) (φ₁ := .f32) (φ₂ := .f32) Cert.ReferenceIdeal.dot_S100000x16_S16x16_S100000x16_1_0_0_1_n_n none (V c main_v51) (V c main_arg6))
          (Cert.ReferenceIdeal.ReadP.val_main_v58 (F := Ideal) (V c main_arg7)) :=
  (arr2_4 V c).trans (G2_4_eq _ _ _)

/-- After the region, output window 5's array (`main_v52_1`) is h·W2. -/
theorem final2_5 (c : Dev nD) :
    (dat2 (F := Ideal) V c).arrAt 5 cfg2.N
      = Host.dotGeneral (F := Ideal) (φ₁ := .f32) (φ₂ := .f32) Cert.ReferenceIdeal.dot_S100000x16_S16x16_S100000x16_1_0_0_1_n_n none (V c main_v51) (V c main_arg8) :=
  (arr2_5 V c).trans (G2_5_eq _ _)

end Cert.KernelIdeal.Reg

end
-- ==== Proof.KI.Val3.lean ====
/-
  The value of region 3 at the exact-real instance: the array the region leaves in its output window, as ONE whole-array
  function of the two arrays it reads — max(center + aggr, 0), entry by entry — in the host operations' own vocabulary.

  The road: what one grid point writes back is the body's payload of the two input blocks; the payload at an entry is
  max(x0 + x1, 0) of the blocks' entries there; the three windows cut their arrays the same way (point t owns rows
  2000·t … 2000·t + 1999, all 16 columns), so an entry of an input block is the array's entry at the place the output
  block's entry goes to; and the 50 blocks tile the 100000 rows (row r lies in block r / 2000). Hence the array ends as
  the entrywise function of the two arrays.
-/
import proofs.«401038_j80255758893589_2_alg».proof.Proof.KI.R3
import proofs.«401038_j80255758893589_2_alg».proof.Proof.RefRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (V : (c : Dev nD) → (b : Ref sig .tc) → Buf (Elt Ideal) ((c : Thread nD τ).loc b))

/-- The store's offsets (0, 0) are the zero offsets. -/
theorem zero_off3 : (![0, 0] : Fin 2 → Nat) = fun _ => 0 := funext fun a => by
  match a with
  | ⟨0, _⟩ => rfl
  | ⟨1, _⟩ => rfl

/-- max(a + b, 0), entry by entry, of two whole 100000×16 arrays. -/
abbrev relu3 (a b : S100000x16.Idx → Ideal .f32) : S100000x16.Idx → Ideal .f32 :=
  fun i => FloatOps.maximumf (F := Ideal) (FloatOps.addf (F := Ideal) (a i) (b i)) (FloatOps.ofBits (F := Ideal) .f32 0x00000000#32)

/-- The body's payload at an entry of the block is max(x0 + x1, 0) of the two blocks' entries there: the two casts
    are to the same shape, the sum and the maximum are entrywise, and the maximum's other operand is the
    constant 0 at every entry. -/
theorem pay3_apply (x0 x1 : Vec Ideal S2000x16 .f32) (j : S2000x16.Idx) :
    k3_pay1 (F := Ideal) x0 x1 j
      = FloatOps.maximumf (F := Ideal) (FloatOps.addf (F := Ideal) (x0 j) (x1 j)) (FloatOps.ofBits (F := Ideal) .f32 0x00000000#32) := by
  unfold k3_pay1
  simp only [shapeCast_self]
  rfl

/-- The three windows' index maps, decided over the 50 grid points: at point t each names block (t, 0). -/
theorem idxfact3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- WHAT POINT t WRITES BACK is block t of relu3 of the two arrays the region reads: the payload at entry j of
    the block is max(x0 j + x1 j, 0), and entry j of either input block is the array's entry at row
    2000·t + j₀, column j₁ — the place entry j of the output block goes to. -/
theorem flushed3_2_eq (c : Dev nD) (t : Fin cfg3.N) :
    (dat3 (F := Ideal) V c).flushed 2 t
      = ((cfg3.win 2).blk t).view.read (Elt Ideal) (relu3 (V c main_v52_0) (V c main_v73)) := by
  show (cfg3.win 2).cut (grid3.coords t) ((dat3 (F := Ideal) V c).after 2 t) = _
  rw [after3_2]
  unfold out3_2
  rw [View.canon_unit_zero zero_off3]
  simp only [View.ld_unit_zero (S := S2000x16) zero_off3]
  obtain ⟨e00, e01, e10, e11, e20, e21⟩ := idxfact3 t
  funext j
  refine (pay3_apply (iblk3 V c 0 t) (iblk3 V c 1 t) j).trans ?_
  show FloatOps.maximumf (F := Ideal) (FloatOps.addf (F := Ideal) (V c main_v52_0 (((cfg3.win 0).blk t).view.emb j)) (V c main_v73 (((cfg3.win 1).blk t).view.emb j))) _
    = FloatOps.maximumf (F := Ideal) (FloatOps.addf (F := Ideal) (V c main_v52_0 (((cfg3.win 2).blk t).view.emb j)) (V c main_v73 (((cfg3.win 2).blk t).view.emb j))) _
  have h0 : ((cfg3.win 0).blk t).view.emb j = ((cfg3.win 2).blk t).view.emb j := by
    funext a; apply Fin.ext
    match a with
    | ⟨0, _⟩ => show win3_0.index t (0 : Fin 2) * 2000 + 1 * (j 0).val = win3_2.index t (0 : Fin 2) * 2000 + 1 * (j 0).val; omega
    | ⟨1, _⟩ => show win3_0.index t (1 : Fin 2) * 16 + 1 * (j 1).val = win3_2.index t (1 : Fin 2) * 16 + 1 * (j 1).val; omega
  have h1 : ((cfg3.win 1).blk t).view.emb j = ((cfg3.win 2).blk t).view.emb j := by
    funext a; apply Fin.ext
    match a with
    | ⟨0, _⟩ => show win3_1.index t (0 : Fin 2) * 2000 + 1 * (j 0).val = win3_2.index t (0 : Fin 2) * 2000 + 1 * (j 0).val; omega
    | ⟨1, _⟩ => show win3_1.index t (1 : Fin 2) * 16 + 1 * (j 1).val = win3_2.index t (1 : Fin 2) * 16 + 1 * (j 1).val; omega
  rw [h0, h1]

/-- An entry of the array is in point t's block iff each coordinate is in the block's range on its axis. -/
theorem mem_blk3_2 (t : Fin cfg3.N) (i : S100000x16.Idx) :
    i ∈ ((cfg3.win 2).blk t).view.set ↔ ∀ a : Fin 2, win3_2.index t a * S2000x16.size a ≤ (i a).val ∧ (i a).val < win3_2.index t a * S2000x16.size a + S2000x16.size a := by
  show i ∈ ((View.whole main_v74).slice (win3_2.rect t)).set ↔ _
  rw [View.set_slice_whole, Rect.mem_set_unit]
  exact Iff.rfl

/-- Every entry of the array is in some point's block, and every point writes its block back: row r lies in
    block r / 2000 (2000·(r / 2000) ≤ r < 2000·(r / 2000) + 2000, and r < 100000 gives r / 2000 < 50); the 16
    columns are one block. -/
theorem covered3_2 (i : S100000x16.Idx) :
    ∃ t : Fin cfg3.N, (cfg3.win 2).flush t = true ∧ i ∈ ((cfg3.win 2).blk t).view.set := by
  have hi0 : (i 0).val < 100000 := (i 0).isLt
  have hi1 : (i 1).val < 16 := (i 1).isLt
  have hq : (i 0).val / 2000 < 50 := by omega
  refine ⟨⟨(i 0).val / 2000, hq⟩, flush3_2 _, ?_⟩
  rw [mem_blk3_2]
  obtain ⟨e00, e01, e10, e11, e20, e21⟩ := idxfact3 ⟨(i 0).val / 2000, hq⟩
  have e20' : win3_2.index ⟨(i 0).val / 2000, hq⟩ (0 : Fin 2) = (i 0).val / 2000 := e20
  intro a
  match a with
  | ⟨0, _⟩ => show win3_2.index ⟨(i 0).val / 2000, hq⟩ (0 : Fin 2) * 2000 ≤ (i 0).val ∧ (i 0).val < win3_2.index ⟨(i 0).val / 2000, hq⟩ (0 : Fin 2) * 2000 + 2000; omega
  | ⟨1, _⟩ => show win3_2.index ⟨(i 0).val / 2000, hq⟩ (1 : Fin 2) * 16 ≤ (i 1).val ∧ (i 1).val < win3_2.index ⟨(i 0).val / 2000, hq⟩ (1 : Fin 2) * 16 + 16; omega

/-- The host operations' term for the same function — the entrywise maximum of the entrywise sum and the
    broadcast of the scalar constant 0 — is relu3: read at an entry, the broadcast is the constant. -/
theorem host_relu3 (a b : S100000x16.Idx → Ideal .f32) :
    maximumf (addf a b) (Cert.ReferenceIdeal.ReadP.val_main_call3_v0 (F := Ideal)) = relu3 a b := by
  funext i
  show FloatOps.maximumf (F := Ideal) (FloatOps.addf (F := Ideal) (a i) (b i)) (Cert.ReferenceIdeal.ReadP.val_main_call3_v0 (F := Ideal) i) = _
  rw [Cert.ReferenceIdeal.ReadP.val_main_call3_v0_apply]
  rfl

/-- After the region, output window 2's array (`main_v74`) is max(a + b, 0) entry by entry, `a` and `b` the two arrays the
    region reads (`main_v52_0`, `main_v73`) as it finds them. The shape and the float format of the entrywise sum and
    maximum are written out as the host program's own maximum has them (its 100000×16 shape, f32), so that this
    right side is, letter for letter, the host's term at these two arrays. -/
theorem final3_2 (c : Dev nD) :
    (dat3 (F := Ideal) V c).arrAt 2 cfg3.N
      = maximumf (F := Ideal) (s := (⟨Cert.ReferenceIdeal.S100000x16, .f32⟩ : BufTy).shape) (φ := .f32)
          (addf (F := Ideal) (s := (⟨Cert.ReferenceIdeal.S100000x16, .f32⟩ : BufTy).shape) (φ := .f32) (V c main_v52_0) (V c main_v73))
          (Cert.ReferenceIdeal.ReadP.val_main_call3_v0 (F := Ideal)) := by
  exact ((dat3 (F := Ideal) V c).arrAt_eq_of_cover 2 (relu3 (V c main_v52_0) (V c main_v73)) (fun t _ => flushed3_2_eq V c t) covered3_2).trans
    (host_relu3 (V c main_v52_0) (V c main_v73)).symm

end Cert.KernelIdeal.Reg

end
-- ==== Proof.KI.PoolSpec.lean ====
/-
  The pooled head as ONE whole-array function, in the host operations' own vocabulary: per graph id the sum of the node
  features with that id and the count of such nodes (two accumulating scatters by the id column), the mean with the
  count clamped below by one, then the two dense layers with a max(·, 0) between them. The node features `h` and
  the id column `ids` are parameters; the closed sub-terms are the reference program's own stages.
-/
import proofs.«401038_j80255758893589_2_alg».proof.Proof.RefRead

noncomputable section

namespace Cert.KernelIdeal.Reg

open Idealize.ShloMosaic Idealize.ShloMosaic.TcCoe

/-- Mean-pool `h` over the 64 graph ids of `ids` (ids outside 0..63 contribute nowhere), then apply the head. -/
def poolHead (h : FVec Ideal Cert.ReferenceIdeal.S100000x16 .f32) (ids : IVec Cert.ReferenceIdeal.S100000x1 32)
    (x9 : FVec Ideal Cert.ReferenceIdeal.S16x16 .f32) (x10 : FVec Ideal Cert.ReferenceIdeal.S16 .f32)
    (x11 : FVec Ideal Cert.ReferenceIdeal.S16x2 .f32) (x12 : FVec Ideal Cert.ReferenceIdeal.S2 .f32) :
    FVec Ideal Cert.ReferenceIdeal.S64x2 .f32 :=
  addf
    (Host.dotGeneral Cert.ReferenceIdeal.dot_S64x16_S16x2_S64x2_1_0_0_1_n_n none
      (maximumf
        (addf
          (Host.dotGeneral Cert.ReferenceIdeal.dot_S64x16_S16x16_S64x16_1_0_0_1_n_n none
            (Host.divf
              (Host.scatterAdd Cert.ReferenceIdeal.scatter_S64x16_S100000x1_S100000x16_1_0_0_1
                (Cert.ReferenceIdeal.ReadP.val_main_v112 (F := Ideal)) ids h)
              (broadcastInDim Cert.ReferenceIdeal.S64x16 ![0, 1] Cert.ReferenceIdeal.Gen.bcast_S64x1_S64x16_0_1
                (broadcastInDim Cert.ReferenceIdeal.S64x1 ![0] Cert.ReferenceIdeal.Gen.bcast_S64_S64x1_0
                  (maximumf
                    (Host.scatterAdd Cert.ReferenceIdeal.scatter_S64_S100000x1_S100000_n_0_0_1
                      (Cert.ReferenceIdeal.ReadP.val_main_v116 (F := Ideal)) ids (Cert.ReferenceIdeal.ReadP.val_main_v115 (F := Ideal)))
                    (Cert.ReferenceIdeal.ReadP.val_main_v119 (F := Ideal))))))
            x9)
          (Cert.ReferenceIdeal.ReadP.val_main_v126 (F := Ideal) x10))
        (Cert.ReferenceIdeal.ReadP.val_main_call4_v0 (F := Ideal)))
      x11)
    (Cert.ReferenceIdeal.ReadP.val_main_v131 (F := Ideal) x12)

end Cert.KernelIdeal.Reg

end
-- ==== Proof.KI.Val4Pay.lean ====
/-
  The payloads of region 4's accumulation read at an entry, at the exact-real instance. The one-hot matrix has, at row p
  and lane g, the real 1 when the id word of row p is the lane number g and the real 0 otherwise; the matrix product
  of its transpose with the block of node features is, at (g, f), the sum over the block's rows of that weight times
  the feature; with the all-ones column in place of the features it is the sum of the weights. Each payload adds that
  product to the scratch contents it is given; the two reset payloads are zero everywhere.
-/
import proofs.«401038_j80255758893589_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

/-- The weight of an id word against lane `g`: the real 1 when the word is the lane number, else the real 0. -/
def oh (w : BitVec 32) (g : Fin 64) : EReal := if w = BitVec.ofNat 32 g.val then 1 else 0

/-- The pattern of +0.0 denotes the real 0, that of 1.0 (in either format) the real 1. -/
theorem ofBits_f32_zero : Ideal.ofBits .f32 0x00000000#32 = 0 := by
  simp [Ideal.ofBits, Ideal.ieee]
theorem ofBits_f32_one : Ideal.ofBits .f32 0x3F800000#32 = 1 := by
  simp [Ideal.ofBits, Ideal.ieee, -EReal.coe_mul]; norm_num
theorem ofBits_bf16_one : Ideal.ofBits .bf16 0x3F80#16 = 1 := by
  simp [Ideal.ofBits, Ideal.ieee, -EReal.coe_mul]; norm_num

/-- Comparing two words for equality, widening the bit and converting it: the real 1 when they are equal, else 0. -/
theorem onehot_word (x y : BitVec 32) :
    FloatOps.sitofp (F := Ideal) .f32 ((IntOp.cmpi .eq x y).setWidth 32) = if x = y then (1 : EReal) else 0 := by
  by_cases h : x = y
  · subst h
    rw [if_pos rfl]
    have e : (IntOp.cmpi .eq x x).setWidth 32 = 1#32 := by simp [IntOp.cmpi]
    rw [e]
    show (((1#32 : BitVec 32).toInt : ℝ) : EReal) = 1
    have e1 : (1#32 : BitVec 32).toInt = 1 := by decide
    rw [e1]; simp
  · rw [if_neg h]
    have hb : (x == y) = false := beq_eq_false_iff_ne.mpr h
    have e : (IntOp.cmpi .eq x y).setWidth 32 = 0#32 := by
      show (BitVec.ofBool (x == y)).setWidth 32 = 0#32
      rw [hb]; decide
    rw [e]
    show (((0#32 : BitVec 32).toInt : ℝ) : EReal) = 0
    simp

/-- The one-hot matrix at row `p`, lane `g`: the weight of row `p`'s id word against `g`. -/
theorem k4pay3_apply (ids : Vec Ideal S2000x1 .i32) (p : Fin 2000) (g : Fin 64) :
    k4_pay3 (F := Ideal) ids (ix2 p g) = oh (ids (ix2 p 0)) g := by
  unfold k4_pay3
  simp only [shapeCast_self]
  have e1 : broadcastTo S2000x64 ids broadcasts_S2000x1_S2000x64 (ix2 p g) = ids (ix2 p 0) :=
    broadcastTo_apply ids broadcasts_S2000x1_S2000x64 (ix2 p g) (ix2 p 0) (fun a => match a with
      | ⟨0, _⟩ => by show p.val = if (2000 : Nat) = 1 then 0 else p.val; rw [if_neg (by decide)]
      | ⟨1, _⟩ => by show 0 = if (1 : Nat) = 1 then 0 else g.val; rw [if_pos rfl])
  have e2 : broadcastTo S2000x64 (iota .tc S1x64 32 [1] iota_S1x64_d1_w32) broadcasts_S1x64_S2000x64 (ix2 p g) = BitVec.ofNat 32 g.val :=
    (broadcastTo_apply (iota .tc S1x64 32 [1] iota_S1x64_d1_w32) broadcasts_S1x64_S2000x64 (ix2 p g) (ix2 0 g) (fun a => match a with
      | ⟨0, _⟩ => by show 0 = if (1 : Nat) = 1 then 0 else p.val; rw [if_pos rfl]
      | ⟨1, _⟩ => by show g.val = if (64 : Nat) = 1 then 0 else g.val; rw [if_neg (by decide)])).trans
      (iota_single_apply .tc S1x64 32 1 iota_S1x64_d1_w32 (ix2 0 g))
  show FloatOps.sitofp (F := Ideal) .f32 ((IntOp.cmpi .eq (broadcastTo S2000x64 ids broadcasts_S2000x1_S2000x64 (ix2 p g))
      (broadcastTo S2000x64 (iota .tc S1x64 32 [1] iota_S1x64_d1_w32) broadcasts_S1x64_S2000x64 (ix2 p g))).setWidth 32) = _
  rw [e1, e2]
  exact onehot_word _ _

/-- The feature product's dimension numbers: both operands contract their rows. -/
abbrev dF : DotDims S2000x64 S2000x16 S64x16 := dot_S2000x64_S2000x16_S64x16_0_0_1_1_n_n
/-- The count product's dimension numbers. -/
abbrev dN : DotDims S2000x64 S2000x1 S64x1 := dot_S2000x64_S2000x1_S64x1_0_0_1_1_n_n

theorem dF_lhs0 (i : S64x16.Idx) (q : dF.contr.Idx) : (dF.lhsIdx i q 0).val = (q ⟨0, by decide⟩).val :=
  dF.lhsIdx_val_of_single rfl i q
theorem dF_lhs1 (i : S64x16.Idx) (q : dF.contr.Idx) : (dF.lhsIdx i q 1).val = (i 0).val := by
  unfold DotDims.lhsIdx
  rw [dif_neg (show ¬(1 : Fin S2000x64.rank) ∈ dF.lhsBatch by decide), dif_pos (show (1 : Fin S2000x64.rank) ∈ dF.lhsNonContracting by decide)]
  rfl
theorem dF_rhs0 (i : S64x16.Idx) (q : dF.contr.Idx) : (dF.rhsIdx i q 0).val = (q ⟨0, by decide⟩).val :=
  dF.rhsIdx_val_of_single rfl i q
theorem dF_rhs1 (i : S64x16.Idx) (q : dF.contr.Idx) : (dF.rhsIdx i q 1).val = (i 1).val := by
  unfold DotDims.rhsIdx
  rw [dif_neg (show ¬(1 : Fin S2000x16.rank) ∈ dF.rhsBatch by decide), dif_pos (show (1 : Fin S2000x16.rank) ∈ dF.rhsNonContracting by decide)]
  rfl

theorem dN_lhs0 (i : S64x1.Idx) (q : dN.contr.Idx) : (dN.lhsIdx i q 0).val = (q ⟨0, by decide⟩).val :=
  dN.lhsIdx_val_of_single rfl i q
theorem dN_lhs1 (i : S64x1.Idx) (q : dN.contr.Idx) : (dN.lhsIdx i q 1).val = (i 0).val := by
  unfold DotDims.lhsIdx
  rw [dif_neg (show ¬(1 : Fin S2000x64.rank) ∈ dN.lhsBatch by decide), dif_pos (show (1 : Fin S2000x64.rank) ∈ dN.lhsNonContracting by decide)]
  rfl

/-- The product of the one-hot matrix's transpose with a block of features, into the zero accumulator, at (g, f):
    the sum over the block's rows of the row's weight against g times the row's feature at f. -/
theorem onehot_matmul_apply (x : Vec Ideal S2000x16 .f32) (ids : Vec Ideal S2000x1 .i32) (g : Fin 64) (f : Fin 16) :
    FloatOps.matmul (F := Ideal) dF none (k4_pay3 (F := Ideal) ids) (truncf .bf16 x bitsLt_bf16_f32) (constant S64x16 .f32 0x00000000#32) (ix2 g f)
      = ∑ p : Fin 2000, oh (ids (ix2 p 0)) g * x (ix2 p f) := by
  rw [Ideal.matmul_constant_zero_apply, ← Equiv.sum_comp (contrEquiv1 dF 2000 rfl rfl).symm]
  refine Finset.sum_congr rfl fun k _ => ?_
  have hk := contrEquiv1_symm_val dF 2000 rfl rfl k
  have el : dF.lhsIdx (ix2 g f) ((contrEquiv1 dF 2000 rfl rfl).symm k) = ix2 k g := funext fun a => Fin.ext (by
    match a with
    | ⟨0, _⟩ => exact (dF_lhs0 _ _).trans hk
    | ⟨1, _⟩ => exact dF_lhs1 _ _)
  have er : dF.rhsIdx (ix2 g f) ((contrEquiv1 dF 2000 rfl rfl).symm k) = ix2 k f := funext fun a => Fin.ext (by
    match a with
    | ⟨0, _⟩ => exact (dF_rhs0 _ _).trans hk
    | ⟨1, _⟩ => exact dF_rhs1 _ _)
  rw [el, er, k4pay3_apply]
  rfl

/-- The feature accumulation at (g, f): what the scratch held there plus the block's weighted sum. -/
theorem k4pay4_apply (x : Vec Ideal S2000x16 .f32) (ids : Vec Ideal S2000x1 .i32) (prev : Vec Ideal S64x16 .f32) (g : Fin 64) (f : Fin 16) :
    k4_pay4 (F := Ideal) x ids prev (ix2 g f) = prev (ix2 g f) + ∑ p : Fin 2000, oh (ids (ix2 p 0)) g * x (ix2 p f) := by
  unfold k4_pay4
  simp only [shapeCast_self]
  exact congrArg (prev (ix2 g f) + ·) (onehot_matmul_apply x ids g f)

/-- The product of the one-hot matrix's transpose with the all-ones column, into the zero accumulator, at (g, 0):
    the sum over the block's rows of the row's weight against g. -/
theorem onehot_count_apply (ids : Vec Ideal S2000x1 .i32) (g : Fin 64) :
    FloatOps.matmul (F := Ideal) dN none (k4_pay3 (F := Ideal) ids) (broadcast S2000x1 (Scalar.ofBits (F := Ideal) .bf16 0x3F80#16)) (constant S64x1 .f32 0x00000000#32) (ix2 g 0)
      = ∑ p : Fin 2000, oh (ids (ix2 p 0)) g := by
  rw [Ideal.matmul_constant_zero_apply, ← Equiv.sum_comp (contrEquiv1 dN 2000 rfl rfl).symm]
  refine Finset.sum_congr rfl fun k _ => ?_
  have hk := contrEquiv1_symm_val dN 2000 rfl rfl k
  have el : dN.lhsIdx (ix2 g 0) ((contrEquiv1 dN 2000 rfl rfl).symm k) = ix2 k g := funext fun a => Fin.ext (by
    match a with
    | ⟨0, _⟩ => exact (dN_lhs0 _ _).trans hk
    | ⟨1, _⟩ => exact dN_lhs1 _ _)
  rw [el, k4pay3_apply]
  show oh (ids (ix2 k 0)) g * Ideal.ofBits .bf16 0x3F80#16 = _
  rw [ofBits_bf16_one, mul_one]

/-- The count accumulation at (g, 0): what the scratch held there plus the block's sum of weights. -/
theorem k4pay5_apply (ids : Vec Ideal S2000x1 .i32) (prev : Vec Ideal S64x1 .f32) (g : Fin 64) :
    k4_pay5 (F := Ideal) ids prev (ix2 g 0) = prev (ix2 g 0) + ∑ p : Fin 2000, oh (ids (ix2 p 0)) g := by
  unfold k4_pay5
  simp only [shapeCast_self]
  exact congrArg (prev (ix2 g 0) + ·) (onehot_count_apply ids g)

/-- The two reset payloads are the real 0 at every entry. -/
theorem k4pay1_apply (i : S64x16.Idx) : k4_pay1 (F := Ideal) i = 0 := by
  unfold k4_pay1
  simp only [shapeCast_self]
  exact ofBits_f32_zero
theorem k4pay2_apply (i : S64x1.Idx) : k4_pay2 (F := Ideal) i = 0 := by
  unfold k4_pay2
  simp only [shapeCast_self]
  exact ofBits_f32_zero

end Cert.KernelIdeal.Reg

end
-- ==== Proof.KI.Val4Sum.lean ====
/-
  Sums over the 100000 nodes regrouped as 50 blocks of 2000 rows, and the closed form of an accumulation that adds one
  block's contribution per grid point: after the last point the accumulator holds the sum over all blocks. A sum
  weighted by a 0/1 indicator is the sum over the indicated rows.
-/
import Mathlib.Algebra.BigOperators.Fin
import Mathlib.Algebra.BigOperators.Group.Finset.Basic
import Mathlib.Data.EReal.Basic

namespace Cert.KernelIdeal.Reg.PoolSum

open scoped BigOperators

/-- Row `p` of block `t` among the 100000 rows. -/
def row (t : Fin 50) (p : Fin 2000) : Fin 100000 :=
  ⟨2000 * t.val + p.val, by have := t.isLt; have := p.isLt; omega⟩

theorem row_val (t : Fin 50) (p : Fin 2000) : (row t p).val = 2000 * t.val + p.val := rfl

/-- A sum over all rows is the sum over the blocks of the sums over each block's rows. -/
theorem sum_blocks {M : Type*} [AddCommMonoid M] (G : Fin 100000 → M) :
    ∑ t : Fin 50, ∑ p : Fin 2000, G (row t p) = ∑ r : Fin 100000, G r := by
  rw [← Fintype.sum_prod_type']
  refine Fintype.sum_equiv (finProdFinEquiv (m := 50) (n := 2000)) _ _ fun x => ?_
  refine congrArg G (Fin.ext ?_)
  show 2000 * x.1.val + x.2.val = x.2.val + 2000 * x.1.val
  omega

/-- An accumulator that starts at the first block's contribution and adds the next block's at every later point holds,
    after the last point, the sum of all contributions. -/
theorem acc_closed {M : Type*} [AddCommMonoid M] (B : Fin 50 → M) (a : (n : ℕ) → n < 50 → M)
    (h0 : ∀ h, a 0 h = B ⟨0, h⟩)
    (hs : ∀ n (h : n + 1 < 50), a (n + 1) h = a n (Nat.lt_of_succ_lt h) + B ⟨n + 1, h⟩) :
    a 49 (by decide) = ∑ t : Fin 50, B t := by
  have key : ∀ n (h : n < 50), a n h = ∑ t ∈ Finset.univ.filter (fun t : Fin 50 => t.val ≤ n), B t := by
    intro n
    induction n with
    | zero =>
      intro h
      rw [h0]
      have e : Finset.univ.filter (fun t : Fin 50 => t.val ≤ 0) = {⟨0, h⟩} := by
        ext t
        rw [Finset.mem_filter, Finset.mem_singleton]
        constructor
        · rintro ⟨_, ht⟩; exact Fin.ext (Nat.le_zero.mp ht)
        · rintro rfl; exact ⟨Finset.mem_univ _, le_refl _⟩
      rw [e, Finset.sum_singleton]
    | succ n ih =>
      intro h
      rw [hs, ih]
      have e : Finset.univ.filter (fun t : Fin 50 => t.val ≤ n + 1)
          = insert ⟨n + 1, h⟩ (Finset.univ.filter (fun t : Fin 50 => t.val ≤ n)) := by
        ext t
        rw [Finset.mem_filter, Finset.mem_insert, Finset.mem_filter]
        constructor
        · rintro ⟨_, ht⟩
          by_cases h' : t.val = n + 1
          · left; exact Fin.ext h'
          · right; exact ⟨Finset.mem_univ _, by omega⟩
        · rintro (rfl | ⟨_, ht⟩)
          · exact ⟨Finset.mem_univ _, le_refl _⟩
          · exact ⟨Finset.mem_univ _, by omega⟩
      have hn : (⟨n + 1, h⟩ : Fin 50) ∉ Finset.univ.filter (fun t : Fin 50 => t.val ≤ n) := fun hm => by
        have h' : n + 1 ≤ n := (Finset.mem_filter.mp hm).2
        omega
      rw [e, Finset.sum_insert hn, add_comm]
  rw [key]
  refine Finset.sum_congr (Finset.filter_true_of_mem fun t _ => ?_) fun _ _ => rfl
  have := t.isLt; omega

/-- Weighting by a 0/1 indicator keeps exactly the indicated terms: on the extended reals `0 * x = 0` and
    `1 * x = x` for every `x`, the infinite ones included. -/
theorem ind_mul (P : Prop) [Decidable P] (x : EReal) : (if P then (1 : EReal) else 0) * x = if P then x else 0 := by
  split_ifs
  · exact one_mul x
  · exact zero_mul x

/-- Over a pair of coordinates, the terms whose first coordinate is indicated and whose second is `f`: the
    indicated rows' terms at `f`. -/
theorem sum_pair_ind {n m : ℕ} (P : Fin n → Prop) [DecidablePred P] (f : Fin m) (x : Fin n → Fin m → EReal) :
    ∑ r : Fin n, ∑ f' : Fin m, (if P r ∧ f' = f then x r f' else 0)
      = ∑ r : Fin n, (if P r then (1 : EReal) else 0) * x r f := by
  refine Finset.sum_congr rfl fun r _ => ?_
  rw [ind_mul]
  by_cases hP : P r
  · simp [hP]
  · simp [hP]

end Cert.KernelIdeal.Reg.PoolSum
-- ==== Proof.KI.Val4Acc.lean ====
/-
  The scratch contents of region 4 after the last grid point, at the exact-real instance, as sums over ALL nodes: the
  feature scratch at (g, f) is the sum over the 100000 rows of the row's weight against g (1 when the row's id word is
  g, else 0) times the row's feature at f; the count scratch at (g, 0) is the sum of the weights. Point t's blocks are
  rows 2000·t … 2000·t + 1999 of the two arrays; each point adds its block's weighted sum to what the point before
  left, the first to zero; the 50 block sums regroup to the sum over all rows.
-/
import proofs.«401038_j80255758893589_2_alg».proof.Proof.KI.R4
import proofs.«401038_j80255758893589_2_alg».proof.Proof.KI.Val4Pay
import proofs.«401038_j80255758893589_2_alg».proof.Proof.KI.Val4Sum

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (V : (c : Dev nD) → (b : Ref sig .tc) → Buf (Elt Ideal) ((c : Thread nD τ).loc b))

/-- The node features and the id column as the region finds them, and their blocks at point `t`. -/
abbrev harr4 (c : Dev nD) : Vec Ideal S100000x16 .f32 := V c main_v74
abbrev idarr4 (c : Dev nD) : Vec Ideal S100000x1 .i32 := V c main_v4
abbrev hblk4 (c : Dev nD) (t : Fin cfg4.N) : Vec Ideal S2000x16 .f32 := iblk4 V c 0 t
abbrev idblk4 (c : Dev nD) (t : Fin cfg4.N) : Vec Ideal S2000x1 .i32 := iblk4 V c 1 t

/-- The seven windows' index maps, decided over the 50 grid points: the two streamed windows name block (t, 0), the
    weight windows and the output window their one whole-array block. -/
theorem idxfact4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 1) = 0
    ∧ win4_4.index t (0 : Fin 2) = 0 ∧ win4_4.index t (1 : Fin 2) = 0
    ∧ win4_5.index t (0 : Fin 1) = 0
    ∧ win4_6.index t (0 : Fin 2) = 0 ∧ win4_6.index t (1 : Fin 2) = 0 :=
  (by decide +kernel : ∀ t : Fin grid4.N, _)

/-- Entry (p, f) of point t's feature block is the array's entry at row 2000·t + p, column f. -/
theorem hblk4_apply (c : Dev nD) (t : Fin cfg4.N) (p : Fin 2000) (f : Fin 16) :
    hblk4 V c t (ix2 p f) = harr4 V c (ix2 (PoolSum.row t p) f) := by
  obtain ⟨e00, e01, -⟩ := idxfact4 t
  show V c main_v74 (((cfg4.win 0).blk t).view.emb (ix2 p f)) = V c main_v74 (ix2 (PoolSum.row t p) f)
  refine congrArg (V c main_v74) (funext fun a => Fin.ext ?_)
  match a with
  | ⟨0, _⟩ => show win4_0.index t (0 : Fin 2) * 2000 + 1 * p.val = 2000 * t.val + p.val; omega
  | ⟨1, _⟩ => show win4_0.index t (1 : Fin 2) * 16 + 1 * f.val = f.val; omega

/-- Entry (p, 0) of point t's id block is the id column's entry at row 2000·t + p. -/
theorem idblk4_apply (c : Dev nD) (t : Fin cfg4.N) (p : Fin 2000) :
    idblk4 V c t (ix2 p 0) = idarr4 V c (ix2 (PoolSum.row t p) 0) := by
  obtain ⟨-, -, e10, e11, -⟩ := idxfact4 t
  show V c main_v4 (((cfg4.win 1).blk t).view.emb (ix2 p 0)) = V c main_v4 (ix2 (PoolSum.row t p) 0)
  refine congrArg (V c main_v4) (funext fun a => Fin.ext ?_)
  match a with
  | ⟨0, _⟩ => show win4_1.index t (0 : Fin 2) * 2000 + 1 * p.val = 2000 * t.val + p.val; omega
  | ⟨1, _⟩ => show win4_1.index t (1 : Fin 2) * 1 + 1 * 0 = 0; omega

/-- Block t's weighted feature sum at (g, f), over the arrays' rows. -/
abbrev blockSum4 (c : Dev nD) (g : Fin 64) (f : Fin 16) (t : Fin 50) : EReal :=
  ∑ p : Fin 2000, oh (idarr4 V c (ix2 (PoolSum.row t p) 0)) g * harr4 V c (ix2 (PoolSum.row t p) f)
/-- Block t's sum of weights against g. -/
abbrev blockCnt4 (c : Dev nD) (g : Fin 64) (t : Fin 50) : EReal :=
  ∑ p : Fin 2000, oh (idarr4 V c (ix2 (PoolSum.row t p) 0)) g

/-- The feature payload on point t's blocks at (g, f): the scratch contents plus block t's weighted sum. -/
theorem pay4_blk (c : Dev nD) (t : Fin cfg4.N) (prev : Vec Ideal S64x16 .f32) (g : Fin 64) (f : Fin 16) :
    k4_pay4 (F := Ideal) (hblk4 V c t) (idblk4 V c t) prev (ix2 g f) = prev (ix2 g f) + blockSum4 V c g f t := by
  refine (k4pay4_apply (hblk4 V c t) (idblk4 V c t) prev g f).trans ?_
  refine congrArg (prev (ix2 g f) + ·) (Finset.sum_congr rfl fun p _ => ?_)
  rw [hblk4_apply, idblk4_apply]

/-- The count payload on point t's id block at (g, 0): the scratch contents plus block t's sum of weights. -/
theorem pay5_blk (c : Dev nD) (t : Fin cfg4.N) (prev : Vec Ideal S64x1 .f32) (g : Fin 64) :
    k4_pay5 (F := Ideal) (idblk4 V c t) prev (ix2 g 0) = prev (ix2 g 0) + blockCnt4 V c g t := by
  refine (k4pay5_apply (idblk4 V c t) prev g).trans ?_
  refine congrArg (prev (ix2 g 0) + ·) (Finset.sum_congr rfl fun p _ => ?_)
  rw [idblk4_apply]

/-- After the last point the feature scratch holds, at (g, f), the weighted sum over all 100000 rows. -/
theorem acc4_sum (c : Dev nD) (g : Fin 64) (f : Fin 16) :
    (acc4 (F := Ideal) V c 49 (by decide)).1 (ix2 g f)
      = ∑ r : Fin 100000, oh (idarr4 V c (ix2 r 0)) g * harr4 V c (ix2 r f) := by
  have key := PoolSum.acc_closed (blockSum4 V c g f) (fun n h => (acc4 (F := Ideal) V c n h).1 (ix2 g f))
    (fun h => by
      have h' : 0 < cfg4.N := h
      show (acc4 (F := Ideal) V c 0 h').1 (ix2 g f) = blockSum4 V c g f ⟨0, h⟩
      rw [acc4_zero]
      refine (pay4_blk V c ⟨0, h'⟩ (k4_pay1 (F := Ideal)) g f).trans ?_
      rw [k4pay1_apply, zero_add]
      rfl)
    (fun n h => by
      have h' : n + 1 < cfg4.N := h
      show (acc4 (F := Ideal) V c (n + 1) h').1 (ix2 g f)
        = (acc4 (F := Ideal) V c n (Nat.lt_of_succ_lt h')).1 (ix2 g f) + blockSum4 V c g f ⟨n + 1, h⟩
      rw [acc4_succ]
      exact pay4_blk V c ⟨n + 1, h'⟩ (acc4 (F := Ideal) V c n (Nat.lt_of_succ_lt h')).1 g f)
  refine key.trans ?_
  exact PoolSum.sum_blocks (fun r => oh (idarr4 V c (ix2 r 0)) g * harr4 V c (ix2 r f))

/-- After the last point the count scratch holds, at (g, 0), the sum of the weights over all 100000 rows. -/
theorem acc4_cnt (c : Dev nD) (g : Fin 64) :
    (acc4 (F := Ideal) V c 49 (by decide)).2 (ix2 g 0)
      = ∑ r : Fin 100000, oh (idarr4 V c (ix2 r 0)) g := by
  have key := PoolSum.acc_closed (blockCnt4 V c g) (fun n h => (acc4 (F := Ideal) V c n h).2 (ix2 g 0))
    (fun h => by
      have h' : 0 < cfg4.N := h
      show (acc4 (F := Ideal) V c 0 h').2 (ix2 g 0) = blockCnt4 V c g ⟨0, h⟩
      rw [acc4_zero]
      refine (pay5_blk V c ⟨0, h'⟩ (k4_pay2 (F := Ideal)) g).trans ?_
      rw [k4pay2_apply, zero_add]
      rfl)
    (fun n h => by
      have h' : n + 1 < cfg4.N := h
      show (acc4 (F := Ideal) V c (n + 1) h').2 (ix2 g 0)
        = (acc4 (F := Ideal) V c n (Nat.lt_of_succ_lt h')).2 (ix2 g 0) + blockCnt4 V c g ⟨n + 1, h⟩
      rw [acc4_succ]
      exact pay5_blk V c ⟨n + 1, h'⟩ (acc4 (F := Ideal) V c n (Nat.lt_of_succ_lt h')).2 g)
  refine key.trans ?_
  exact PoolSum.sum_blocks (fun r => oh (idarr4 V c (ix2 r 0)) g)

end Cert.KernelIdeal.Reg

end
-- ==== Proof.KI.Val4Ref.lean ====
/-
  The reference's two accumulating scatters by the id column, read at an entry at the exact-real instance: an update
  row lands on graph row g exactly when its id word, read as a signed integer, is g (an id outside 0..63 lands
  nowhere), and keeps its column. So the scattered sum at (g, f) is the sum over all rows of the 0/1 weight of the
  row's id against g times the row's feature at f, and the scattered count at g is the sum of the weights.
-/
import proofs.«401038_j80255758893589_2_alg».proof.Proof.RefRead
import Idealize.ShloMosaic.Lib.ValueIdx
import Idealize.ShloMosaic.PureOps.Ideal.Laws

set_option maxRecDepth 16384

noncomputable section

namespace Cert.KernelIdeal.Reg.PoolRef

open Idealize.ShloMosaic Idealize.ShloMosaic.TcCoe
open Idealize.ShloMosaic.ValueIdx
open Cert.ReferenceIdeal

/-- The feature scatter's dimension numbers. -/
abbrev dS : ScatterDims S64x16 S100000x1 S100000x16 := scatter_S64x16_S100000x1_S100000x16_1_0_0_1
/-- The count scatter's dimension numbers. -/
abbrev dC : ScatterDims S64 S100000x1 S100000 := scatter_S64_S100000x1_S100000_n_0_0_1

theorem dS_start0 (j : S100000x16.Idx) (idx : IVec S100000x1 32) :
    dS.start j idx 0 = (idx (ix2 (j 0) 0)).toInt := by
  unfold ScatterDims.start
  rw [dif_pos (show (0 : Fin S64x16.rank) ∈ dS.scatterDimsToOperandDims by decide)]
  refine congrArg (fun k => (idx k).toInt) (funext fun b => Fin.ext ?_)
  match b with
  | ⟨0, _⟩ => rfl
  | ⟨1, _⟩ => rfl

theorem dS_start1 (j : S100000x16.Idx) (idx : IVec S100000x1 32) : dS.start j idx 1 = 0 := by
  unfold ScatterDims.start
  rw [dif_neg (show ¬ (1 : Fin S64x16.rank) ∈ dS.scatterDimsToOperandDims by decide)]

theorem dS_window0 (j : S100000x16.Idx) : dS.window j 0 = 0 := by
  unfold ScatterDims.window
  rw [dif_neg (show ¬ (0 : Fin S64x16.rank) ∈ dS.sKept by decide)]

theorem dS_window1 (j : S100000x16.Idx) : dS.window j 1 = (j 1).val := by
  unfold ScatterDims.window
  rw [dif_pos (show (1 : Fin S64x16.rank) ∈ dS.sKept by decide)]
  rfl

/-- An update entry (r, f') lands on entry (g, f) exactly when row r's id word, read signed, is g and f' is f. -/
theorem dS_result_iff (j : S100000x16.Idx) (idx : IVec S100000x1 32) (i : S64x16.Idx) :
    dS.resultIdx? j idx = some i ↔ (idx (ix2 (j 0) 0)).toInt = ((i 0).val : ℤ) ∧ (j 1).val = (i 1).val := by
  have hi0 : (i 0).val < 64 := (i 0).isLt
  have hi1 : (i 1).val < 16 := (i 1).isLt
  have hj1 : (j 1).val < 16 := (j 1).isLt
  unfold ScatterDims.resultIdx?
  split
  · rename_i h
    rw [Option.some.injEq]
    constructor
    · intro e
      have e0 : (dS.start j idx 0 + dS.window j 0).toNat = (i 0).val := congrArg (fun k : S64x16.Idx => (k 0).val) e
      have e1 : (dS.start j idx 1 + dS.window j 1).toNat = (i 1).val := congrArg (fun k : S64x16.Idx => (k 1).val) e
      have h0 := (h 0).1
      rw [dS_start0, dS_window0] at e0 h0
      rw [dS_start1, dS_window1] at e1
      constructor <;> omega
    · rintro ⟨e0, e1⟩
      funext a; apply Fin.ext
      match a with
      | ⟨0, _⟩ =>
        show (dS.start j idx 0 + dS.window j 0).toNat = (i 0).val
        rw [dS_start0, dS_window0]; omega
      | ⟨1, _⟩ =>
        show (dS.start j idx 1 + dS.window j 1).toNat = (i 1).val
        rw [dS_start1, dS_window1]; omega
  · rename_i h
    constructor
    · intro e; exact absurd e (by simp)
    · rintro ⟨e0, e1⟩
      exfalso; apply h; intro a
      match a with
      | ⟨0, _⟩ =>
        show 0 ≤ dS.start j idx 0 + dS.window j 0 ∧ dS.start j idx 0 + dS.window j 0 < ((64 : ℕ) : ℤ)
        rw [dS_start0, dS_window0]; omega
      | ⟨1, _⟩ =>
        show 0 ≤ dS.start j idx 1 + dS.window j 1 ∧ dS.start j idx 1 + dS.window j 1 < ((16 : ℕ) : ℤ)
        rw [dS_start1, dS_window1]; omega

theorem dC_start0 (j : S100000.Idx) (idx : IVec S100000x1 32) :
    dC.start j idx 0 = (idx (ix2 (j 0) 0)).toInt := by
  unfold ScatterDims.start
  rw [dif_pos (show (0 : Fin S64.rank) ∈ dC.scatterDimsToOperandDims by decide)]
  refine congrArg (fun k => (idx k).toInt) (funext fun b => Fin.ext ?_)
  match b with
  | ⟨0, _⟩ => rfl
  | ⟨1, _⟩ => rfl

theorem dC_window0 (j : S100000.Idx) : dC.window j 0 = 0 := by
  unfold ScatterDims.window
  rw [dif_neg (show ¬ (0 : Fin S64.rank) ∈ dC.sKept by decide)]

/-- An update entry r lands on entry g exactly when row r's id word, read signed, is g. -/
theorem dC_result_iff (j : S100000.Idx) (idx : IVec S100000x1 32) (i : S64.Idx) :
    dC.resultIdx? j idx = some i ↔ (idx (ix2 (j 0) 0)).toInt = ((i 0).val : ℤ) := by
  have hi0 : (i 0).val < 64 := (i 0).isLt
  unfold ScatterDims.resultIdx?
  split
  · rename_i h
    rw [Option.some.injEq]
    constructor
    · intro e
      have e0 : (dC.start j idx 0 + dC.window j 0).toNat = (i 0).val := congrArg (fun k : S64.Idx => (k 0).val) e
      have h0 := (h 0).1
      rw [dC_start0, dC_window0] at e0 h0
      omega
    · intro e0
      funext a; apply Fin.ext
      match a with
      | ⟨0, _⟩ =>
        show (dC.start j idx 0 + dC.window j 0).toNat = (i 0).val
        rw [dC_start0, dC_window0]; omega
  · rename_i h
    constructor
    · intro e; exact absurd e (by simp)
    · intro e0
      exfalso; apply h; intro a
      match a with
      | ⟨0, _⟩ =>
        show 0 ≤ dC.start j idx 0 + dC.window j 0 ∧ dC.start j idx 0 + dC.window j 0 < ((64 : ℕ) : ℤ)
        rw [dC_start0, dC_window0]; omega

/-- A 32-bit word read signed is the lane number g (below 64) exactly when it is the word of g. -/
theorem toInt_eq_lane (w : BitVec 32) (g : Fin 64) : w.toInt = (g.val : ℤ) ↔ w = BitVec.ofNat 32 g.val := by
  have hg : g.val < 64 := g.isLt
  have e : (BitVec.ofNat 32 g.val).toInt = (g.val : ℤ) := by
    have hn : (BitVec.ofNat 32 g.val).toNat = g.val := by
      rw [BitVec.toNat_ofNat]
      show g.val % 4294967296 = g.val
      omega
    have hlt : 2 * (BitVec.ofNat 32 g.val).toNat < 2 ^ 32 := by
      rw [hn]
      show 2 * g.val < 4294967296
      omega
    rw [BitVec.toInt_eq_toNat_of_lt hlt, hn]
  constructor
  · intro h; exact BitVec.eq_of_toInt_eq (h.trans e.symm)
  · rintro rfl; exact e

/-- A rank-1 index set is its coordinate's range, so a sum over it is the sum over the coordinate. -/
def idxEquiv1 {n : Nat} : (⟨1, ![n]⟩ : Shape).Idx ≃ Fin n where
  toFun i := i 0
  invFun p := ix1 p
  left_inv i := (eq_ix1 i).symm
  right_inv _ := rfl
theorem sum_idx1 {M : Type*} [AddCommMonoid M] {n : Nat} (x : (⟨1, ![n]⟩ : Shape).Idx → M) :
    ∑ i, x i = ∑ a : Fin n, x (ix1 a) := by
  rw [← Equiv.sum_comp (idxEquiv1 (n := n)).symm x]
  rfl

/-- The scattered feature sums at (g, f): the sum over all rows of the row's weight against g (1 when the row's id word
    is g, else 0) times the row's feature at f. -/
theorem scatter_feat_apply (ids : IVec S100000x1 32) (h : FVec Ideal S100000x16 .f32) (g : Fin 64) (f : Fin 16) :
    Host.scatterAdd (F := Ideal) (φ := .f32) dS (ReadP.val_main_v112 (F := Ideal)) ids h (ix2 g f)
      = ∑ r : Fin 100000, (if ids (ix2 r 0) = BitVec.ofNat 32 g.val then (1 : EReal) else 0) * h (ix2 r f) := by
  show Ideal.hostScatterAdd dS (ReadP.val_main_v112 (F := Ideal)) ids h (ix2 g f) = _
  unfold Ideal.hostScatterAdd
  rw [ReadP.val_main_v112_apply, ReadP.val_main_cst_26_apply]
  show Ideal.ofBits .f32 0x00000000#32 + _ = _
  rw [Ideal.ofBits_zero_f32, zero_add, Finset.sum_filter, sum_idx2]
  refine Finset.sum_congr rfl fun r _ => ?_
  have hiff : ∀ b : Fin 16, (dS.resultIdx? (ix2 r b) ids = some (ix2 g f))
      ↔ (ids (ix2 r 0) = BitVec.ofNat 32 g.val ∧ b = f) := fun b => by
    rw [dS_result_iff]
    show (ids (ix2 r 0)).toInt = (g.val : ℤ) ∧ b.val = f.val ↔ _
    rw [toInt_eq_lane, Fin.val_inj]
  simp only [hiff]
  by_cases hw : ids (ix2 r 0) = BitVec.ofNat 32 g.val
  · rw [if_pos hw, one_mul]
    simp only [hw, true_and]
    exact (Finset.sum_ite_eq' Finset.univ f (fun b => h (ix2 r b))).trans (if_pos (Finset.mem_univ _))
  · rw [if_neg hw, zero_mul]
    simp only [hw, false_and, if_false, Finset.sum_const_zero]

/-- The scattered counts at g: the sum over all rows of the row's weight against g. -/
theorem scatter_cnt_apply (ids : IVec S100000x1 32) (g : Fin 64) :
    Host.scatterAdd (F := Ideal) (φ := .f32) dC (ReadP.val_main_v116 (F := Ideal)) ids (ReadP.val_main_v115 (F := Ideal)) (ix1 g)
      = ∑ r : Fin 100000, (if ids (ix2 r 0) = BitVec.ofNat 32 g.val then (1 : EReal) else 0) := by
  show Ideal.hostScatterAdd dC (ReadP.val_main_v116 (F := Ideal)) ids (ReadP.val_main_v115 (F := Ideal)) (ix1 g) = _
  unfold Ideal.hostScatterAdd
  rw [ReadP.val_main_v116_apply, ReadP.val_main_cst_28_apply]
  show Ideal.ofBits .f32 0x00000000#32 + _ = _
  rw [Ideal.ofBits_zero_f32, zero_add, Finset.sum_filter, sum_idx1]
  refine Finset.sum_congr rfl fun r _ => ?_
  have hiff : (dC.resultIdx? (ix1 r) ids = some (ix1 g)) ↔ ids (ix2 r 0) = BitVec.ofNat 32 g.val := by
    rw [dC_result_iff]
    show (ids (ix2 r 0)).toInt = (g.val : ℤ) ↔ _
    rw [toInt_eq_lane]
  simp only [hiff]
  refine ite_congr rfl (fun _ => ?_) (fun _ => rfl)
  rw [ReadP.val_main_v115_apply, ReadP.val_main_cst_27_apply]
  show Ideal.ofBits .f32 0x3F800000#32 = 1
  simp [Ideal.ofBits, Ideal.ieee, -EReal.coe_mul]; norm_num

end Cert.KernelIdeal.Reg.PoolRef

end
-- ==== Proof.KI.Val4Head.lean ====
/-
  The two-layer head of region 4 at the exact-real instance: what the body's last payload computes from the two
  scratch buffers (the per-graph feature sums and node counts) and the four parameter arrays is the tail of the pooled
  head in the host operations' own vocabulary — the mean with the count clamped below by one, a dense layer with a
  max(·, 0), and a second dense layer, each with its bias row added to every graph's row.

  At the exact reals a change of float format is the identity, a matrix product into the zero accumulator and the
  host's dot_general of the same operands are the same sum over the contracted axis, the kernel's quotient and the
  host's are the same quotient, and each broadcast reads its operand at the coordinates it keeps. So the two terms are
  equal piece by piece: the clamped counts, the two bias rows, the zero of the maximum, the two products.
-/
import proofs.«401038_j80255758893589_2_alg».proof.Proof.KI.PoolSpec
import proofs.«401038_j80255758893589_2_alg».proof.Proof.KI.Val4Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

/-- The pooled head's tail as a function of the per-graph feature sums `s` and node counts `cnt'`: the pooled head with
    its two accumulating scatters replaced by these two arrays. -/
noncomputable def headOf (s : FVec Ideal Cert.ReferenceIdeal.S64x16 .f32) (cnt' : FVec Ideal Cert.ReferenceIdeal.S64 .f32)
    (x9 : FVec Ideal Cert.ReferenceIdeal.S16x16 .f32) (x10 : FVec Ideal Cert.ReferenceIdeal.S16 .f32)
    (x11 : FVec Ideal Cert.ReferenceIdeal.S16x2 .f32) (x12 : FVec Ideal Cert.ReferenceIdeal.S2 .f32) :
    FVec Ideal Cert.ReferenceIdeal.S64x2 .f32 :=
  addf
    (Host.dotGeneral Cert.ReferenceIdeal.dot_S64x16_S16x2_S64x2_1_0_0_1_n_n none
      (maximumf
        (addf
          (Host.dotGeneral Cert.ReferenceIdeal.dot_S64x16_S16x16_S64x16_1_0_0_1_n_n none
            (Host.divf
              s
              (broadcastInDim Cert.ReferenceIdeal.S64x16 ![0, 1] Cert.ReferenceIdeal.Gen.bcast_S64x1_S64x16_0_1
                (broadcastInDim Cert.ReferenceIdeal.S64x1 ![0] Cert.ReferenceIdeal.Gen.bcast_S64_S64x1_0
                  (maximumf
                    cnt'
                    (Cert.ReferenceIdeal.ReadP.val_main_v119 (F := Ideal))))))
            x9)
          (Cert.ReferenceIdeal.ReadP.val_main_v126 (F := Ideal) x10))
        (Cert.ReferenceIdeal.ReadP.val_main_call4_v0 (F := Ideal)))
      x11)
    (Cert.ReferenceIdeal.ReadP.val_main_v131 (F := Ideal) x12)

/-- The pooled head is its tail at its own two scatters. -/
theorem poolHead_eq_headOf (h : FVec Ideal Cert.ReferenceIdeal.S100000x16 .f32) (ids : IVec Cert.ReferenceIdeal.S100000x1 32)
    (x9 : FVec Ideal Cert.ReferenceIdeal.S16x16 .f32) (x10 : FVec Ideal Cert.ReferenceIdeal.S16 .f32)
    (x11 : FVec Ideal Cert.ReferenceIdeal.S16x2 .f32) (x12 : FVec Ideal Cert.ReferenceIdeal.S2 .f32) :
    poolHead h ids x9 x10 x11 x12
      = headOf
          (Host.scatterAdd Cert.ReferenceIdeal.scatter_S64x16_S100000x1_S100000x16_1_0_0_1
            (Cert.ReferenceIdeal.ReadP.val_main_v112 (F := Ideal)) ids h)
          (Host.scatterAdd Cert.ReferenceIdeal.scatter_S64_S100000x1_S100000_n_0_0_1
            (Cert.ReferenceIdeal.ReadP.val_main_v116 (F := Ideal)) ids (Cert.ReferenceIdeal.ReadP.val_main_v115 (F := Ideal)))
          x9 x10 x11 x12 := rfl

/-- A matrix product into the zero accumulator is the host's dot_general of the same operands: both are, at an entry,
    the sum over the contracted axis of the operands' products. -/
theorem matmul_zero_eq_dot {sl sr so : Shape} {φ₁ φ₂ : FTy} (d : DotDims sl sr so) (prec : Option ContractPrecision)
    (lhs : FVec Ideal sl φ₁) (rhs : FVec Ideal sr φ₂) :
    matmul d prec lhs rhs (constant (F := Ideal) so .f32 0x00000000#32) = Host.dotGeneral d prec lhs rhs := by
  funext j
  show FloatOps.matmul d prec lhs rhs (constant (F := Ideal) so .f32 0x00000000#32) j = FloatOps.dotGeneral d prec .single lhs rhs j
  rw [Ideal.matmul_constant_zero_apply, Ideal.dotGeneral_apply]

/-- The first bias row, broadcast to every graph's row: entry (g, j) is x10 j on both sides. -/
theorem bias16_eq (x10 : Vec Ideal S16 .f32) :
    broadcastTo S64x16 (shapeCast S1x16 x10 shapeCasts_S16_S1x16) broadcasts_S1x16_S64x16
      = Cert.ReferenceIdeal.ReadP.val_main_v126 (F := Ideal) x10 := by
  funext i
  obtain ⟨g, j, rfl⟩ : ∃ (g : Fin 64) (j : Fin 16), i = ix2 g j := ⟨i 0, i 1, eq_ix2 i⟩
  rw [Cert.ReferenceIdeal.ReadP.val_main_v126_apply, Cert.ReferenceIdeal.ReadP.val_main_v125_apply]
  refine (broadcastTo_apply _ broadcasts_S1x16_S64x16 (ix2 g j) (ix2 (0 : Fin 1) j) (fun a => by
    match a with
    | ⟨0, _⟩ => rfl
    | ⟨1, _⟩ => rfl)).trans ?_
  refine (shapeCast_a_1a_apply x10 shapeCasts_S16_S1x16 (0 : Fin 1) j).trans ?_
  exact congrArg x10 (funext fun a => by match a with | ⟨0, _⟩ => rfl)

/-- The second bias row, broadcast to every graph's row: entry (g, o) is x12 o on both sides. -/
theorem bias2_eq (x12 : Vec Ideal S2 .f32) :
    broadcastTo S64x2 (shapeCast S1x2 x12 shapeCasts_S2_S1x2) broadcasts_S1x2_S64x2
      = Cert.ReferenceIdeal.ReadP.val_main_v131 (F := Ideal) x12 := by
  funext i
  obtain ⟨g, o, rfl⟩ : ∃ (g : Fin 64) (o : Fin 2), i = ix2 g o := ⟨i 0, i 1, eq_ix2 i⟩
  rw [Cert.ReferenceIdeal.ReadP.val_main_v131_apply, Cert.ReferenceIdeal.ReadP.val_main_v130_apply]
  refine (broadcastTo_apply _ broadcasts_S1x2_S64x2 (ix2 g o) (ix2 (0 : Fin 1) o) (fun a => by
    match a with
    | ⟨0, _⟩ => rfl
    | ⟨1, _⟩ => rfl)).trans ?_
  refine (shapeCast_a_1a_apply x12 shapeCasts_S2_S1x2 (0 : Fin 1) o).trans ?_
  exact congrArg x12 (funext fun a => by match a with | ⟨0, _⟩ => rfl)

/-- The zero the hidden layer is clamped against: the constant 0 at every entry on both sides. -/
theorem zero16_eq :
    broadcast S64x16 (Scalar.ofBits (F := Ideal) .f32 0x00000000#32)
      = Cert.ReferenceIdeal.ReadP.val_main_call4_v0 (F := Ideal) := by
  funext i
  rw [Cert.ReferenceIdeal.ReadP.val_main_call4_v0_apply]
  rfl

/-- The clamped counts, broadcast along the feature axis: entry (g, k) is max(count of g, 1) on both sides. -/
theorem cnt_eq (cnt : Vec Ideal S64x1 .f32) (cnt' : FVec Ideal Cert.ReferenceIdeal.S64 .f32)
    (hc : ∀ g : Fin 64, cnt (ix2 g 0) = cnt' (ix1 g)) :
    broadcastTo S64x16 (maximumf cnt (broadcast S64x1 (Scalar.ofBits (F := Ideal) .f32 0x3F800000#32))) broadcasts_S64x1_S64x16
      = broadcastInDim Cert.ReferenceIdeal.S64x16 ![0, 1] Cert.ReferenceIdeal.Gen.bcast_S64x1_S64x16_0_1
          (broadcastInDim Cert.ReferenceIdeal.S64x1 ![0] Cert.ReferenceIdeal.Gen.bcast_S64_S64x1_0
            (maximumf cnt' (Cert.ReferenceIdeal.ReadP.val_main_v119 (F := Ideal)))) := by
  funext i
  obtain ⟨g, k, rfl⟩ : ∃ (g : Fin 64) (k : Fin 16), i = ix2 g k := ⟨i 0, i 1, eq_ix2 i⟩
  refine (broadcastTo_apply _ broadcasts_S64x1_S64x16 (ix2 g k) (ix2 g (0 : Fin 1)) (fun a => by
    match a with
    | ⟨0, _⟩ => rfl
    | ⟨1, _⟩ => rfl)).trans ?_
  refine Eq.trans ?_ (broadcastInDim_apply _ Cert.ReferenceIdeal.Gen.bcast_S64x1_S64x16_0_1 _ (ix2 g k) (ix2 g (0 : Fin 1)) (fun a => by
    match a with
    | ⟨0, _⟩ => rfl
    | ⟨1, _⟩ => rfl)).symm
  refine Eq.trans ?_ (broadcastInDim_apply _ Cert.ReferenceIdeal.Gen.bcast_S64_S64x1_0 _ (ix2 g (0 : Fin 1)) (ix1 g) (fun a => by
    match a with
    | ⟨0, _⟩ => rfl)).symm
  show FloatOps.maximumf (F := Ideal) (cnt (ix2 g 0)) (FloatOps.ofBits (F := Ideal) .f32 0x3F800000#32)
    = FloatOps.maximumf (F := Ideal) (cnt' (ix1 g)) (Cert.ReferenceIdeal.ReadP.val_main_v119 (F := Ideal) (ix1 g))
  rw [hc g, Cert.ReferenceIdeal.ReadP.val_main_v119_apply]
  rfl

/-- The head payload is the pooled head's tail: the clamped counts, the two bias rows and the zero agree array by
    array; with those in place, each matrix product into the zero accumulator is the host's dot_general (the kernel's
    and the host's contraction records name the same axes), the format changes are the identity and the two quotients
    are the same quotient. -/
theorem head4_eq (s : Vec Ideal S64x16 .f32) (cnt : Vec Ideal S64x1 .f32) (cnt' : FVec Ideal Cert.ReferenceIdeal.S64 .f32)
    (hc : ∀ g : Fin 64, cnt (ix2 g 0) = cnt' (ix1 g)) (x9 : Vec Ideal S16x16 .f32) (x10 : Vec Ideal S16 .f32)
    (x11 : Vec Ideal S16x2 .f32) (x12 : Vec Ideal S2 .f32) :
    k4_pay6 (F := Ideal) s cnt x9 x10 x11 x12 = headOf s cnt' x9 x10 x11 x12 := by
  unfold k4_pay6 headOf
  dsimp only
  rw [cnt_eq cnt cnt' hc, bias16_eq x10, bias2_eq x12, zero16_eq]
  rw [matmul_zero_eq_dot, matmul_zero_eq_dot]
  rfl

end Cert.KernelIdeal.Reg

end
-- ==== Proof.KI.Val4.lean ====
/-
  The value of region 4 at the exact-real instance: the array the region leaves in its output window as ONE whole-array
  function of the arrays it reads. Summed over the 50 blocks, the one-hot matrix products are, per graph id, the sum over
  ALL nodes with that id (a node whose id is outside 0..63 matches no column and contributes nowhere) — the accumulating
  scatter's value —, and likewise the counts; the head on the pooled means is the same chain of operations.

  The road: the output window has one block, the whole 64×2 array, written back at the last grid point only; what that
  point stores is the head applied to the two scratch buffers after 50 accumulations and to the four weight arrays
  (each weight window's one block is its whole array). The scratch buffers are then the sums over all 100000 rows of the
  0/1 weight of the row's id times the row's features (respectively of the weights alone), which is what the
  reference's two scatters compute; and the head is the reference's head, operation by operation.
-/
import proofs.«401038_j80255758893589_2_alg».proof.Proof.KI.R4
import proofs.«401038_j80255758893589_2_alg».proof.Proof.KI.PoolSpec
import proofs.«401038_j80255758893589_2_alg».proof.Proof.KI.Val4Acc
import proofs.«401038_j80255758893589_2_alg».proof.Proof.KI.Val4Ref
import proofs.«401038_j80255758893589_2_alg».proof.Proof.KI.Val4Head
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (V : (c : Dev nD) → (b : Ref sig .tc) → Buf (Elt Ideal) ((c : Thread nD τ).loc b))

/-- Each weight window's block at any point is its whole array: its index map is constantly the zero block. -/
theorem wblk4_2 (c : Dev nD) (t : Fin cfg4.N) : (iblk4 V c 2 t : Vec Ideal S16x16 .f32) = V c main_arg9 := by
  obtain ⟨e00, e01, e10, e11, e20, e21, e30, e40, e41, e50, e60, e61⟩ := idxfact4 t
  funext j
  show V c main_arg9 (((cfg4.win 2).blk t).view.emb j) = V c main_arg9 j
  refine congrArg (V c main_arg9) (funext fun a => Fin.ext ?_)
  match a with
  | ⟨0, _⟩ => show win4_2.index t (0 : Fin 2) * 16 + 1 * (j 0).val = (j 0).val; omega
  | ⟨1, _⟩ => show win4_2.index t (1 : Fin 2) * 16 + 1 * (j 1).val = (j 1).val; omega
theorem wblk4_3 (c : Dev nD) (t : Fin cfg4.N) : (iblk4 V c 3 t : Vec Ideal S16 .f32) = V c main_arg10 := by
  obtain ⟨e00, e01, e10, e11, e20, e21, e30, e40, e41, e50, e60, e61⟩ := idxfact4 t
  funext j
  show V c main_arg10 (((cfg4.win 3).blk t).view.emb j) = V c main_arg10 j
  refine congrArg (V c main_arg10) (funext fun a => Fin.ext ?_)
  match a with
  | ⟨0, _⟩ => show win4_3.index t (0 : Fin 1) * 16 + 1 * (j 0).val = (j 0).val; omega
theorem wblk4_4 (c : Dev nD) (t : Fin cfg4.N) : (iblk4 V c 4 t : Vec Ideal S16x2 .f32) = V c main_arg11 := by
  obtain ⟨e00, e01, e10, e11, e20, e21, e30, e40, e41, e50, e60, e61⟩ := idxfact4 t
  funext j
  show V c main_arg11 (((cfg4.win 4).blk t).view.emb j) = V c main_arg11 j
  refine congrArg (V c main_arg11) (funext fun a => Fin.ext ?_)
  match a with
  | ⟨0, _⟩ => show win4_4.index t (0 : Fin 2) * 16 + 1 * (j 0).val = (j 0).val; omega
  | ⟨1, _⟩ => show win4_4.index t (1 : Fin 2) * 2 + 1 * (j 1).val = (j 1).val; omega
theorem wblk4_5 (c : Dev nD) (t : Fin cfg4.N) : (iblk4 V c 5 t : Vec Ideal S2 .f32) = V c main_arg12 := by
  obtain ⟨e00, e01, e10, e11, e20, e21, e30, e40, e41, e50, e60, e61⟩ := idxfact4 t
  funext j
  show V c main_arg12 (((cfg4.win 5).blk t).view.emb j) = V c main_arg12 j
  refine congrArg (V c main_arg12) (funext fun a => Fin.ext ?_)
  match a with
  | ⟨0, _⟩ => show win4_5.index t (0 : Fin 1) * 2 + 1 * (j 0).val = (j 0).val; omega

/-- The feature scratch after the last point IS the reference's scattered feature sums: both are, at (g, f), the sum
    over all rows of the row's weight against g times the row's feature at f. -/
theorem acc4_eq_scatter (c : Dev nD) :
    (acc4 (F := Ideal) V c 49 (by decide)).1
      = Host.scatterAdd (F := Ideal) (φ := .f32) Cert.ReferenceIdeal.scatter_S64x16_S100000x1_S100000x16_1_0_0_1
          (Cert.ReferenceIdeal.ReadP.val_main_v112 (F := Ideal)) (V c main_v4) (V c main_v74) := by
  funext i
  rw [eq_ix2 i]
  exact (acc4_sum V c (i 0) (i 1)).trans (PoolRef.scatter_feat_apply (V c main_v4) (V c main_v74) (i 0) (i 1)).symm

/-- The count scratch after the last point holds, at (g, 0), the reference's scattered count at g. -/
theorem cnt4_eq_scatter (c : Dev nD) (g : Fin 64) :
    (acc4 (F := Ideal) V c 49 (by decide)).2 (ix2 g 0)
      = Host.scatterAdd (F := Ideal) (φ := .f32) Cert.ReferenceIdeal.scatter_S64_S100000x1_S100000_n_0_0_1
          (Cert.ReferenceIdeal.ReadP.val_main_v116 (F := Ideal)) (V c main_v4) (Cert.ReferenceIdeal.ReadP.val_main_v115 (F := Ideal)) (ix1 g) :=
  (acc4_cnt V c g).trans (PoolRef.scatter_cnt_apply (V c main_v4) g).symm

/-- What the last point stores into the output block is the pooled head of the arrays the region reads. -/
theorem out4_last (c : Dev nD) (t : Fin cfg4.N) (h49 : t.val = 49) :
    out4_6 (F := Ideal) V c t
      = poolHead (V c main_v74) (V c main_v4) (V c main_arg9) (V c main_arg10) (V c main_arg11) (V c main_arg12) := by
  obtain ⟨tv, htv⟩ := t
  have e : tv = 49 := h49
  subst e
  show k4_pay6 (F := Ideal) (acc4 (F := Ideal) V c 49 htv).1 (acc4 (F := Ideal) V c 49 htv).2
      (iblk4 V c 2 ⟨49, htv⟩) (iblk4 V c 3 ⟨49, htv⟩) (iblk4 V c 4 ⟨49, htv⟩) (iblk4 V c 5 ⟨49, htv⟩) = _
  rw [wblk4_2 V c ⟨49, htv⟩, wblk4_3 V c ⟨49, htv⟩, wblk4_4 V c ⟨49, htv⟩, wblk4_5 V c ⟨49, htv⟩, poolHead_eq_headOf]
  refine (head4_eq (acc4 (F := Ideal) V c 49 htv).1 (acc4 (F := Ideal) V c 49 htv).2 _ (cnt4_eq_scatter V c)
    (V c main_arg9) (V c main_arg10) (V c main_arg11) (V c main_arg12)).trans ?_
  rw [acc4_eq_scatter V c]

/-- The store's offsets (0, 0) are the zero offsets. -/
theorem zero_off4 : (![0, 0] : Fin 2 → Nat) = fun _ => 0 := funext fun a => by
  match a with
  | ⟨0, _⟩ => rfl
  | ⟨1, _⟩ => rfl

/-- WHAT A FLUSHING POINT WRITES BACK — only the last point flushes — is the one block, the whole array, of the
    pooled head. -/
theorem flushed4_6_eq (c : Dev nD) (t : Fin cfg4.N) (ht : (cfg4.win 6).flush t = true) :
    (dat4 (F := Ideal) V c).flushed 6 t
      = ((cfg4.win 6).blk t).view.read (Elt Ideal)
          (poolHead (V c main_v74) (V c main_v4) (V c main_arg9) (V c main_arg10) (V c main_arg11) (V c main_arg12)) := by
  have hlt : t.val < 50 := t.isLt
  have h49 : t.val = 49 := by have := (flush4_6 t).mp ht; omega
  obtain ⟨e00, e01, e10, e11, e20, e21, e30, e40, e41, e50, e60, e61⟩ := idxfact4 t
  show (cfg4.win 6).cut (grid4.coords t) ((dat4 (F := Ideal) V c).after 6 t) = _
  rw [after4_6, out4_last V c t h49]
  funext j
  show poolHead (V c main_v74) (V c main_v4) (V c main_arg9) (V c main_arg10) (V c main_arg11) (V c main_arg12) j
    = poolHead (V c main_v74) (V c main_v4) (V c main_arg9) (V c main_arg10) (V c main_arg11) (V c main_arg12) (((cfg4.win 6).blk t).view.emb j)
  refine congrArg _ (funext fun a => Fin.ext ?_)
  match a with
  | ⟨0, _⟩ => show (j 0).val = win4_6.index t (0 : Fin 2) * 64 + 1 * (j 0).val; omega
  | ⟨1, _⟩ => show (j 1).val = win4_6.index t (1 : Fin 2) * 2 + 1 * (j 1).val; omega

/-- An entry of the array is in point t's block iff each coordinate is in the block's range on its axis. -/
theorem mem_blk4_6 (t : Fin cfg4.N) (i : S64x2.Idx) :
    i ∈ ((cfg4.win 6).blk t).view.set ↔ ∀ a : Fin 2, win4_6.index t a * S64x2.size a ≤ (i a).val ∧ (i a).val < win4_6.index t a * S64x2.size a + S64x2.size a := by
  show i ∈ ((View.whole main_v75).slice (win4_6.rect t)).set ↔ _
  rw [View.set_slice_whole, Rect.mem_set_unit]
  exact Iff.rfl

/-- Every entry of the array is in the last point's block — the one block is the whole array — and the last point
    writes it back. -/
theorem covered4_6 (i : S64x2.Idx) :
    ∃ t : Fin cfg4.N, (cfg4.win 6).flush t = true ∧ i ∈ ((cfg4.win 6).blk t).view.set := by
  have hi0 : (i 0).val < 64 := (i 0).isLt
  have hi1 : (i 1).val < 2 := (i 1).isLt
  have h49 : (49 : ℕ) < cfg4.N := by decide
  refine ⟨⟨49, h49⟩, (flush4_6 ⟨49, h49⟩).mpr rfl, ?_⟩
  rw [mem_blk4_6]
  obtain ⟨e00, e01, e10, e11, e20, e21, e30, e40, e41, e50, e60, e61⟩ := idxfact4 ⟨49, h49⟩
  intro a
  match a with
  | ⟨0, _⟩ => show win4_6.index ⟨49, h49⟩ (0 : Fin 2) * 64 ≤ (i 0).val ∧ (i 0).val < win4_6.index ⟨49, h49⟩ (0 : Fin 2) * 64 + 64; omega
  | ⟨1, _⟩ => show win4_6.index ⟨49, h49⟩ (1 : Fin 2) * 2 ≤ (i 1).val ∧ (i 1).val < win4_6.index ⟨49, h49⟩ (1 : Fin 2) * 2 + 2; omega

/-- After the region, output window 6's array (`main_v75`) is the pooled head of the node features `main_v74` and the
    id column `main_v4` as the region finds them. -/
theorem final4_6 (c : Dev nD) :
    (dat4 (F := Ideal) V c).arrAt 6 cfg4.N
      = poolHead (V c main_v74) (V c main_v4) (V c main_arg9) (V c main_arg10) (V c main_arg11) (V c main_arg12) :=
  (dat4 (F := Ideal) V c).arrAt_eq_of_cover 6
    (poolHead (V c main_v74) (V c main_v4) (V c main_arg9) (V c main_arg10) (V c main_arg11) (V c main_arg12))
    (fun t ht => flushed4_6_eq V c t ht) covered4_6

end Cert.KernelIdeal.Reg

end
-- ==== Proof.KI.HostChains.lean ====
/-
  The host stretches of the kernel program's @main against the reference program's stages: the neighbourhood
  aggregation of one layer (a normalized scatter-add of gathered rows divided by the clamped in-degree) as ONE
  function of the gathered operand and the edge-index array, which both programs apply in both layers; the kernel
  computes the edge normalization once and reuses it, the reference recomputes it per layer.
-/
import proofs.«401038_j80255758893589_2_alg».proof.Proof.Gen.KernelIdeal.Regions
import proofs.«401038_j80255758893589_2_alg».proof.Proof.RefRead
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.StableHlo.Run
import Idealize.ShloMosaic.Lib.Ring
import Idealize.ShloMosaic.Lib.Tactic

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-- One layer's neighbourhood aggregation as the reference writes it, with the operand whose rows are gathered a
    parameter: the rows at the source nodes, scaled by the edge normalization, scatter-added at the target nodes,
    divided by the in-degree clamped below at one. Everything but the gathered operand is a function of the edge
    indices alone. -/
noncomputable def aggrRef (xj : FVec F Cert.ReferenceIdeal.S100000x16 .f32) (x1 : IVec Cert.ReferenceIdeal.S2x3200000 32) : FVec F Cert.ReferenceIdeal.S100000x16 .f32 :=
  Host.divf
    (Host.scatterAdd Cert.ReferenceIdeal.scatter_S100000x16_S3200000x1_S3200000x16_1_0_0_1
      (Cert.ReferenceIdeal.ReadP.val_main_v43 (F := F)) (Cert.ReferenceIdeal.ReadP.val_main_v44 (F := F) x1)
      (mulf (Cert.ReferenceIdeal.ReadP.val_main_v41 (F := F) x1)
        (Host.gather Cert.ReferenceIdeal.gather_S100000x16_S3200000x1_S3200000x16_1_0_n_n_0_1_116 xj (Cert.ReferenceIdeal.ReadP.val_main_v39 (F := F) x1))))
    (Cert.ReferenceIdeal.ReadP.val_main_v52 (F := F) x1)

/-! ## The reference's two layers -/

/-- The reference's first aggregation is `aggrRef` of its first gathered operand. -/
theorem ref_aggr1 (x0 x1 x5) : Cert.ReferenceIdeal.ReadP.val_main_v53 (F := F) x0 x1 x5 = aggrRef (Cert.ReferenceIdeal.ReadP.val_main_v4 (F := F) x0 x5) x1 := by
  unfold Cert.ReferenceIdeal.ReadP.val_main_v53 Cert.ReferenceIdeal.ReadP.val_main_v45 Cert.ReferenceIdeal.ReadP.val_main_v42 Cert.ReferenceIdeal.ReadP.val_main_v40 aggrRef
  rfl

/-- The second layer recomputes the source and target columns of the edge indices, -/
theorem ref_row2 (x1) : Cert.ReferenceIdeal.ReadP.val_main_v62 (F := F) x1 = Cert.ReferenceIdeal.ReadP.val_main_v6 (F := F) x1 := by
  unfold Cert.ReferenceIdeal.ReadP.val_main_v62 Cert.ReferenceIdeal.ReadP.val_main_v61 Cert.ReferenceIdeal.ReadP.val_main_v6 Cert.ReferenceIdeal.ReadP.val_main_v5
  rfl
theorem ref_col2 (x1) : Cert.ReferenceIdeal.ReadP.val_main_v64 (F := F) x1 = Cert.ReferenceIdeal.ReadP.val_main_v8 (F := F) x1 := by
  unfold Cert.ReferenceIdeal.ReadP.val_main_v64 Cert.ReferenceIdeal.ReadP.val_main_v63 Cert.ReferenceIdeal.ReadP.val_main_v8 Cert.ReferenceIdeal.ReadP.val_main_v7
  rfl
/-- the all-ones edge weights, -/
theorem ref_ones2 : Cert.ReferenceIdeal.ReadP.val_main_v65 (F := F) = Cert.ReferenceIdeal.ReadP.val_main_v9 (F := F) := by
  unfold Cert.ReferenceIdeal.ReadP.val_main_v65 Cert.ReferenceIdeal.ReadP.val_main_v9 Cert.ReferenceIdeal.ReadP.val_main_cst_12 Cert.ReferenceIdeal.ReadP.val_main_cst
  rfl
/-- the inverse square root of the out-degree (zero where the degree is zero), -/
theorem ref_dinv2 (x1) : Cert.ReferenceIdeal.ReadP.val_main_v73 (F := F) x1 = Cert.ReferenceIdeal.ReadP.val_main_v17 (F := F) x1 := by
  unfold Cert.ReferenceIdeal.ReadP.val_main_v73 Cert.ReferenceIdeal.ReadP.val_main_v70 Cert.ReferenceIdeal.ReadP.val_main_v72 Cert.ReferenceIdeal.ReadP.val_main_v68 Cert.ReferenceIdeal.ReadP.val_main_v67 Cert.ReferenceIdeal.ReadP.val_main_v66 Cert.ReferenceIdeal.ReadP.val_main_v69 Cert.ReferenceIdeal.ReadP.val_main_v71
    Cert.ReferenceIdeal.ReadP.val_main_call2_v1 Cert.ReferenceIdeal.ReadP.val_main_call2_v0 Cert.ReferenceIdeal.ReadP.val_main_cst_13 Cert.ReferenceIdeal.ReadP.val_main_cst_14 Cert.ReferenceIdeal.ReadP.val_main_cst_15 Cert.ReferenceIdeal.ReadP.val_main_cst_16
    Cert.ReferenceIdeal.ReadP.val_main_v17 Cert.ReferenceIdeal.ReadP.val_main_v14 Cert.ReferenceIdeal.ReadP.val_main_v16 Cert.ReferenceIdeal.ReadP.val_main_v12 Cert.ReferenceIdeal.ReadP.val_main_v11 Cert.ReferenceIdeal.ReadP.val_main_v10 Cert.ReferenceIdeal.ReadP.val_main_v13 Cert.ReferenceIdeal.ReadP.val_main_v15
    Cert.ReferenceIdeal.ReadP.val_main_call0_v1 Cert.ReferenceIdeal.ReadP.val_main_call0_v0 Cert.ReferenceIdeal.ReadP.val_main_cst_0 Cert.ReferenceIdeal.ReadP.val_main_cst_1 Cert.ReferenceIdeal.ReadP.val_main_cst_2 Cert.ReferenceIdeal.ReadP.val_main_cst_3
  rw [ref_row2, ref_ones2]
/-- the edge normalization, -/
theorem ref_norm2 (x1) : Cert.ReferenceIdeal.ReadP.val_main_v88 (F := F) x1 = Cert.ReferenceIdeal.ReadP.val_main_v32 (F := F) x1 := by
  unfold Cert.ReferenceIdeal.ReadP.val_main_v88 Cert.ReferenceIdeal.ReadP.val_main_v80 Cert.ReferenceIdeal.ReadP.val_main_v87 Cert.ReferenceIdeal.ReadP.val_main_v79 Cert.ReferenceIdeal.ReadP.val_main_v86 Cert.ReferenceIdeal.ReadP.val_main_v78 Cert.ReferenceIdeal.ReadP.val_main_v85
    Cert.ReferenceIdeal.ReadP.val_main_v75 Cert.ReferenceIdeal.ReadP.val_main_v77 Cert.ReferenceIdeal.ReadP.val_main_v82 Cert.ReferenceIdeal.ReadP.val_main_v84 Cert.ReferenceIdeal.ReadP.val_main_v74 Cert.ReferenceIdeal.ReadP.val_main_v76 Cert.ReferenceIdeal.ReadP.val_main_v81 Cert.ReferenceIdeal.ReadP.val_main_v83
    Cert.ReferenceIdeal.ReadP.val_main_c_17 Cert.ReferenceIdeal.ReadP.val_main_c_18 Cert.ReferenceIdeal.ReadP.val_main_c_19 Cert.ReferenceIdeal.ReadP.val_main_c_20
    Cert.ReferenceIdeal.ReadP.val_main_v32 Cert.ReferenceIdeal.ReadP.val_main_v24 Cert.ReferenceIdeal.ReadP.val_main_v31 Cert.ReferenceIdeal.ReadP.val_main_v23 Cert.ReferenceIdeal.ReadP.val_main_v30 Cert.ReferenceIdeal.ReadP.val_main_v22 Cert.ReferenceIdeal.ReadP.val_main_v29
    Cert.ReferenceIdeal.ReadP.val_main_v19 Cert.ReferenceIdeal.ReadP.val_main_v21 Cert.ReferenceIdeal.ReadP.val_main_v26 Cert.ReferenceIdeal.ReadP.val_main_v28 Cert.ReferenceIdeal.ReadP.val_main_v18 Cert.ReferenceIdeal.ReadP.val_main_v20 Cert.ReferenceIdeal.ReadP.val_main_v25 Cert.ReferenceIdeal.ReadP.val_main_v27
    Cert.ReferenceIdeal.ReadP.val_main_c Cert.ReferenceIdeal.ReadP.val_main_c_4 Cert.ReferenceIdeal.ReadP.val_main_c_5 Cert.ReferenceIdeal.ReadP.val_main_c_6
  rw [ref_row2, ref_col2, ref_dinv2]
/-- the gather's index column, the scatter's index column and zero start, and the clamped in-degree. -/
theorem ref_gidx2 (x1) : Cert.ReferenceIdeal.ReadP.val_main_v95 (F := F) x1 = Cert.ReferenceIdeal.ReadP.val_main_v39 (F := F) x1 := by
  unfold Cert.ReferenceIdeal.ReadP.val_main_v95 Cert.ReferenceIdeal.ReadP.val_main_v94 Cert.ReferenceIdeal.ReadP.val_main_v91 Cert.ReferenceIdeal.ReadP.val_main_v93 Cert.ReferenceIdeal.ReadP.val_main_v90 Cert.ReferenceIdeal.ReadP.val_main_v92 Cert.ReferenceIdeal.ReadP.val_main_c_21 Cert.ReferenceIdeal.ReadP.val_main_c_22
    Cert.ReferenceIdeal.ReadP.val_main_v39 Cert.ReferenceIdeal.ReadP.val_main_v38 Cert.ReferenceIdeal.ReadP.val_main_v35 Cert.ReferenceIdeal.ReadP.val_main_v37 Cert.ReferenceIdeal.ReadP.val_main_v34 Cert.ReferenceIdeal.ReadP.val_main_v36 Cert.ReferenceIdeal.ReadP.val_main_c_7 Cert.ReferenceIdeal.ReadP.val_main_c_8
  rw [ref_row2]
theorem ref_nrm2 (x1) : Cert.ReferenceIdeal.ReadP.val_main_v97 (F := F) x1 = Cert.ReferenceIdeal.ReadP.val_main_v41 (F := F) x1 := by
  unfold Cert.ReferenceIdeal.ReadP.val_main_v97 Cert.ReferenceIdeal.ReadP.val_main_v89 Cert.ReferenceIdeal.ReadP.val_main_v41 Cert.ReferenceIdeal.ReadP.val_main_v33
  rw [ref_norm2]
theorem ref_zero2 : Cert.ReferenceIdeal.ReadP.val_main_v99 (F := F) = Cert.ReferenceIdeal.ReadP.val_main_v43 (F := F) := by
  unfold Cert.ReferenceIdeal.ReadP.val_main_v99 Cert.ReferenceIdeal.ReadP.val_main_v43 Cert.ReferenceIdeal.ReadP.val_main_cst_23 Cert.ReferenceIdeal.ReadP.val_main_cst_9
  rfl
theorem ref_sidx2 (x1) : Cert.ReferenceIdeal.ReadP.val_main_v100 (F := F) x1 = Cert.ReferenceIdeal.ReadP.val_main_v44 (F := F) x1 := by
  unfold Cert.ReferenceIdeal.ReadP.val_main_v100 Cert.ReferenceIdeal.ReadP.val_main_v44
  rw [ref_col2]
theorem ref_cnt2 (x1) : Cert.ReferenceIdeal.ReadP.val_main_v108 (F := F) x1 = Cert.ReferenceIdeal.ReadP.val_main_v52 (F := F) x1 := by
  unfold Cert.ReferenceIdeal.ReadP.val_main_v108 Cert.ReferenceIdeal.ReadP.val_main_v107 Cert.ReferenceIdeal.ReadP.val_main_v106 Cert.ReferenceIdeal.ReadP.val_main_v104 Cert.ReferenceIdeal.ReadP.val_main_v103 Cert.ReferenceIdeal.ReadP.val_main_v102 Cert.ReferenceIdeal.ReadP.val_main_v105 Cert.ReferenceIdeal.ReadP.val_main_cst_24 Cert.ReferenceIdeal.ReadP.val_main_cst_25
    Cert.ReferenceIdeal.ReadP.val_main_v52 Cert.ReferenceIdeal.ReadP.val_main_v51 Cert.ReferenceIdeal.ReadP.val_main_v50 Cert.ReferenceIdeal.ReadP.val_main_v48 Cert.ReferenceIdeal.ReadP.val_main_v47 Cert.ReferenceIdeal.ReadP.val_main_v46 Cert.ReferenceIdeal.ReadP.val_main_v49 Cert.ReferenceIdeal.ReadP.val_main_cst_10 Cert.ReferenceIdeal.ReadP.val_main_cst_11
  rw [ref_col2, ref_ones2]

/-- The reference's second aggregation is `aggrRef` of its second gathered operand. -/
theorem ref_aggr2 (x0 x1 x3 x4 x5 x8) : Cert.ReferenceIdeal.ReadP.val_main_v109 (F := F) x0 x1 x3 x4 x5 x8 = aggrRef (Cert.ReferenceIdeal.ReadP.val_main_v60 (F := F) x0 x1 x3 x4 x5 x8) x1 := by
  unfold Cert.ReferenceIdeal.ReadP.val_main_v109 Cert.ReferenceIdeal.ReadP.val_main_v101 Cert.ReferenceIdeal.ReadP.val_main_v98 Cert.ReferenceIdeal.ReadP.val_main_v96 aggrRef
  rw [ref_cnt2, ref_zero2, ref_sidx2, ref_nrm2, ref_gidx2]

/-! ## The kernel program's host stretches -/

/-- No host stretch writes an argument. -/
theorem V3_arg1 (c : Dev nD) : V3 m c main_arg1 = m ((c.tc : Thread nD τ).loc main_arg1) :=
  (V3_of m c main_arg1 (by decide)).trans <| (V2_of m c main_arg1 (by decide)).trans <| (V1_of m c main_arg1 (by decide)).trans rfl

/-- The first stretch: the source column of the edge indices, -/
theorem k1_row (c : Dev nD) : V1 m c main_v1 = Cert.ReferenceIdeal.ReadP.val_main_v6 (F := F) (m ((c.tc : Thread nD τ).loc main_arg1)) := by
  show StableHlo.after hostOps0 (V0 m c) (Proc.devRef .tc main_v1) = _
  after_results
  rfl
/-- the target column, -/
theorem k1_col (c : Dev nD) : V1 m c main_v3 = Cert.ReferenceIdeal.ReadP.val_main_v8 (F := F) (m ((c.tc : Thread nD τ).loc main_arg1)) := by
  show StableHlo.after hostOps0 (V0 m c) (Proc.devRef .tc main_v3) = _
  after_results
  rfl
/-- the all-ones edge weights, -/
theorem k1_ones (c : Dev nD) : V1 m c main_v5 = Cert.ReferenceIdeal.ReadP.val_main_v9 (F := F) := by
  show StableHlo.after hostOps0 (V0 m c) (Proc.devRef .tc main_v5) = _
  after_results
  rfl
/-- where the out-degree is positive, -/
theorem k1_pos (c : Dev nD) : V1 m c main_v10 = Cert.ReferenceIdeal.ReadP.val_main_v14 (F := F) (m ((c.tc : Thread nD τ).loc main_arg1)) := by
  show StableHlo.after hostOps0 (V0 m c) (Proc.devRef .tc main_v10) = _
  after_results
  rfl
/-- the out-degree to the power minus one half, -/
theorem k1_pow (c : Dev nD) : V1 m c main_v12 = Cert.ReferenceIdeal.ReadP.val_main_v16 (F := F) (m ((c.tc : Thread nD τ).loc main_arg1)) := by
  show StableHlo.after hostOps0 (V0 m c) (Proc.devRef .tc main_v12) = _
  after_results
  rfl
/-- and the zero the selection falls back to. -/
theorem k1_zero (c : Dev nD) : V1 m c main_cst_3 = Cert.ReferenceIdeal.ReadP.val_main_cst_3 (F := F) := by
  show StableHlo.after hostOps0 (V0 m c) (Proc.devRef .tc main_cst_3) = _
  after_results
  rfl

/-- The second stretch (the inlined selection): the inverse square root of the out-degree, zero where it is zero. -/
theorem k2_dinv (c : Dev nD) : V2 m c main_v13 = Cert.ReferenceIdeal.ReadP.val_main_v17 (F := F) (m ((c.tc : Thread nD τ).loc main_arg1)) := by
  show StableHlo.after hostOps0_1 (V1 m c) (Proc.devRef .tc main_v13) = _
  have e10 := k1_pos m c; have e12 := k1_pow m c; have e3 := k1_zero m c
  generalize V1 m c = W at e10 e12 e3 ⊢
  after_results
  rw [e10, e12, e3]
  rfl

set_option maxHeartbeats 2000000 in
/-- The third stretch: the edge normalization, the product of the two gathered inverse square roots. -/
theorem k3_norm (c : Dev nD) : V3 m c main_v28 = Cert.ReferenceIdeal.ReadP.val_main_v32 (F := F) (m ((c.tc : Thread nD τ).loc main_arg1)) := by
  show StableHlo.after hostOps0_2 (V2 m c) (Proc.devRef .tc main_v28) = _
  have e1 : V2 m c main_v1 = _ := (V2_of m c main_v1 (by decide)).trans (k1_row m c)
  have e3 : V2 m c main_v3 = _ := (V2_of m c main_v3 (by decide)).trans (k1_col m c)
  have e13 := k2_dinv m c
  generalize V2 m c = W at e1 e3 e13 ⊢
  after_results_simp
  rw [e1, e3, e13]
  unfold Cert.ReferenceIdeal.ReadP.val_main_v32 Cert.ReferenceIdeal.ReadP.val_main_v24 Cert.ReferenceIdeal.ReadP.val_main_v31 Cert.ReferenceIdeal.ReadP.val_main_v23 Cert.ReferenceIdeal.ReadP.val_main_v30 Cert.ReferenceIdeal.ReadP.val_main_v22 Cert.ReferenceIdeal.ReadP.val_main_v29
    Cert.ReferenceIdeal.ReadP.val_main_v19 Cert.ReferenceIdeal.ReadP.val_main_v21 Cert.ReferenceIdeal.ReadP.val_main_v26 Cert.ReferenceIdeal.ReadP.val_main_v28 Cert.ReferenceIdeal.ReadP.val_main_v18 Cert.ReferenceIdeal.ReadP.val_main_v20 Cert.ReferenceIdeal.ReadP.val_main_v25 Cert.ReferenceIdeal.ReadP.val_main_v27
    Cert.ReferenceIdeal.ReadP.val_main_c Cert.ReferenceIdeal.ReadP.val_main_c_4 Cert.ReferenceIdeal.ReadP.val_main_c_5 Cert.ReferenceIdeal.ReadP.val_main_c_6
  rfl

/-- What the later stretches read of the first three: kept by every item in between. -/
theorem k3_row (c : Dev nD) : V3 m c main_v1 = Cert.ReferenceIdeal.ReadP.val_main_v6 (F := F) (m ((c.tc : Thread nD τ).loc main_arg1)) :=
  (V3_of m c main_v1 (by decide)).trans <| (V2_of m c main_v1 (by decide)).trans (k1_row m c)
theorem k3_col (c : Dev nD) : V3 m c main_v3 = Cert.ReferenceIdeal.ReadP.val_main_v8 (F := F) (m ((c.tc : Thread nD τ).loc main_arg1)) :=
  (V3_of m c main_v3 (by decide)).trans <| (V2_of m c main_v3 (by decide)).trans (k1_col m c)
theorem k3_ones (c : Dev nD) : V3 m c main_v5 = Cert.ReferenceIdeal.ReadP.val_main_v9 (F := F) :=
  (V3_of m c main_v5 (by decide)).trans <| (V2_of m c main_v5 (by decide)).trans (k1_ones m c)

set_option maxHeartbeats 2000000 in
/-- The fourth stretch: the first layer's aggregation of what the first kernel region left as its second output. -/
theorem ker_aggr1 (outs : Outs (F := F)) (c : Dev nD) : V5 m outs c main_v50 = aggrRef (V4 m outs c main_v29_1) (m ((c.tc : Thread nD τ).loc main_arg1)) := by
  show StableHlo.after hostOps1 (V4 m outs c) (Proc.devRef .tc main_v50) = _
  have e28 : V4 m outs c main_v28 = _ := (V4_of m outs c main_v28 (by decide)).trans (k3_norm m c)
  have e1 : V4 m outs c main_v1 = _ := (V4_of m outs c main_v1 (by decide)).trans (k3_row m c)
  have e3 : V4 m outs c main_v3 = _ := (V4_of m outs c main_v3 (by decide)).trans (k3_col m c)
  have e5 : V4 m outs c main_v5 = _ := (V4_of m outs c main_v5 (by decide)).trans (k3_ones m c)
  generalize V4 m outs c = W at e28 e1 e3 e5 ⊢
  after_results_simp
  rw [e28, e1, e3, e5]
  unfold aggrRef Cert.ReferenceIdeal.ReadP.val_main_v43 Cert.ReferenceIdeal.ReadP.val_main_v44 Cert.ReferenceIdeal.ReadP.val_main_v41 Cert.ReferenceIdeal.ReadP.val_main_v33 Cert.ReferenceIdeal.ReadP.val_main_v39 Cert.ReferenceIdeal.ReadP.val_main_v38 Cert.ReferenceIdeal.ReadP.val_main_v35 Cert.ReferenceIdeal.ReadP.val_main_v37 Cert.ReferenceIdeal.ReadP.val_main_v34 Cert.ReferenceIdeal.ReadP.val_main_v36 Cert.ReferenceIdeal.ReadP.val_main_c_7 Cert.ReferenceIdeal.ReadP.val_main_c_8
    Cert.ReferenceIdeal.ReadP.val_main_v52 Cert.ReferenceIdeal.ReadP.val_main_v51 Cert.ReferenceIdeal.ReadP.val_main_v50 Cert.ReferenceIdeal.ReadP.val_main_v48 Cert.ReferenceIdeal.ReadP.val_main_v47 Cert.ReferenceIdeal.ReadP.val_main_v46 Cert.ReferenceIdeal.ReadP.val_main_v49 Cert.ReferenceIdeal.ReadP.val_main_cst_9 Cert.ReferenceIdeal.ReadP.val_main_cst_10 Cert.ReferenceIdeal.ReadP.val_main_cst_11
  rfl

set_option maxHeartbeats 2000000 in
/-- The fifth stretch: the second layer's aggregation of what the third kernel region left as its second output;
    the normalization and the index columns are the ones the first three stretches computed. -/
theorem ker_aggr2 (outs : Outs (F := F)) (c : Dev nD) : V8 m outs c main_v73 = aggrRef (V7 m outs c main_v52_1) (m ((c.tc : Thread nD τ).loc main_arg1)) := by
  show StableHlo.after hostOps3 (V7 m outs c) (Proc.devRef .tc main_v73) = _
  have e28 : V7 m outs c main_v28 = _ := (V7_of m outs c main_v28 (by decide)).trans <| (V6_of m outs c main_v28 (by decide)).trans <| (V5_of m outs c main_v28 (by decide)).trans <| (V4_of m outs c main_v28 (by decide)).trans (k3_norm m c)
  have e1 : V7 m outs c main_v1 = _ := (V7_of m outs c main_v1 (by decide)).trans <| (V6_of m outs c main_v1 (by decide)).trans <| (V5_of m outs c main_v1 (by decide)).trans <| (V4_of m outs c main_v1 (by decide)).trans (k3_row m c)
  have e3 : V7 m outs c main_v3 = _ := (V7_of m outs c main_v3 (by decide)).trans <| (V6_of m outs c main_v3 (by decide)).trans <| (V5_of m outs c main_v3 (by decide)).trans <| (V4_of m outs c main_v3 (by decide)).trans (k3_col m c)
  have e5 : V7 m outs c main_v5 = _ := (V7_of m outs c main_v5 (by decide)).trans <| (V6_of m outs c main_v5 (by decide)).trans <| (V5_of m outs c main_v5 (by decide)).trans <| (V4_of m outs c main_v5 (by decide)).trans (k3_ones m c)
  generalize V7 m outs c = W at e28 e1 e3 e5 ⊢
  after_results_simp
  rw [e28, e1, e3, e5]
  unfold aggrRef Cert.ReferenceIdeal.ReadP.val_main_v43 Cert.ReferenceIdeal.ReadP.val_main_v44 Cert.ReferenceIdeal.ReadP.val_main_v41 Cert.ReferenceIdeal.ReadP.val_main_v33 Cert.ReferenceIdeal.ReadP.val_main_v39 Cert.ReferenceIdeal.ReadP.val_main_v38 Cert.ReferenceIdeal.ReadP.val_main_v35 Cert.ReferenceIdeal.ReadP.val_main_v37 Cert.ReferenceIdeal.ReadP.val_main_v34 Cert.ReferenceIdeal.ReadP.val_main_v36 Cert.ReferenceIdeal.ReadP.val_main_c_7 Cert.ReferenceIdeal.ReadP.val_main_c_8
    Cert.ReferenceIdeal.ReadP.val_main_v52 Cert.ReferenceIdeal.ReadP.val_main_v51 Cert.ReferenceIdeal.ReadP.val_main_v50 Cert.ReferenceIdeal.ReadP.val_main_v48 Cert.ReferenceIdeal.ReadP.val_main_v47 Cert.ReferenceIdeal.ReadP.val_main_v46 Cert.ReferenceIdeal.ReadP.val_main_v49 Cert.ReferenceIdeal.ReadP.val_main_cst_9 Cert.ReferenceIdeal.ReadP.val_main_cst_10 Cert.ReferenceIdeal.ReadP.val_main_cst_11
  rfl

end Cert.KernelIdeal.Reg

end
-- ==== Proof.KI.HostIds.lean ====
/-
  The segment ids as the kernel program holds them: the host reshape of the ids vector [100000] to a column [100000,1],
  written once before the first region and by no later item, is the reference's broadcast of the same vector along
  axis 0 — both read the vector at the row coordinate.
-/
import proofs.«401038_j80255758893589_2_alg».proof.Proof.Gen.KernelIdeal.Regions
import proofs.«401038_j80255758893589_2_alg».proof.Proof.RefRead
import Idealize.ShloMosaic.Lib.Pipeline.Value
import Idealize.ShloMosaic.Lib.StableHlo.Run
import Idealize.ShloMosaic.Lib.Tactic

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Cert.KernelIdeal Cert.KernelIdeal.Gen

variable {F : FTy → Type} [FloatOps F]

variable (m : (ℓ : Loc nD τ sig) → Buf (Elt F) ℓ)

/-- A vector of 100000 entries cast to a column, read at (r, 0), is its entry r: what the reference's broadcast
    along axis 0 reads there. -/
theorem column_eq (x : S100000.Idx → Elt F .i32) :
    shapeCast S100000x1 x shapeCasts_S100000_S100000x1 = Cert.ReferenceIdeal.ReadP.val_main_v113 (F := F) x := by
  funext i
  rw [Cert.ReferenceIdeal.ReadP.val_main_v113_apply]
  refine shapeCast_apply x shapeCasts_S100000_S100000x1 i (Cert.ReferenceIdeal.ReadP.idx_main_v113 i) ?_
  rw [Shape.rowMajor_val_one, Shape.rowMajor_val_two]
  show (i 0).val = (i 0).val * 1 + (i 1).val
  have h1 : (i 1).val < 1 := (i 1).isLt
  omega

/-- The ids column the last region reads is the reference's: the first host stretch writes it as the cast of the ids
    argument, and no later item writes it. -/
theorem ker_ids (outs : Outs (F := F)) (c : Dev nD) :
    V9 m outs c main_v4 = Cert.ReferenceIdeal.ReadP.val_main_v113 (F := F) (m ((c.tc : Thread nD τ).loc main_arg2)) := by
  refine (V9_of m outs c main_v4 (by decide)).trans <| (V8_of m outs c main_v4 (by decide)).trans <|
    (V7_of m outs c main_v4 (by decide)).trans <| (V6_of m outs c main_v4 (by decide)).trans <|
    (V5_of m outs c main_v4 (by decide)).trans <| (V4_of m outs c main_v4 (by decide)).trans <|
    (V3_of m c main_v4 (by decide)).trans <| (V2_of m c main_v4 (by decide)).trans ?_
  show StableHlo.after hostOps0 (V0 m c) (Proc.devRef .tc main_v4) = _
  after_results
  exact column_eq _

end Cert.KernelIdeal.Reg

end
-- ==== Proof.KI.Bridge.lean ====
/-
  The kernel program's result is the reference's, as one function of the arguments, at the exact-real instance.
  Walking @main's items: region 0 leaves center₁ = x·W1 + b1 and x_j₁ = x·W2 (the reference's stages); the host stretch
  after it is the reference's own aggregation chain applied to x_j₁; region 1 leaves max(center₁ + aggr₁, 0), the reference's
  first hidden layer; regions 2, 3 and the stretch between them repeat this on the hidden layer; region 4 leaves the pooled
  head of the second hidden layer over the graph-id column. Each step rewrites one buffer of a valuation to a reference
  stage; the closing steps unfold the reference's stage definitions, which are the same operations.
-/
import proofs.«401038_j80255758893589_2_alg».proof.Proof.KI.Main
import proofs.«401038_j80255758893589_2_alg».proof.Proof.KI.Val0
import proofs.«401038_j80255758893589_2_alg».proof.Proof.KI.Val1
import proofs.«401038_j80255758893589_2_alg».proof.Proof.KI.Val2
import proofs.«401038_j80255758893589_2_alg».proof.Proof.KI.Val3
import proofs.«401038_j80255758893589_2_alg».proof.Proof.KI.Val4
import proofs.«401038_j80255758893589_2_alg».proof.Proof.KI.HostChains
import proofs.«401038_j80255758893589_2_alg».proof.Proof.KI.HostIds

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.ReferenceIdeal.ReadP

variable (m : (ℓ : Loc nD τ sig) → Buf (Elt Ideal) ℓ)

/-! ## The arguments are never written: every valuation holds them at their launch contents -/

theorem V3_arg (c : Dev nD) (r : Ref sig .tc) (h0 : r ∉ hostOps0_W) (h1 : r ∉ hostOps0_1_W) (h2 : r ∉ hostOps0_2_W) :
    V3 m c r = m ((c : Thread nD τ).loc r) :=
  (V3_of m c r h2).trans ((V2_of m c r h1).trans ((V1_of m c r h0).trans rfl))
theorem V6_arg (o : Outs (F := Ideal)) (c : Dev nD) (r : Ref sig .tc) (h0 : r ∉ hostOps0_W) (h1 : r ∉ hostOps0_1_W) (h2 : r ∉ hostOps0_2_W)
    (h3 : r ∉ ([main_v29_0, main_v29_1] : List (Ref sig .tc))) (h4 : r ∉ hostOps1_W) (h5 : r ∉ ([main_v51] : List (Ref sig .tc))) :
    V6 m o c r = m ((c : Thread nD τ).loc r) :=
  (V6_of m o c r h5).trans ((V5_of m o c r h4).trans ((V4_of m o c r h3).trans (V3_arg m c r h0 h1 h2)))
theorem V9_arg (o : Outs (F := Ideal)) (c : Dev nD) (r : Ref sig .tc) (h0 : r ∉ hostOps0_W) (h1 : r ∉ hostOps0_1_W) (h2 : r ∉ hostOps0_2_W)
    (h3 : r ∉ ([main_v29_0, main_v29_1] : List (Ref sig .tc))) (h4 : r ∉ hostOps1_W) (h5 : r ∉ ([main_v51] : List (Ref sig .tc)))
    (h6 : r ∉ ([main_v52_0, main_v52_1] : List (Ref sig .tc))) (h7 : r ∉ hostOps3_W) (h8 : r ∉ ([main_v74] : List (Ref sig .tc))) :
    V9 m o c r = m ((c : Thread nD τ).loc r) :=
  (V9_of m o c r h8).trans ((V8_of m o c r h7).trans ((V7_of m o c r h6).trans (V6_arg m o c r h0 h1 h2 h3 h4 h5)))

section Walk

variable (c : Dev nD)

/-! ## A valuation read at an array a region has just written is the unknown there -/

theorem V4_v29_0 (o : Outs (F := Ideal)) : V4 m o c main_v29_0 = o 4 main_v29_0 c := by
  show Function.update (Function.update (V3 m c) _ (o 4 main_v29_0 c)) _ (o 4 main_v29_1 c) (Proc.devRef .tc main_v29_0) = _
  rw [Function.update_of_ne (StableHlo.devRef_ne_of_ne (by decide)), Function.update_self]
theorem V4_v29_1 (o : Outs (F := Ideal)) : V4 m o c main_v29_1 = o 4 main_v29_1 c := by
  show Function.update (Function.update (V3 m c) _ (o 4 main_v29_0 c)) _ (o 4 main_v29_1 c) (Proc.devRef .tc main_v29_1) = _
  rw [Function.update_self]
theorem V6_v51 (o : Outs (F := Ideal)) : V6 m o c main_v51 = o 6 main_v51 c := by
  show Function.update (V5 m o c) _ (o 6 main_v51 c) (Proc.devRef .tc main_v51) = _
  rw [Function.update_self]
theorem V7_v52_0 (o : Outs (F := Ideal)) : V7 m o c main_v52_0 = o 7 main_v52_0 c := by
  show Function.update (Function.update (V6 m o c) _ (o 7 main_v52_0 c)) _ (o 7 main_v52_1 c) (Proc.devRef .tc main_v52_0) = _
  rw [Function.update_of_ne (StableHlo.devRef_ne_of_ne (by decide)), Function.update_self]
theorem V7_v52_1 (o : Outs (F := Ideal)) : V7 m o c main_v52_1 = o 7 main_v52_1 c := by
  show Function.update (Function.update (V6 m o c) _ (o 7 main_v52_0 c)) _ (o 7 main_v52_1 c) (Proc.devRef .tc main_v52_1) = _
  rw [Function.update_self]
theorem V9_v74 (o : Outs (F := Ideal)) : V9 m o c main_v74 = o 9 main_v74 c := by
  show Function.update (V8 m o c) _ (o 9 main_v74 c) (Proc.devRef .tc main_v74) = _
  rw [Function.update_self]
theorem V10_v75 (o : Outs (F := Ideal)) : V10 m o c main_v75 = o 10 main_v75 c := by
  show Function.update (V9 m o c) _ (o 10 main_v75 c) (Proc.devRef .tc main_v75) = _
  rw [Function.update_self]

-- `xk` : the launch contents of argument `k` on core `c`
set_option quotPrecheck false in
local notation "x0" => m ((c.tc : Thread nD τ).loc main_arg0)
set_option quotPrecheck false in
local notation "x1" => m ((c.tc : Thread nD τ).loc main_arg1)
set_option quotPrecheck false in
local notation "x2" => m ((c.tc : Thread nD τ).loc main_arg2)
set_option quotPrecheck false in
local notation "x3" => m ((c.tc : Thread nD τ).loc main_arg3)
set_option quotPrecheck false in
local notation "x4" => m ((c.tc : Thread nD τ).loc main_arg4)
set_option quotPrecheck false in
local notation "x5" => m ((c.tc : Thread nD τ).loc main_arg5)
set_option quotPrecheck false in
local notation "x6" => m ((c.tc : Thread nD τ).loc main_arg6)
set_option quotPrecheck false in
local notation "x7" => m ((c.tc : Thread nD τ).loc main_arg7)
set_option quotPrecheck false in
local notation "x8" => m ((c.tc : Thread nD τ).loc main_arg8)
set_option quotPrecheck false in
local notation "x9" => m ((c.tc : Thread nD τ).loc main_arg9)
set_option quotPrecheck false in
local notation "x10" => m ((c.tc : Thread nD τ).loc main_arg10)
set_option quotPrecheck false in
local notation "x11" => m ((c.tc : Thread nD τ).loc main_arg11)
set_option quotPrecheck false in
local notation "x12" => m ((c.tc : Thread nD τ).loc main_arg12)

/-- Region 0 leaves the reference's center₁ … -/
theorem center1_eq : outs1 m 4 main_v29_0 c = val_main_v3 (F := Ideal) x0 x3 x4 := by
  rw [outs1_v29_0]; beta_reduce; rw [final0_4]
  dsimp only [atTc]
  rw [V3_arg m c main_arg0 (by decide) (by decide) (by decide), V3_arg m c main_arg3 (by decide) (by decide) (by decide), V3_arg m c main_arg4 (by decide) (by decide) (by decide)]
/-- … and x_j₁. -/
theorem xj1_eq : outs1 m 4 main_v29_1 c = val_main_v4 (F := Ideal) x0 x5 := by
  rw [outs1_v29_1]; beta_reduce; rw [final0_5]
  dsimp only [atTc]
  rw [V3_arg m c main_arg0 (by decide) (by decide) (by decide), V3_arg m c main_arg5 (by decide) (by decide) (by decide)]

/-- The stretch after region 0 leaves the reference's aggr₁. -/
theorem aggr1_eq : V5 m (outs1 m) c main_v50 = val_main_v53 (F := Ideal) x0 x1 x5 := by
  rw [ker_aggr1 m (outs1 m) c, ref_aggr1, V4_v29_1 m c (outs1 m), xj1_eq]

/-- Region 1 leaves the reference's first hidden layer. -/
theorem hidden1_eq : outs2 m 6 main_v51 c = val_main_v55 (F := Ideal) x0 x1 x3 x4 x5 := by
  rw [outs2_v51]; beta_reduce; rw [final1_2]
  dsimp only [atTc]
  rw [aggr1_eq m c, V5_of m (outs1 m) c main_v29_0 (by decide), V4_v29_0 m c (outs1 m), center1_eq m c]
  unfold val_main_v55 val_main_v54
  rfl

/-- Region 2 leaves the reference's center₂ … -/
theorem center2_eq : outs3 m 7 main_v52_0 c = val_main_v59 (F := Ideal) x0 x1 x3 x4 x5 x6 x7 := by
  rw [outs3_v52_0]; beta_reduce; rw [final2_4]
  dsimp only [atTc]
  rw [V6_arg m (outs2 m) c main_arg6 (by decide) (by decide) (by decide) (by decide) (by decide) (by decide), V6_arg m (outs2 m) c main_arg7 (by decide) (by decide) (by decide) (by decide) (by decide) (by decide), V6_v51 m c (outs2 m), hidden1_eq m c]
  unfold val_main_v59 val_main_v56
  rfl
/-- … and x_j₂. -/
theorem xj2_eq : outs3 m 7 main_v52_1 c = val_main_v60 (F := Ideal) x0 x1 x3 x4 x5 x8 := by
  rw [outs3_v52_1]; beta_reduce; rw [final2_5]
  dsimp only [atTc]
  rw [V6_arg m (outs2 m) c main_arg8 (by decide) (by decide) (by decide) (by decide) (by decide) (by decide), V6_v51 m c (outs2 m), hidden1_eq m c]
  unfold val_main_v60
  rfl

/-- The stretch after region 2 leaves the reference's aggr₂. -/
theorem aggr2_eq : V8 m (outs3 m) c main_v73 = val_main_v109 (F := Ideal) x0 x1 x3 x4 x5 x8 := by
  rw [ker_aggr2 m (outs3 m) c, ref_aggr2, V7_v52_1 m c (outs3 m), xj2_eq]

/-- Region 3 leaves the reference's second hidden layer. -/
theorem hidden2_eq : outs4 m 9 main_v74 c = val_main_v111 (F := Ideal) x0 x1 x3 x4 x5 x6 x7 x8 := by
  rw [outs4_v74]; beta_reduce; rw [final3_2]
  dsimp only [atTc]
  rw [aggr2_eq m c, V8_of m (outs3 m) c main_v52_0 (by decide), V7_v52_0 m c (outs3 m), center2_eq m c]
  unfold val_main_v111 val_main_v110
  rfl

/-- Region 4 leaves the reference's result. -/
theorem result_eq : V10 m (outs m) c main_v75 = val_main_v132 (F := Ideal) x0 x1 x2 x3 x4 x5 x6 x7 x8 x9 x10 x11 x12 := by
  rw [V10_v75 m c (outs m)]
  show outs5 m 10 main_v75 c = _
  rw [outs5_v75]; beta_reduce; rw [final4_6]
  dsimp only [atTc]
  rw [ker_ids m (outs4 m) c, V9_arg m (outs4 m) c main_arg9 (by decide) (by decide) (by decide) (by decide) (by decide) (by decide) (by decide) (by decide) (by decide), V9_arg m (outs4 m) c main_arg10 (by decide) (by decide) (by decide) (by decide) (by decide) (by decide) (by decide) (by decide) (by decide),
    V9_arg m (outs4 m) c main_arg11 (by decide) (by decide) (by decide) (by decide) (by decide) (by decide) (by decide) (by decide) (by decide), V9_arg m (outs4 m) c main_arg12 (by decide) (by decide) (by decide) (by decide) (by decide) (by decide) (by decide) (by decide) (by decide), V9_v74 m c (outs4 m), hidden2_eq m c]
  unfold poolHead val_main_v132 val_main_v129 val_main_v128 val_main_v127 val_main_v124 val_main_v123 val_main_v122 val_main_v121
    val_main_v120 val_main_v118 val_main_v117 val_main_v114 val_main_v113
  rfl

end Walk

end Cert.KernelIdeal.Reg

end
-- ==== Proof.lean ====
/-
  The certificate's claims. The kernel program is five pallas_call regions (two dense projections, two add-and-clamp
  layers, a pooled two-layer head) among stretches of host operations (the edge-indexed gathers and accumulating scatters of
  the two aggregation steps); the reference is the same network as host operations only.
  * The three frames: the kernel program's at the word level and at the exact-real instance are the launch of its ten
    items, each region a segment record over its own body's triple (`Reg.frame`, one text generic in the float instance
    for the two printed programs); the reference's is its run with the result dropped.
  * `preserves`: the ideal pass rewrote nothing, so there is nothing to state.
  * `algebraic`: at the exact-real instance the kernel's result array is, as one function of the argument arrays, the
    reference's (`Reg.result_eq`): the projections are the reference's matrix products row block by row block, the
    add-and-clamp layers are pointwise, the host stretches are the reference's own aggregation chain, and the pooled sums
    over 50 blocks of a one-hot matrix product are the accumulating scatter's sums over all nodes, ids outside 0..63
    contributing to neither. No law used needs finiteness, so the precondition is not opened.
-/
import proofs.«401038_j80255758893589_2_alg».proof.Defs
import proofs.«401038_j80255758893589_2_alg».proof.Proof.K.Main
import proofs.«401038_j80255758893589_2_alg».proof.Proof.KI.RunVal
import proofs.«401038_j80255758893589_2_alg».proof.Proof.KI.Bridge
import proofs.«401038_j80255758893589_2_alg».proof.Proof.RefRead
import proofs.«401038_j80255758893589_2_alg».proof.Proof.Gen.Kernel
import proofs.«401038_j80255758893589_2_alg».proof.Proof.Gen.KernelIdeal
import proofs.«401038_j80255758893589_2_alg».proof.Proof.Gen.ReferenceIdeal
import proofs.«401038_j80255758893589_2_alg».proof.Proof.Gen.Pre_finite_inputs
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Reg.frame (F := Bits) m ρ
theorem frame_ki : Cert.frame_KernelIdeal := fun m ρ _ => Cert.KernelIdeal.Reg.frame (F := Ideal) m ρ
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the reference's result stage at the (agreeing) argument arrays. -/
theorem algebraic : Cert.algebraic_KernelIdeal_ReferenceIdeal := by
  intro m ρ m' ρ' _ hagree
  refine ⟨fun c => Cert.ReferenceIdeal.ReadP.val_main_v132 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)),
    ?_, ?_⟩
  · exact (θ_run Cert.KernelIdeal.defs _ _).mono (fun _ h c => ⟨(h c).1.trans (Cert.KernelIdeal.Reg.result_eq m c), (h c).2⟩)
      (Cert.KernelIdeal.Reg.run_val (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v132_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
